-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x64 .f32) (main_arg1 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : IVec S1x1600000 32 := (extractStridedSlice S1x1600000 ![0, 0] · slices_S2x1600000_S1x1600000_0_0) main_arg1
  let main_v5 : IVec S1600000 32 := shapeCast S1600000 main_v4 shapeCasts_S1x1600000_S1600000
  let main_c_0 : IVec S_ 32 := constantI S_ 32 0#32
  let main_v6 : IVec S1600000 32 := broadcastInDim S1600000 ![] bcast_S_S1600000 main_c_0
  let main_v7 : IVec S1600000 1 := cmpi .sge main_v5 main_v6
  let main_v8 : IVec S1x1600000 32 := (extractStridedSlice S1x1600000 ![0, 0] · slices_S2x1600000_S1x1600000_0_0) main_arg1
  let main_v9 : IVec S1600000 32 := shapeCast S1600000 main_v8 shapeCasts_S1x1600000_S1600000
  let main_c_1 : IVec S_ 32 := constantI S_ 32 100000#32
  let main_v10 : IVec S1600000 32 := broadcastInDim S1600000 ![] bcast_S_S1600000 main_c_1
  let main_v11 : IVec S1600000 1 := cmpi .slt main_v9 main_v10
  let main_v12 : IVec S1600000 1 := andi main_v7 main_v11
  let main_c_2 : IVec S_ 1 := constantI S_ 1 1#1
  let main_v13 : IVec S_ 1 := (fun x v => Host.reduce IntOp.andi x v reducesTo_S1600000_S_d0 h_S_) main_v12 main_c_2
  let main_v14 : IVec S_ 1 := andi main_v3 main_v13
  main_v14
-- ==== Kernel.lean ====
abbrev S100000x64 : Shape := ⟨2, ![100000, 64]⟩
abbrev S2x1600000 : Shape := ⟨2, ![2, 1600000]⟩
abbrev S1x1600000 : Shape := ⟨2, ![1, 1600000]⟩
abbrev S1600000 : Shape := ⟨1, ![1600000]⟩
abbrev S1600000x64 : Shape := ⟨2, ![1600000, 64]⟩
abbrev S1x3200 : Shape := ⟨2, ![1, 3200]⟩
abbrev S2000x64 : Shape := ⟨2, ![2000, 64]⟩
abbrev S3200x64 : Shape := ⟨2, ![3200, 64]⟩
abbrev S2000x1 : Shape := ⟨2, ![2000, 1]⟩
abbrev S2000x3200 : Shape := ⟨2, ![2000, 3200]⟩

abbrev nBuf : Space → Nat
  | .hbm => 10
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S1x1600000, .i32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000x64, .bf16⟩
  | .hbm, ⟨9, _⟩ => ⟨S100000x64, .f32⟩
  | .local _ .vmem, ⟨0, _⟩ => ⟨S1x3200, .i32⟩
  | .local _ .vmem, ⟨1, _⟩ => ⟨S1x3200, .i32⟩
  | .local _ .vmem, ⟨2, _⟩ => ⟨S2000x64, .f32⟩
  | .local _ .vmem, ⟨3, _⟩ => ⟨S2000x64, .f32⟩
  | .local _ .vmem, ⟨4, _⟩ => ⟨S3200x64, .bf16⟩
  | .local _ .vmem, ⟨5, _⟩ => ⟨S3200x64, .bf16⟩
  | .local _ .vmem, ⟨6, _⟩ => ⟨S3200x64, .f32⟩
  | .local _ .vmem, ⟨7, _⟩ => ⟨S1x3200, .i32⟩
  | .local _ .vmem, ⟨8, _⟩ => ⟨S1x3200, .i32⟩
  | .local _ .vmem, ⟨9, _⟩ => ⟨S3200x64, .bf16⟩
  | .local _ .vmem, ⟨10, _⟩ => ⟨S3200x64, .bf16⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![500, 50], ![false, false]⟩

def k0_cond2 (i : grid0.Coords) : BitVec 1 :=
  let arg1 : BitVec 32 := BitVec.ofNat 32 (i 1).val
  let c49_i32 : BitVec 32 := 49#32
  let v23 : BitVec 1 := Scalar.cmpi .eq arg1 c49_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x3200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3200x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![50, 500], ![false, false]⟩

def k1_cond2 (i : grid1.Coords) : BitVec 1 :=
  let arg1 : BitVec 32 := BitVec.ofNat 32 (i 1).val
  let c499_i32 : BitVec 32 := 499#32
  let v23 : BitVec 1 := Scalar.cmpi .eq arg1 c499_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x3200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3200x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  slices_S2x1600000_S1x1600000_0_0 : S2x1600000.Slices ![0, 0] S1x1600000
  shapeCasts_S1x1600000_S1600000 : S1x1600000.ShapeCasts S1600000
  shapeCasts_S1600000_S1x1600000 : S1600000.ShapeCasts S1x1600000
  slices_S2x1600000_S1x1600000_1_0 : S2x1600000.Slices ![1, 0] S1x1600000
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  iota_S2000x1_d0_w32 : S2000x1.Iotas .tc 32 [0]
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S2000x1_S2000x3200 : S2000x1.Broadcasts S2000x3200
  broadcasts_S1x3200_S2000x3200 : S1x3200.Broadcasts S2000x3200
  natLt_1_32 : 1 < 32
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  packedbf16_S3200x64_S3200x64_0_0 : (Rect.unit (s := S3200x64) ![0, 0] S3200x64.size inb_S3200x64_S3200x64_0_0).PackedRows (EltTy.packing .bf16)
  shapeCasts_S2000x64_S2000x64 : S2000x64.ShapeCasts S2000x64
  dot_S2000x3200_S2000x64_S3200x64_0_0_1_1_n_n_wf : DotDims.WF S2000x3200 S2000x64 S3200x64 [0] [0] [1] [1] [] []
  dot_S2000x3200_S3200x64_S2000x64_1_0_0_1_n_n_wf : DotDims.WF S2000x3200 S3200x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3200.size a ≤ S1x1600000.size a
  hwx0_0 : ∀ i : grid0.Coords, EltTy.bits .i32 = 32 ∨ (Rect.block (s := S1x1600000) S1x3200.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x64.size a ≤ S1600000x64.size a
  hwx0_2 : ∀ i : grid0.Coords, EltTy.bits .bf16 = 32 ∨ (Rect.block (s := S1600000x64) S3200x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3200.size a ≤ S1x1600000.size a
  hwx1_0 : ∀ i : grid1.Coords, EltTy.bits .i32 = 32 ∨ (Rect.block (s := S1x1600000) S1x3200.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x64.size a ≤ S1600000x64.size a
  hwx1_1 : ∀ i : grid1.Coords, EltTy.bits .bf16 = 32 ∨ (Rect.block (s := S1600000x64) S3200x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)

variable [Facts₀]

def dot_S2000x3200_S2000x64_S3200x64_0_0_1_1_n_n : DotDims S2000x3200 S2000x64 S3200x64 where
  lhsContracting := [0]
  rhsContracting := [0]
  lhsNonContracting := [1]
  rhsNonContracting := [1]
  lhsBatch := []
  rhsBatch := []
  wf := dot_S2000x3200_S2000x64_S3200x64_0_0_1_1_n_n_wf
def dot_S2000x3200_S3200x64_S2000x64_1_0_0_1_n_n : DotDims S2000x3200 S3200x64 S2000x64 where
  lhsContracting := [1]
  rhsContracting := [0]
  lhsNonContracting := [0]
  rhsNonContracting := [1]
  lhsBatch := []
  rhsBatch := []
  wf := dot_S2000x3200_S3200x64_S2000x64_1_0_0_1_n_n_wf

abbrev win0_0 : Pipeline.Window sig grid0 :=
  Pipeline.Window.ofSpec (Memref.whole main_v2) S1x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S3200x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v5) S1x3200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S3200x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩

abbrev nBuf : Space → Nat
  | .hbm => 19
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S1x1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.K.G0Runs.lean ====
/- Region 0 (the gather call, grid 500 × 50, point t = i0 * 50 + i1) at the contents V its arrays have when the
   region is entered: what the three case runs and the frame module share. The blocks of the windows read off V;
   the two branch conditions of the body in closed form (first of a row: t % 50 = 0; last of a row: t % 50 = 49);
   where the output window is idle and where it is written back; the staging memrefs and the carried accumulator
   as memrefs; the region invariant with the accumulator split off the other scoped buffers. -/
import proofs.«431381_j29575144800265_1_alg».proof.Proof.Gen.Kernel.Launch
import proofs.«431381_j29575144800265_1_alg».proof.Proof.Gen.Kernel.Skeleton
import proofs.«431381_j29575144800265_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the index row; its block index depends on i0 only, so it is fetched at the first point of a row
    and revisited along the row): its current staging buffer holds its block at every point, fetched there or not,
    for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the table's row block i1, fetched at every point): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The last grid coordinate of point t is t % 50 (row-major order, last axis fastest, 50 points a row). -/
theorem coords0_1 (t : Fin cfg0.N) : (grid0.coords t 1).val = t.val % 50 := by
  show t.val / grid0.stride 1 % grid0.bound 1 = t.val % 50
  rw [show grid0.stride 1 = 1 from by decide, show grid0.bound 1 = 50 from rfl, Nat.div_one]

/-- The condition of the body's first conditional (reset the accumulator), from the grid coordinates: i1 = 0. -/
abbrev cond0_0 (i : grid0.Coords) : Prop := (Scalar.cmpi .ne (Scalar.extui (Scalar.cmpi .eq (BitVec.ofNat 32 (i 1).val) 0#32)) 0#32) = 1#1
/-- As a fact about the last coordinate alone: the 32-bit comparison chain decides i1 = 0 (50 values). -/
theorem cond0_0_iff (i : grid0.Coords) : cond0_0 i ↔ (i 1).val = 0 :=
  (by decide +kernel : ∀ j : Fin 50, (Scalar.cmpi .ne (Scalar.extui (Scalar.cmpi .eq (BitVec.ofNat 32 j.val) 0#32)) 0#32) = 1#1 ↔ j.val = 0) (i 1)
/-- It holds exactly at the first point of each row of 50. -/
theorem hcond0_0 : ∀ t : Fin cfg0.N, cond0_0 (grid0.coords t) ↔ t.val % 50 = 0 := fun t => by
  rw [cond0_0_iff, coords0_1]

/-- The condition of the body's second conditional (store the output block), from the grid coordinates: i1 = 49. -/
abbrev cond0_1 (i : grid0.Coords) : Prop := k0_cond2 i = 1#1
/-- As a fact about the last coordinate alone (50 values). -/
theorem cond0_1_iff (i : grid0.Coords) : cond0_1 i ↔ (i 1).val = 49 :=
  (by decide +kernel : ∀ j : Fin 50, (Scalar.cmpi .ne (Scalar.extui (Scalar.cmpi .eq (BitVec.ofNat 32 j.val) 49#32)) 0#32) = 1#1 ↔ j.val = 49) (i 1)
/-- It holds exactly at the last point of each row of 50. -/
theorem hcond0_1 : ∀ t : Fin cfg0.N, cond0_1 (grid0.coords t) ↔ t.val % 50 = 49 := fun t => by
  rw [cond0_1_iff, coords0_1]

/-! ## Where the windows are idle -/

/-- Windows 0 and 1 are inputs: never idle. -/
theorem liveAt0_0 : ∀ t : Fin cfg0.N, cfg0.idle 0 (grid0.coords t) = false := fun _ => rfl
theorem liveAt0_1 : ∀ t : Fin cfg0.N, cfg0.idle 1 (grid0.coords t) = false := fun _ => rfl

/-- The output window's idleness at a point is the negation of the second condition there. -/
theorem idle0_2_eq (i : grid0.Coords) : cfg0.idle 2 i = !(k0_cond2 i == 1#1) := rfl

/-- First of a row (case A): nothing is stored into the output window, which the configuration calls idle there, -/
theorem idleAt0_2_A : ∀ t : Fin cfg0.N, cond0_0 (grid0.coords t) → ¬cond0_1 (grid0.coords t) → cfg0.idle 2 (grid0.coords t) = true := by
  intro t _ h1
  rw [idle0_2_eq, Bool.not_eq_true', beq_eq_false_iff_ne]
  exact h1
/-- and its block is not written back there. -/
theorem noFlush0_2_A : ∀ t : Fin cfg0.N, cond0_0 (grid0.coords t) → ¬cond0_1 (grid0.coords t) → (cfg0.win 2).flush t = false := by
  intro t _ h1
  rw [← Bool.not_eq_true]
  exact fun hf => h1 ((hcond0_1 t).mpr ((flush0_2 t).mp hf))
/-- Middle of a row (case B): the same. -/
theorem idleAt0_2_B : ∀ t : Fin cfg0.N, ¬cond0_0 (grid0.coords t) → ¬cond0_1 (grid0.coords t) → cfg0.idle 2 (grid0.coords t) = true := by
  intro t _ h1
  rw [idle0_2_eq, Bool.not_eq_true', beq_eq_false_iff_ne]
  exact h1
theorem noFlush0_2_B : ∀ t : Fin cfg0.N, ¬cond0_0 (grid0.coords t) → ¬cond0_1 (grid0.coords t) → (cfg0.win 2).flush t = false := by
  intro t _ h1
  rw [← Bool.not_eq_true]
  exact fun hf => h1 ((hcond0_1 t).mpr ((flush0_2 t).mp hf))
/-- Last of a row (case C): the output window is stored into, hence live. -/
theorem liveAt0_2_C : ∀ t : Fin cfg0.N, ¬cond0_0 (grid0.coords t) → cond0_1 (grid0.coords t) → cfg0.idle 2 (grid0.coords t) = false := by
  intro t _ h1
  rw [idle0_2_eq, Bool.not_eq_false', beq_iff_eq]
  exact h1

/-! ## The memrefs the body is run on -/

/-- One staging buffer of the output window, through which its contents are stated (what is read back after a
    covering list of writes does not depend on the view). -/
abbrev VO0_2 : View sig .tc .vmem S3200x64 .bf16 := (Memref.whole cc0_stg2_0 : Memref sig .tc .vmem S3200x64 .bf16).view
/-- Each window's current staging memref at point t, as the pipeline passes it to the body, and its wholeness. -/
abbrev ms0_0 (t : Fin cfg0.N) : Memref sig .tc .vmem S1x3200 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3200x64 .bf16 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows and carried from point to point. -/
abbrev scM0_0 : Memref sig .tc .vmem S3200x64 .f32 := Memref.whole cc0_scratch0
/-- The same as a view: what it holds is stated through it. -/
abbrev VS0_0 : View sig .tc .vmem S3200x64 .f32 := scM0_0.view

/-! ## The region invariant, the accumulator split off -/

/-- The core's scoped buffers that are neither a staging buffer of this call nor its accumulator (the other call's
    staging buffers and accumulator), each at some contents: carried through every point unopened. -/
abbrev rest0 (c : Dev nD) : sProp 𝕄 :=
  Pipeline.scopedRestBut (Ix := Unit) (Name := ℕ) (U := UR sig nD τ) (Lvl := ℕ) (Val := Elt F) spec0 c [cc0_scratch0]

/-- The scoped rest of this call, split at its accumulator. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ rest0 (F := F) c) :=
  Pipeline.scopedRest_split_of_list spec0 c [cc0_scratch0] (by decide) (by decide)

/-- The invariant the launch hands the region, with the accumulator as a memref owned at some contents, the other
    scoped buffers unopened, and the generator register at some state. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_split]; simp only [scM0_0, owns_whole]; try rfl

end Cert.Kernel.Hand

end
-- ==== Proof.K.G0RunA.lean ====
/- Region 0's body in case A (first point of a row: i1 = 0, so the accumulator is reset to zero and then
   accumulated into; the output window is not stored): its triple on any whole memrefs, with the pieces the
   accumulator ends with as the witness the symbolic run finds. -/
import proofs.«431381_j29575144800265_1_alg».proof.Proof.K.G0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case A. On whole memrefs — the two inputs at their contents x0, x1, the output window's buffer at contents xi2
    handed back untouched, the accumulator at anything — the body runs to a continuation holding the inputs and the
    output buffer as they were and the accumulator with its pieces LS0 written (the zero store, then the
    accumulating store). L2 = []: no piece is stored into the output window. -/
noncomputable def kernelRun0_A (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : cond0_0 i) (hc1 : ¬cond0_1 i)
    (x0 : Vec F S1x3200 .i32) (x1 : Vec F S2000x64 .f32) :
    Σ' (L2 : List (View.Piece (Elt F) S3200x64 .bf16)), { LS0 : List (View.Piece (Elt F) S3200x64 .f32) //
      ∀ (xi2 : Vec F S3200x64 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.G0RunB.lean ====
/- Region 0's body in case B (a middle point of a row: neither conditional is taken; the accumulator, at what the
   point before left, is accumulated into; the output window is not stored). -/
import proofs.«431381_j29575144800265_1_alg».proof.Proof.K.G0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case B. As case A, the accumulator entering at the contents xs0 the point before left. L2 = []. -/
noncomputable def kernelRun0_B (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : ¬cond0_0 i) (hc1 : ¬cond0_1 i)
    (x0 : Vec F S1x3200 .i32) (x1 : Vec F S2000x64 .f32) (xs0 : Vec F S3200x64 .f32) :
    Σ' (L2 : List (View.Piece (Elt F) S3200x64 .bf16)), { LS0 : List (View.Piece (Elt F) S3200x64 .f32) //
      ∀ (xi2 : Vec F S3200x64 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.G0RunC.lean ====
/- Region 0's body in case C (the last point of a row: i1 = 49; the accumulator is accumulated into, then read,
   rounded to bf16 and stored over the whole output block, whose buffer the body also reads just before). -/
import proofs.«431381_j29575144800265_1_alg».proof.Proof.K.G0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case C. The inputs at x0, x1, the output window's buffer at anything, the accumulator at xs0: the body runs to
    a continuation holding the inputs as they were, the output buffer with its pieces L2 written (one covering
    store) and the accumulator with its pieces LS0 written. -/
noncomputable def kernelRun0_C (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : ¬cond0_0 i) (hc1 : cond0_1 i)
    (x0 : Vec F S1x3200 .i32) (x1 : Vec F S2000x64 .f32) (xs0 : Vec F S3200x64 .f32) :
    Σ' (L2 : List (View.Piece (Elt F) S3200x64 .bf16)), { LS0 : List (View.Piece (Elt F) S3200x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.G0Frame.lean ====
/- Region 0's frame, at the entry contents V: what each case leaves in the output window's buffer and in the
   carried accumulator (the pieces the runs found, read back; that they cover), the same point by point along the
   grid (the accumulation: a point that is not the first of its row starts from what the point before left), the
   region invariant carrying the accumulator at those contents, the pipeline's proof data, and the body obligation
   at every point. -/
import proofs.«431381_j29575144800265_1_alg».proof.Proof.K.G0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output window: no pieces; a placeholder nothing consults (at these points the
    window is neither written back nor read at the next point). -/
def out0_A_2 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : cond0_0 i) (hc1 : ¬cond0_1 i)
    (x0 : Vec F S1x3200 .i32) (x1 : Vec F S2000x64 .f32) : Vec F S3200x64 .bf16 :=
  VO0_2.read (Elt F) (VO0_2.writes (Elt F) VO0_2.junk (kernelRun0_A c i arg2 harg2 arg3 harg3 arg4 harg4 arg5 harg5 hc0 hc1 x0 x1).1)

/-- Case A's pieces for the accumulator (the zero store, the accumulating store) cover it. -/
theorem scover0_A_0 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : cond0_0 i) (hc1 : ¬cond0_1 i)
    (x0 : Vec F S1x3200 .i32) (x1 : Vec F S2000x64 .f32) (y : S3200x64.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S3200x64.size (by sl_kernel_rfl) y

/-- What case A leaves in the accumulator: its pieces read back. -/
def sout0_A_0 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : cond0_0 i) (hc1 : ¬cond0_1 i)
    (x0 : Vec F S1x3200 .i32) (x1 : Vec F S2000x64 .f32) : Vec F S3200x64 .f32 :=
  VS0_0.read (Elt F) (VS0_0.writes (Elt F) VS0_0.junk (kernelRun0_A c i arg2 harg2 arg3 harg3 arg4 harg4 arg5 harg5 hc0 hc1 x0 x1).2.1)

/-- Case B stores nothing into the output window either. -/
def out0_B_2 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : ¬cond0_0 i) (hc1 : ¬cond0_1 i)
    (x0 : Vec F S1x3200 .i32) (x1 : Vec F S2000x64 .f32) (xs0 : Vec F S3200x64 .f32) : Vec F S3200x64 .bf16 :=
  VO0_2.read (Elt F) (VO0_2.writes (Elt F) VO0_2.junk (kernelRun0_B c i arg2 harg2 arg3 harg3 arg4 harg4 arg5 harg5 hc0 hc1 x0 x1 xs0).1)

/-- Case B's piece for the accumulator covers it. -/
theorem scover0_B_0 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : ¬cond0_0 i) (hc1 : ¬cond0_1 i)
    (x0 : Vec F S1x3200 .i32) (x1 : Vec F S2000x64 .f32) (xs0 : Vec F S3200x64 .f32) (y : S3200x64.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S3200x64.size (by sl_kernel_rfl) y

/-- What case B leaves in the accumulator. -/
def sout0_B_0 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : ¬cond0_0 i) (hc1 : ¬cond0_1 i)
    (x0 : Vec F S1x3200 .i32) (x1 : Vec F S2000x64 .f32) (xs0 : Vec F S3200x64 .f32) : Vec F S3200x64 .f32 :=
  VS0_0.read (Elt F) (VS0_0.writes (Elt F) VS0_0.junk (kernelRun0_B c i arg2 harg2 arg3 harg3 arg4 harg4 arg5 harg5 hc0 hc1 x0 x1 xs0).2.1)

/-- Case C's one store into the output window covers its block. -/
theorem cover0_C_2 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : ¬cond0_0 i) (hc1 : cond0_1 i)
    (x0 : Vec F S1x3200 .i32) (x1 : Vec F S2000x64 .f32) (xs0 : Vec F S3200x64 .f32) (y : S3200x64.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S3200x64.size (by sl_kernel_rfl) y

/-- What case C leaves in the output window's staging buffer: its piece read back. -/
def out0_C_2 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : ¬cond0_0 i) (hc1 : cond0_1 i)
    (x0 : Vec F S1x3200 .i32) (x1 : Vec F S2000x64 .f32) (xs0 : Vec F S3200x64 .f32) : Vec F S3200x64 .bf16 :=
  VO0_2.read (Elt F) (VO0_2.writes (Elt F) VO0_2.junk (kernelRun0_C c i arg2 harg2 arg3 harg3 arg4 harg4 arg5 harg5 hc0 hc1 x0 x1 xs0).1)

/-- Case C's piece for the accumulator covers it. -/
theorem scover0_C_0 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : ¬cond0_0 i) (hc1 : cond0_1 i)
    (x0 : Vec F S1x3200 .i32) (x1 : Vec F S2000x64 .f32) (xs0 : Vec F S3200x64 .f32) (y : S3200x64.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S3200x64.size (by sl_kernel_rfl) y

/-- What case C leaves in the accumulator. -/
def sout0_C_0 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : ¬cond0_0 i) (hc1 : cond0_1 i)
    (x0 : Vec F S1x3200 .i32) (x1 : Vec F S2000x64 .f32) (xs0 : Vec F S3200x64 .f32) : Vec F S3200x64 .f32 :=
  VS0_0.read (Elt F) (VS0_0.writes (Elt F) VS0_0.junk (kernelRun0_C c i arg2 harg2 arg3 harg3 arg4 harg4 arg5 harg5 hc0 hc1 x0 x1 xs0).2.1)

/-! ## What the output window and the accumulator hold after each point -/

/-- THE ACCUMULATION. After the body at position n: (.1) the output window's staging buffer, (.2) the accumulator —
    the case n % 50 selects, run at the point's memrefs and input blocks, the accumulator entering at what
    position n - 1 left unless n is the first of its row. No point is both first and last of a row. -/
def outsAt0 (c : Dev nD) : (n : ℕ) → n < cfg0.N → Vec F S3200x64 .bf16 × Vec F S3200x64 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 50 = 0 then
      if h1 : (n + 1) % 50 = 49 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 50 = 49 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- outsAt0 at a first point of a row: case A's contents. -/
theorem outsAt0_A (c : Dev nD) (t : Fin cfg0.N) (h0 : t.val % 50 = 0) (h1 : ¬t.val % 50 = 49) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- outsAt0 at a middle point of a row: case B's contents, over what the point before left. -/
theorem outsAt0_B (c : Dev nD) (t : Fin cfg0.N) (h0 : ¬t.val % 50 = 0) (h1 : ¬t.val % 50 = 49) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- outsAt0 at a last point of a row: case C's contents, over what the point before left. -/
theorem outsAt0_C (c : Dev nD) (t : Fin cfg0.N) (h0 : ¬t.val % 50 = 0) (h1 : t.val % 50 = 49) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: before the first point what the launch hands the region (every scoped buffer at anything);
    afterwards the accumulator at what the point before left in it, the other scoped buffers unopened, the generator
    register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point n (before point n + 1): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of region 0's pipeline on core c: the arrays as the region finds them (V); after the body at
    point t each input's buffer at its block and the output's at outsAt0's first component; the invariant PhiS0;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at t.val. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; t % 50 says which case the point is in; the
    invariant hands the body the accumulator at what the point before left (at anything at the very first point) and
    takes it back at this point's contents, the pieces covering it; the other scoped buffers, the generator register
    and what the core owes pass through untouched; an idle output buffer is handed back as found, a stored one at its
    covering piece read back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 25000 := lt_of_lt_of_eq t.isLt (show cfg0.N = 25000 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 50 = 0
  · by_cases h1 : t.val % 50 = 49
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 50 = 49
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      have hz : t.val ≠ 0 := by omega
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      have hz : t.val ≠ 0 := fun e => h0 (by rw [e])
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 25000 := N_0; omega)

end Cert.Kernel.Hand

end
-- ==== Proof.K.S1Runs.lean ====
import proofs.«431381_j29575144800265_1_alg».proof.Proof.Gen.Kernel.Launch
import proofs.«431381_j29575144800265_1_alg».proof.Proof.Gen.Kernel.Skeleton
import proofs.«431381_j29575144800265_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: everything below is stated at them
variable (V : (c : Dev nD) → (b : Ref sig .tc) → Buf (Elt F) ((c : Thread nD τ).loc b))

/-! # Region 1 (the scatter-add kernel, pipeline 1), at the entry contents `V`: what its three runs share -/

/-! ## The windows' blocks -/

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (a row of 3200 destination indices): its current staging buffer holds its block at every point,
    for any proof data whose array is the entry contents and whose body leaves the block in place. The window is
    never cut and never idle, so an unfetched buffer still holds the block of an index that has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (3200 message rows of 64): the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional's test, from the grid coordinates: the inner coordinate is 0 (the first block of a row of
    500: the accumulator is reset there). -/
abbrev cond1_0 (i : grid1.Coords) : Prop := (Scalar.cmpi .ne (Scalar.extui (Scalar.cmpi .eq (BitVec.ofNat 32 (i 1).val) 0#32)) 0#32) = 1#1
/-- It holds at the points ≡ 0 (mod 500). -/
theorem hcond1_0 : ∀ t : Fin cfg1.N, cond1_0 (grid1.coords t) ↔ t.val % 500 = 0 :=
  (by decide +kernel : ∀ t : Fin grid1.N, cond1_0 (grid1.coords t) ↔ t.val % 500 = 0)

/-- The second conditional's test: the inner coordinate is 499 (the last block of a row: the accumulator is stored
    to the output there). -/
abbrev cond1_1 (i : grid1.Coords) : Prop := k1_cond2 i = 1#1
/-- It holds at the points ≡ 499 (mod 500). -/
theorem hcond1_1 : ∀ t : Fin cfg1.N, cond1_1 (grid1.coords t) ↔ t.val % 500 = 499 :=
  (by decide +kernel : ∀ t : Fin grid1.N, cond1_1 (grid1.coords t) ↔ t.val % 500 = 499)

/-! ## Where the windows are idle -/

/-- Windows 0 and 1 are inputs: never idle. -/
theorem liveAt1_0 : ∀ t : Fin cfg1.N, cfg1.idle 0 (grid1.coords t) = false := fun _ => rfl
theorem liveAt1_1 : ∀ t : Fin cfg1.N, cfg1.idle 1 (grid1.coords t) = false := fun _ => rfl

/-- The output window is idle exactly where the second test fails. -/
theorem idle1_2_iff (i : grid1.Coords) : cfg1.idle 2 i = true ↔ ¬cond1_1 i := by
  show (!(k1_cond2 i == 1#1)) = true ↔ ¬(k1_cond2 i = 1#1)
  simp only [Bool.not_eq_true', beq_eq_false_iff_ne, ne_eq]

/-- In case A (first block of a row) nothing is stored into output 2: the window is idle there, -/
theorem idleAt1_2_A : ∀ t : Fin cfg1.N, cond1_0 (grid1.coords t) → ¬cond1_1 (grid1.coords t) → cfg1.idle 2 (grid1.coords t) = true :=
  fun t _ h1 => (idle1_2_iff _).mpr h1
/-- and its block is not written back there (a write-back happens only at a point ≡ 499 (mod 500)). -/
theorem noFlush1_2_A : ∀ t : Fin cfg1.N, cond1_0 (grid1.coords t) → ¬cond1_1 (grid1.coords t) → (cfg1.win 2).flush t = false :=
  fun t _ h1 => by
    cases hf : (cfg1.win 2).flush t with
    | false => rfl
    | true => exact absurd ((hcond1_1 t).mpr ((flush1_2 t).mp hf)) h1
/-- In case B (a middle block) likewise. -/
theorem idleAt1_2_B : ∀ t : Fin cfg1.N, ¬cond1_0 (grid1.coords t) → ¬cond1_1 (grid1.coords t) → cfg1.idle 2 (grid1.coords t) = true :=
  fun t _ h1 => (idle1_2_iff _).mpr h1
theorem noFlush1_2_B : ∀ t : Fin cfg1.N, ¬cond1_0 (grid1.coords t) → ¬cond1_1 (grid1.coords t) → (cfg1.win 2).flush t = false :=
  fun t _ h1 => by
    cases hf : (cfg1.win 2).flush t with
    | false => rfl
    | true => exact absurd ((hcond1_1 t).mpr ((flush1_2 t).mp hf)) h1
/-- In case C (last block of a row) the output is stored: the window is live. -/
theorem liveAt1_2_C : ∀ t : Fin cfg1.N, ¬cond1_0 (grid1.coords t) → cond1_1 (grid1.coords t) → cfg1.idle 2 (grid1.coords t) = false :=
  fun t _ h1 => by
    cases hi : cfg1.idle 2 (grid1.coords t) with
    | false => rfl
    | true => exact absurd h1 ((idle1_2_iff _).mp hi)

/-! ## The staging and scratch memrefs the body is called on -/

/-- One staging buffer of output window 2, through which its contents are stated (the choice does not matter: a
    covering family of pieces reads back the same through any whole view). -/
abbrev VO1_2 : View sig .tc .vmem S2000x64 .f32 := (Memref.whole cc1_stg2_0 : Memref sig .tc .vmem S2000x64 .f32).view
/-- Each window's current staging memref at point `t`, as the pipeline passes it, and its wholeness. -/
abbrev ms1_0 (t : Fin cfg1.N) : Memref sig .tc .vmem S1x3200 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x64 .f32 := win1_2.stage (cfg1.slots t 2)
abbrev hs1_2 (t : Fin cfg1.N) : (ms1_2 t).IsWhole := hstage1_2 ((cfg1.slots t 2).cast nbuf1_2)
/-- The scratch operand: the kernel's own whole scoped buffer, the accumulator of one row of 500 blocks. -/
abbrev scM1_0 : Memref sig .tc .vmem S2000x64 .f32 := Memref.whole cc1_scratch0
/-- The accumulator as a view: what it holds between points is stated through it. -/
abbrev VS1_0 : View sig .tc .vmem S2000x64 .f32 := scM1_0.view

/-- The region's base invariant with the scoped buffers one by one — the other kernel's staging buffers and
    accumulator at some contents, this kernel's accumulator as a memref owned at some contents — and the generator
    register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.K.S1RunA.lean ====
import proofs.«431381_j29575144800265_1_alg».proof.Proof.K.S1Runs

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: everything below is stated at them
variable (V : (c : Dev nD) → (b : Ref sig .tc) → Buf (Elt F) ((c : Thread nD τ).loc b))

-- (a large proof term)
set_option maxHeartbeats 1000000 in
/-- CASE A of the scatter-add body (the first block of a row: the first conditional taken, the second not). What the
    body's stores leave, as pieces, last first: none in output 2; in the accumulator the reset and then the sum. With
    the proof that on whole memrefs — the two inputs' at their blocks `x0`, `x1`, output 2's at any contents `xi2`,
    handed back untouched, the accumulator's at anything — the body runs to the continuation holding the inputs and
    output 2 as they were and the accumulator with its pieces written. The pieces are the witness the symbolic
    execution of the body's memory operations finds. -/
noncomputable def kernelRun1_A (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : cond1_0 i) (hc1 : ¬cond1_1 i)
    (x0 : Vec F S1x3200 .i32) (x1 : Vec F S3200x64 .bf16) :
    Σ' (L2 : List (View.Piece (Elt F) S2000x64 .f32)), { LS0 : List (View.Piece (Elt F) S2000x64 .f32) //
      ∀ (xi2 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.S1RunB.lean ====
import proofs.«431381_j29575144800265_1_alg».proof.Proof.K.S1RunA

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: everything below is stated at them
variable (V : (c : Dev nD) → (b : Ref sig .tc) → Buf (Elt F) ((c : Thread nD τ).loc b))

-- (a large proof term)
set_option maxHeartbeats 1000000 in
/-- CASE B of the scatter-add body (a middle block of a row: neither conditional taken). What the body's stores
    leave, as pieces, last first: none in output 2; in the accumulator the sum over what the point before left
    (`xs0`). With the proof that on whole memrefs — the two inputs' at their blocks, output 2's at any contents `xi2`,
    handed back untouched, the accumulator's at `xs0` — the body runs to the continuation holding the inputs and
    output 2 as they were and the accumulator with its pieces written. -/
noncomputable def kernelRun1_B (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : ¬cond1_0 i) (hc1 : ¬cond1_1 i)
    (x0 : Vec F S1x3200 .i32) (x1 : Vec F S3200x64 .bf16) (xs0 : Vec F S2000x64 .f32) :
    Σ' (L2 : List (View.Piece (Elt F) S2000x64 .f32)), { LS0 : List (View.Piece (Elt F) S2000x64 .f32) //
      ∀ (xi2 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.S1RunC.lean ====
import proofs.«431381_j29575144800265_1_alg».proof.Proof.K.S1RunB

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: everything below is stated at them
variable (V : (c : Dev nD) → (b : Ref sig .tc) → Buf (Elt F) ((c : Thread nD τ).loc b))

-- (a large proof term)
set_option maxHeartbeats 1000000 in
/-- CASE C of the scatter-add body (the last block of a row: the first conditional not taken, the second taken). What
    the body's stores leave, as pieces, last first: in the accumulator the sum over what the point before left
    (`xs0`); in output 2 that sum, loaded back and stored whole (the body also loads output 2's buffer before storing
    it: a load of anything, whose value nothing reads). With the proof that on whole memrefs — the two inputs' at
    their blocks, output 2's at anything, the accumulator's at `xs0` — the body runs to the continuation holding the
    inputs as they were and output 2 and the accumulator with their pieces written. -/
noncomputable def kernelRun1_C (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : ¬cond1_0 i) (hc1 : cond1_1 i)
    (x0 : Vec F S1x3200 .i32) (x1 : Vec F S3200x64 .bf16) (xs0 : Vec F S2000x64 .f32) :
    Σ' (L2 : List (View.Piece (Elt F) S2000x64 .f32)), { LS0 : List (View.Piece (Elt F) S2000x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.S1Frame.lean ====
import proofs.«431381_j29575144800265_1_alg».proof.Proof.K.S1RunC

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: everything below is stated at them
variable (V : (c : Dev nD) → (b : Ref sig .tc) → Buf (Elt F) ((c : Thread nD τ).loc b))

/-! # Region 1: what each case leaves, the accumulation point by point, the proof data and the body obligation -/

/-- Case A stores nothing into output 2 (the window is idle at its points and not written back there): no pieces —
    a placeholder (junk read back) that nothing consults, since at these points the window is neither written back
    nor read at the next point. -/
def out1_A_2 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : cond1_0 i) (hc1 : ¬cond1_1 i)
    (x0 : Vec F S1x3200 .i32) (x1 : Vec F S3200x64 .bf16) : Vec F S2000x64 .f32 :=
  VO1_2.read (Elt F) (VO1_2.writes (Elt F) VO1_2.junk (kernelRun1_A c i arg2 harg2 arg3 harg3 arg4 harg4 arg5 harg5 hc0 hc1 x0 x1).1)

/-- Case A's pieces for the accumulator, which the kernel carries between points, tile it, so they cover it. -/
theorem scover1_A_0 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : cond1_0 i) (hc1 : ¬cond1_1 i)
    (x0 : Vec F S1x3200 .i32) (x1 : Vec F S3200x64 .bf16) (y : S2000x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2000x64.size (by sl_kernel_rfl) y

/-- What case A leaves in the accumulator: its pieces read back over junk. -/
def sout1_A_0 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : cond1_0 i) (hc1 : ¬cond1_1 i)
    (x0 : Vec F S1x3200 .i32) (x1 : Vec F S3200x64 .bf16) : Vec F S2000x64 .f32 :=
  VS1_0.read (Elt F) (VS1_0.writes (Elt F) VS1_0.junk (kernelRun1_A c i arg2 harg2 arg3 harg3 arg4 harg4 arg5 harg5 hc0 hc1 x0 x1).2.1)

/-- Case B stores nothing into output 2 (the window is idle at its points and not written back there): no pieces —
    a placeholder (junk read back) that nothing consults, since at these points the window is neither written back
    nor read at the next point. -/
def out1_B_2 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : ¬cond1_0 i) (hc1 : ¬cond1_1 i)
    (x0 : Vec F S1x3200 .i32) (x1 : Vec F S3200x64 .bf16) (xs0 : Vec F S2000x64 .f32) : Vec F S2000x64 .f32 :=
  VO1_2.read (Elt F) (VO1_2.writes (Elt F) VO1_2.junk (kernelRun1_B c i arg2 harg2 arg3 harg3 arg4 harg4 arg5 harg5 hc0 hc1 x0 x1 xs0).1)

/-- Case B's pieces for the accumulator, which the kernel carries between points, tile it, so they cover it. -/
theorem scover1_B_0 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : ¬cond1_0 i) (hc1 : ¬cond1_1 i)
    (x0 : Vec F S1x3200 .i32) (x1 : Vec F S3200x64 .bf16) (xs0 : Vec F S2000x64 .f32) (y : S2000x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2000x64.size (by sl_kernel_rfl) y

/-- What case B leaves in the accumulator: its pieces read back over junk. -/
def sout1_B_0 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : ¬cond1_0 i) (hc1 : ¬cond1_1 i)
    (x0 : Vec F S1x3200 .i32) (x1 : Vec F S3200x64 .bf16) (xs0 : Vec F S2000x64 .f32) : Vec F S2000x64 .f32 :=
  VS1_0.read (Elt F) (VS1_0.writes (Elt F) VS1_0.junk (kernelRun1_B c i arg2 harg2 arg3 harg3 arg4 harg4 arg5 harg5 hc0 hc1 x0 x1 xs0).2.1)

/-- Case C's pieces for output 2 tile its block (one whole store of 2000 × 64), so they cover it. -/
theorem cover1_C_2 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : ¬cond1_0 i) (hc1 : cond1_1 i)
    (x0 : Vec F S1x3200 .i32) (x1 : Vec F S3200x64 .bf16) (xs0 : Vec F S2000x64 .f32) (y : S2000x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2000x64.size (by sl_kernel_rfl) y

/-- What case C leaves in output 2's staging buffer: its pieces read back over junk. -/
def out1_C_2 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : ¬cond1_0 i) (hc1 : cond1_1 i)
    (x0 : Vec F S1x3200 .i32) (x1 : Vec F S3200x64 .bf16) (xs0 : Vec F S2000x64 .f32) : Vec F S2000x64 .f32 :=
  VO1_2.read (Elt F) (VO1_2.writes (Elt F) VO1_2.junk (kernelRun1_C c i arg2 harg2 arg3 harg3 arg4 harg4 arg5 harg5 hc0 hc1 x0 x1 xs0).1)

/-- Case C's pieces for the accumulator, which the kernel carries between points, tile it, so they cover it. -/
theorem scover1_C_0 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : ¬cond1_0 i) (hc1 : cond1_1 i)
    (x0 : Vec F S1x3200 .i32) (x1 : Vec F S3200x64 .bf16) (xs0 : Vec F S2000x64 .f32) (y : S2000x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2000x64.size (by sl_kernel_rfl) y

/-- What case C leaves in the accumulator: its pieces read back over junk. -/
def sout1_C_0 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : ¬cond1_0 i) (hc1 : cond1_1 i)
    (x0 : Vec F S1x3200 .i32) (x1 : Vec F S3200x64 .bf16) (xs0 : Vec F S2000x64 .f32) : Vec F S2000x64 .f32 :=
  VS1_0.read (Elt F) (VS1_0.writes (Elt F) VS1_0.junk (kernelRun1_C c i arg2 harg2 arg3 harg3 arg4 harg4 arg5 harg5 hc0 hc1 x0 x1 xs0).2.1)

/-! ## What the output and the accumulator hold after each point -/

/-- THE ACCUMULATION. What output 2's staging buffer (first component) and the accumulator (second component) hold
    after the body at position `n`: the case the closed forms select at `n` (`n % 500 = 0`: first block of a row;
    `n % 500 = 499`: last block; otherwise a middle block), run at the point's memrefs and input blocks, over what the
    accumulator held after position `n - 1`. No point is both first and last of its row. -/
def outsAt1 (c : Dev nD) : (n : ℕ) → n < cfg1.N → Vec F S2000x64 .f32 × Vec F S2000x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 500 = 0 then
      if h1 : (n + 1) % 500 = 499 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 500 = 499 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A: that case's contents. -/
theorem outsAt1_A (c : Dev nD) (t : Fin cfg1.N) (h0 : t.val % 500 = 0) (h1 : ¬t.val % 500 = 499) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 500 = 0) (h1 : ¬t.val % 500 = 499) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 500 = 0) (h1 : t.val % 500 = 499) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the base invariant (every scoped buffer at
    anything, the generator register at some state); afterwards the same with the accumulator at what the point
    before left in it (`outsAt1`'s second component). -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and output 2's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the closed forms say which case the point is in; the
    invariant hands the body the accumulator at what the point before left (at anything at the first point), the
    other scoped buffers and the generator register untouched, and takes the accumulator back at this point's
    contents (its pieces cover it); output 2's buffer is handed back as found where the case stores nothing into
    it, and at its covering pieces read back in case C; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 25000 := lt_of_lt_of_eq t.isLt (show cfg1.N = 25000 from N_1)
  by_cases h0 : t.val % 500 = 0
  · by_cases h1 : t.val % 500 = 499
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR0, HR1, HR2, HR3, HR4, HR5, HR6, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR0 HR1 HR2 HR3 HR4 HR5 HR6 HS0 Hg]
        · isplitl [HR0 HR1 HR2 HR3 HR4 HR5 HR6 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HR0, HR1, HR2, HR3, HR4, HR5, HR6, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HR0 HR1 HR2 HR3 HR4 HR5 HR6 HS0 Hg]
        · isplitl [HR0 HR1 HR2 HR3 HR4 HR5 HR6 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 500 = 499
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨HR0, HR1, HR2, HR3, HR4, HR5, HR6, HS0⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HR0 HR1 HR2 HR3 HR4 HR5 HR6 HS0 Hg]
        · isplitl [HR0 HR1 HR2 HR3 HR4 HR5 HR6 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HR0, HR1, HR2, HR3, HR4, HR5, HR6, HS0⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR0 HR1 HR2 HR3 HR4 HR5 HR6 HS0 Hg]
        · isplitl [HR0 HR1 HR2 HR3 HR4 HR5 HR6 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with (the base invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the base invariant back: the accumulator's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HS0⟩, Hg⟩
  isplitl [HR0 HR1 HR2 HR3 HR4 HR5 HR6 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 25000 := N_1; omega)

end Cert.Kernel.Hand

end
-- ==== Proof.K.Run.lean ====
import proofs.«431381_j29575144800265_1_alg».proof.Proof.K.G0Frame
import proofs.«431381_j29575144800265_1_alg».proof.Proof.K.S1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: one stretch of host operations, then the gather region, then the scatter region

## The buffer contents at each boundary, folded from the launch memory -/

/-- Core `c`'s buffers at launch. -/
abbrev W0 : Dev nD → Valuation τ sig (Elt F) := fun c b => (s₀ m ρ).mem ((c : Dev nD), b)
/-- After the host operations (the two rows of the index array sliced out): what the gather region is entered from. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- After the gather region: its windows' arrays at what the pipeline leaves in them (the inputs as entered, the
    output with every written-back block folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: what the scatter region is entered from (no host operation
    stands between the two regions). -/
abbrev V2 : (c : Dev nD) → (b : Ref sig .tc) → Buf (Elt F) ((c : Thread nD τ).loc b) := fun c b => W2 m ρ c b
/-- Leaving the gather region, each of its arrays holds what the pipeline leaves and every other buffer what it held. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the scatter region (the end of @main): its windows' arrays at what the pipeline leaves, every other
    buffer as the gather region left it. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched

The feature table is an input window of the gather region and no window of the scatter region; the index array is
a window of neither and no host operation writes it (they only read its rows). So the fold at either argument
walks back to the launch memory. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ### The result and the intermediate array through the fold

The scatter region's output array ends at what its pipeline leaves; the gather region's output array — the scatter
region's second input — enters the scatter region at what the gather pipeline left; the second index row passes the
gather region untouched. -/

theorem W3_main_v7 (c : Dev nD) : W3 m ρ c (Proc.devRef .tc main_v7) = (dat1 (V2 m ρ) c).arrAt 2 cfg1.N := W3_arr m ρ c 2
theorem W2_main_v6 (c : Dev nD) : W2 m ρ c (Proc.devRef .tc main_v6) = (dat0 (V1 m ρ) c).arrAt 2 cfg0.N := W2_arr m ρ c 2
theorem W2_main_v5 (c : Dev nD) : W2 m ρ c (Proc.devRef .tc main_v5) = W1 m ρ c (Proc.devRef .tc main_v5) :=
  W2_of_ne m ρ c main_v5 (by decide)
theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-! ## The proof data family and the thread state -/

/-- Neither pipeline has a prefetched table. -/
abbrev adm : (p : Fin 2) → (pcfgs (F := F) p).Adm := fun p => (cfgs p).toPCfg_adm
/-- Each pipeline's proof data at the contents its region is entered from: a literal match, so that the
    configuration at a numeral index reduces to that pipeline's own. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers held at `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the final contents `W3`, the generator
    register at some state. -/
abbrev Tₙ (c : Dev nD) : sProp 𝕄 := iprop(StableHlo.held (c : Thread nD τ) (Pipeline.ucRefs τ sig) (W3 m ρ c) ∗ ∃ r, prngReg c r)

/-! ## The regions as segments

Each region's invariant carries its scratch accumulator from point to point; before the first point and after the
last it is the plain one (the scoped rest at anything, the generator register at some state), which is what the
segment hands in and takes back. -/

set_option backward.isDefEq.respectTransparency.types false in
/-- The gather region: entered from every unscoped buffer at `W1`, left at `W2`. Its arrays are split out of the
    unscoped buffers and put back at the exit contents; the generator register goes into the invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter region: entered from every unscoped buffer at `W2` (what the gather region left), left at `W3`,
    which is what the launch reads at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host stretch from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments: it is the chain of its items, and the segments' run is that chain. -/
theorem main_run (c : Dev nD) : main (F := F) c = Pipeline.Seg.run (segs m ρ) := (main_chain c).trans (by chain_rfl)

set_option backward.isDefEq.respectTransparency.types false in
/-- From any memory with zero counters, every weakly fair execution of @main on the TensorCores terminates, nothing
    faulting, and in every final state every unscoped buffer of every core holds the fold's last contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: from any memory with zero counters every weakly fair execution of @main terminates, nothing faulting,
    and both argument arrays end as launched — each read at the final contents and walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_all m ρ)

end Cert.Kernel.Hand

end
-- ==== Proof.KI.G0Runs.lean ====
/- Region 0 (the gather call, grid 500 × 50, point t = i0 * 50 + i1) at the contents V its arrays have when the
   region is entered: what the three case runs and the frame module share. The blocks of the windows read off V;
   the two branch conditions of the body in closed form (first of a row: t % 50 = 0; last of a row: t % 50 = 49);
   where the output window is idle and where it is written back; the staging memrefs and the carried accumulator
   as memrefs; the region invariant with the accumulator split off the other scoped buffers. -/
import proofs.«431381_j29575144800265_1_alg».proof.Proof.Gen.KernelIdeal.Launch
import proofs.«431381_j29575144800265_1_alg».proof.Proof.Gen.KernelIdeal.Skeleton
import proofs.«431381_j29575144800265_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the index row; its block index depends on i0 only, so it is fetched at the first point of a row
    and revisited along the row): its current staging buffer holds its block at every point, fetched there or not,
    for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the table's row block i1, fetched at every point): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The last grid coordinate of point t is t % 50 (row-major order, last axis fastest, 50 points a row). -/
theorem coords0_1 (t : Fin cfg0.N) : (grid0.coords t 1).val = t.val % 50 := by
  show t.val / grid0.stride 1 % grid0.bound 1 = t.val % 50
  rw [show grid0.stride 1 = 1 from by decide, show grid0.bound 1 = 50 from rfl, Nat.div_one]

/-- The condition of the body's first conditional (reset the accumulator), from the grid coordinates: i1 = 0. -/
abbrev cond0_0 (i : grid0.Coords) : Prop := (Scalar.cmpi .ne (Scalar.extui (Scalar.cmpi .eq (BitVec.ofNat 32 (i 1).val) 0#32)) 0#32) = 1#1
/-- As a fact about the last coordinate alone: the 32-bit comparison chain decides i1 = 0 (50 values). -/
theorem cond0_0_iff (i : grid0.Coords) : cond0_0 i ↔ (i 1).val = 0 :=
  (by decide +kernel : ∀ j : Fin 50, (Scalar.cmpi .ne (Scalar.extui (Scalar.cmpi .eq (BitVec.ofNat 32 j.val) 0#32)) 0#32) = 1#1 ↔ j.val = 0) (i 1)
/-- It holds exactly at the first point of each row of 50. -/
theorem hcond0_0 : ∀ t : Fin cfg0.N, cond0_0 (grid0.coords t) ↔ t.val % 50 = 0 := fun t => by
  rw [cond0_0_iff, coords0_1]

/-- The condition of the body's second conditional (store the output block), from the grid coordinates: i1 = 49. -/
abbrev cond0_1 (i : grid0.Coords) : Prop := k0_cond2 i = 1#1
/-- As a fact about the last coordinate alone (50 values). -/
theorem cond0_1_iff (i : grid0.Coords) : cond0_1 i ↔ (i 1).val = 49 :=
  (by decide +kernel : ∀ j : Fin 50, (Scalar.cmpi .ne (Scalar.extui (Scalar.cmpi .eq (BitVec.ofNat 32 j.val) 49#32)) 0#32) = 1#1 ↔ j.val = 49) (i 1)
/-- It holds exactly at the last point of each row of 50. -/
theorem hcond0_1 : ∀ t : Fin cfg0.N, cond0_1 (grid0.coords t) ↔ t.val % 50 = 49 := fun t => by
  rw [cond0_1_iff, coords0_1]

/-! ## Where the windows are idle -/

/-- Windows 0 and 1 are inputs: never idle. -/
theorem liveAt0_0 : ∀ t : Fin cfg0.N, cfg0.idle 0 (grid0.coords t) = false := fun _ => rfl
theorem liveAt0_1 : ∀ t : Fin cfg0.N, cfg0.idle 1 (grid0.coords t) = false := fun _ => rfl

/-- The output window's idleness at a point is the negation of the second condition there. -/
theorem idle0_2_eq (i : grid0.Coords) : cfg0.idle 2 i = !(k0_cond2 i == 1#1) := rfl

/-- First of a row (case A): nothing is stored into the output window, which the configuration calls idle there, -/
theorem idleAt0_2_A : ∀ t : Fin cfg0.N, cond0_0 (grid0.coords t) → ¬cond0_1 (grid0.coords t) → cfg0.idle 2 (grid0.coords t) = true := by
  intro t _ h1
  rw [idle0_2_eq, Bool.not_eq_true', beq_eq_false_iff_ne]
  exact h1
/-- and its block is not written back there. -/
theorem noFlush0_2_A : ∀ t : Fin cfg0.N, cond0_0 (grid0.coords t) → ¬cond0_1 (grid0.coords t) → (cfg0.win 2).flush t = false := by
  intro t _ h1
  rw [← Bool.not_eq_true]
  exact fun hf => h1 ((hcond0_1 t).mpr ((flush0_2 t).mp hf))
/-- Middle of a row (case B): the same. -/
theorem idleAt0_2_B : ∀ t : Fin cfg0.N, ¬cond0_0 (grid0.coords t) → ¬cond0_1 (grid0.coords t) → cfg0.idle 2 (grid0.coords t) = true := by
  intro t _ h1
  rw [idle0_2_eq, Bool.not_eq_true', beq_eq_false_iff_ne]
  exact h1
theorem noFlush0_2_B : ∀ t : Fin cfg0.N, ¬cond0_0 (grid0.coords t) → ¬cond0_1 (grid0.coords t) → (cfg0.win 2).flush t = false := by
  intro t _ h1
  rw [← Bool.not_eq_true]
  exact fun hf => h1 ((hcond0_1 t).mpr ((flush0_2 t).mp hf))
/-- Last of a row (case C): the output window is stored into, hence live. -/
theorem liveAt0_2_C : ∀ t : Fin cfg0.N, ¬cond0_0 (grid0.coords t) → cond0_1 (grid0.coords t) → cfg0.idle 2 (grid0.coords t) = false := by
  intro t _ h1
  rw [idle0_2_eq, Bool.not_eq_false', beq_iff_eq]
  exact h1

/-! ## The memrefs the body is run on -/

/-- One staging buffer of the output window, through which its contents are stated (what is read back after a
    covering list of writes does not depend on the view). -/
abbrev VO0_2 : View sig .tc .vmem S3200x64 .bf16 := (Memref.whole cc0_stg2_0 : Memref sig .tc .vmem S3200x64 .bf16).view
/-- Each window's current staging memref at point t, as the pipeline passes it to the body, and its wholeness. -/
abbrev ms0_0 (t : Fin cfg0.N) : Memref sig .tc .vmem S1x3200 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3200x64 .bf16 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows and carried from point to point. -/
abbrev scM0_0 : Memref sig .tc .vmem S3200x64 .f32 := Memref.whole cc0_scratch0
/-- The same as a view: what it holds is stated through it. -/
abbrev VS0_0 : View sig .tc .vmem S3200x64 .f32 := scM0_0.view

/-! ## The region invariant, the accumulator split off -/

/-- The core's scoped buffers that are neither a staging buffer of this call nor its accumulator (the other call's
    staging buffers and accumulator), each at some contents: carried through every point unopened. -/
abbrev rest0 (c : Dev nD) : sProp 𝕄 :=
  Pipeline.scopedRestBut (Ix := Unit) (Name := ℕ) (U := UR sig nD τ) (Lvl := ℕ) (Val := Elt F) spec0 c [cc0_scratch0]

/-- The scoped rest of this call, split at its accumulator. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ rest0 (F := F) c) :=
  Pipeline.scopedRest_split_of_list spec0 c [cc0_scratch0] (by decide) (by decide)

/-- The invariant the launch hands the region, with the accumulator as a memref owned at some contents, the other
    scoped buffers unopened, and the generator register at some state. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_split]; simp only [scM0_0, owns_whole]; try rfl

end Cert.KernelIdeal.Hand

end
-- ==== Proof.KI.G0RunA.lean ====
/- Region 0's body in case A (first point of a row: i1 = 0, so the accumulator is reset to zero and then
   accumulated into; the output window is not stored): its triple on any whole memrefs, with the pieces the
   accumulator ends with as the witness the symbolic run finds. -/
import proofs.«431381_j29575144800265_1_alg».proof.Proof.KI.G0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case A. On whole memrefs — the two inputs at their contents x0, x1, the output window's buffer at contents xi2
    handed back untouched, the accumulator at anything — the body runs to a continuation holding the inputs and the
    output buffer as they were and the accumulator with its pieces LS0 written (the zero store, then the
    accumulating store). L2 = []: no piece is stored into the output window. -/
noncomputable def kernelRun0_A (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : cond0_0 i) (hc1 : ¬cond0_1 i)
    (x0 : Vec F S1x3200 .i32) (x1 : Vec F S2000x64 .f32) :
    Σ' (L2 : List (View.Piece (Elt F) S3200x64 .bf16)), { LS0 : List (View.Piece (Elt F) S3200x64 .f32) //
      ∀ (xi2 : Vec F S3200x64 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.G0RunB.lean ====
/- Region 0's body in case B (a middle point of a row: neither conditional is taken; the accumulator, at what the
   point before left, is accumulated into; the output window is not stored). -/
import proofs.«431381_j29575144800265_1_alg».proof.Proof.KI.G0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case B. As case A, the accumulator entering at the contents xs0 the point before left. L2 = []. -/
noncomputable def kernelRun0_B (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : ¬cond0_0 i) (hc1 : ¬cond0_1 i)
    (x0 : Vec F S1x3200 .i32) (x1 : Vec F S2000x64 .f32) (xs0 : Vec F S3200x64 .f32) :
    Σ' (L2 : List (View.Piece (Elt F) S3200x64 .bf16)), { LS0 : List (View.Piece (Elt F) S3200x64 .f32) //
      ∀ (xi2 : Vec F S3200x64 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.G0RunC.lean ====
/- Region 0's body in case C (the last point of a row: i1 = 49; the accumulator is accumulated into, then read,
   rounded to bf16 and stored over the whole output block, whose buffer the body also reads just before). -/
import proofs.«431381_j29575144800265_1_alg».proof.Proof.KI.G0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case C. The inputs at x0, x1, the output window's buffer at anything, the accumulator at xs0: the body runs to
    a continuation holding the inputs as they were, the output buffer with its pieces L2 written (one covering
    store) and the accumulator with its pieces LS0 written. -/
noncomputable def kernelRun0_C (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : ¬cond0_0 i) (hc1 : cond0_1 i)
    (x0 : Vec F S1x3200 .i32) (x1 : Vec F S2000x64 .f32) (xs0 : Vec F S3200x64 .f32) :
    Σ' (L2 : List (View.Piece (Elt F) S3200x64 .bf16)), { LS0 : List (View.Piece (Elt F) S3200x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.G0Frame.lean ====
/- Region 0's frame, at the entry contents V: what each case leaves in the output window's buffer and in the
   carried accumulator (the pieces the runs found, read back; that they cover), the same point by point along the
   grid (the accumulation: a point that is not the first of its row starts from what the point before left), the
   region invariant carrying the accumulator at those contents, the pipeline's proof data, and the body obligation
   at every point. -/
import proofs.«431381_j29575144800265_1_alg».proof.Proof.KI.G0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output window: no pieces; a placeholder nothing consults (at these points the
    window is neither written back nor read at the next point). -/
def out0_A_2 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : cond0_0 i) (hc1 : ¬cond0_1 i)
    (x0 : Vec F S1x3200 .i32) (x1 : Vec F S2000x64 .f32) : Vec F S3200x64 .bf16 :=
  VO0_2.read (Elt F) (VO0_2.writes (Elt F) VO0_2.junk (kernelRun0_A c i arg2 harg2 arg3 harg3 arg4 harg4 arg5 harg5 hc0 hc1 x0 x1).1)

/-- Case A's pieces for the accumulator (the zero store, the accumulating store) cover it. -/
theorem scover0_A_0 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : cond0_0 i) (hc1 : ¬cond0_1 i)
    (x0 : Vec F S1x3200 .i32) (x1 : Vec F S2000x64 .f32) (y : S3200x64.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S3200x64.size (by sl_kernel_rfl) y

/-- What case A leaves in the accumulator: its pieces read back. -/
def sout0_A_0 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : cond0_0 i) (hc1 : ¬cond0_1 i)
    (x0 : Vec F S1x3200 .i32) (x1 : Vec F S2000x64 .f32) : Vec F S3200x64 .f32 :=
  VS0_0.read (Elt F) (VS0_0.writes (Elt F) VS0_0.junk (kernelRun0_A c i arg2 harg2 arg3 harg3 arg4 harg4 arg5 harg5 hc0 hc1 x0 x1).2.1)

/-- Case B stores nothing into the output window either. -/
def out0_B_2 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : ¬cond0_0 i) (hc1 : ¬cond0_1 i)
    (x0 : Vec F S1x3200 .i32) (x1 : Vec F S2000x64 .f32) (xs0 : Vec F S3200x64 .f32) : Vec F S3200x64 .bf16 :=
  VO0_2.read (Elt F) (VO0_2.writes (Elt F) VO0_2.junk (kernelRun0_B c i arg2 harg2 arg3 harg3 arg4 harg4 arg5 harg5 hc0 hc1 x0 x1 xs0).1)

/-- Case B's piece for the accumulator covers it. -/
theorem scover0_B_0 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : ¬cond0_0 i) (hc1 : ¬cond0_1 i)
    (x0 : Vec F S1x3200 .i32) (x1 : Vec F S2000x64 .f32) (xs0 : Vec F S3200x64 .f32) (y : S3200x64.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S3200x64.size (by sl_kernel_rfl) y

/-- What case B leaves in the accumulator. -/
def sout0_B_0 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : ¬cond0_0 i) (hc1 : ¬cond0_1 i)
    (x0 : Vec F S1x3200 .i32) (x1 : Vec F S2000x64 .f32) (xs0 : Vec F S3200x64 .f32) : Vec F S3200x64 .f32 :=
  VS0_0.read (Elt F) (VS0_0.writes (Elt F) VS0_0.junk (kernelRun0_B c i arg2 harg2 arg3 harg3 arg4 harg4 arg5 harg5 hc0 hc1 x0 x1 xs0).2.1)

/-- Case C's one store into the output window covers its block. -/
theorem cover0_C_2 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : ¬cond0_0 i) (hc1 : cond0_1 i)
    (x0 : Vec F S1x3200 .i32) (x1 : Vec F S2000x64 .f32) (xs0 : Vec F S3200x64 .f32) (y : S3200x64.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S3200x64.size (by sl_kernel_rfl) y

/-- What case C leaves in the output window's staging buffer: its piece read back. -/
def out0_C_2 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : ¬cond0_0 i) (hc1 : cond0_1 i)
    (x0 : Vec F S1x3200 .i32) (x1 : Vec F S2000x64 .f32) (xs0 : Vec F S3200x64 .f32) : Vec F S3200x64 .bf16 :=
  VO0_2.read (Elt F) (VO0_2.writes (Elt F) VO0_2.junk (kernelRun0_C c i arg2 harg2 arg3 harg3 arg4 harg4 arg5 harg5 hc0 hc1 x0 x1 xs0).1)

/-- Case C's piece for the accumulator covers it. -/
theorem scover0_C_0 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : ¬cond0_0 i) (hc1 : cond0_1 i)
    (x0 : Vec F S1x3200 .i32) (x1 : Vec F S2000x64 .f32) (xs0 : Vec F S3200x64 .f32) (y : S3200x64.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S3200x64.size (by sl_kernel_rfl) y

/-- What case C leaves in the accumulator. -/
def sout0_C_0 (c : Dev nD) (i : grid0.Coords) (arg2 : Memref sig .tc .vmem S1x3200 .i32) (harg2 : arg2.IsWhole) (arg3 : Memref sig .tc .vmem S2000x64 .f32) (harg3 : arg3.IsWhole) (arg4 : Memref sig .tc .vmem S3200x64 .bf16) (harg4 : arg4.IsWhole) (arg5 : Memref sig .tc .vmem S3200x64 .f32) (harg5 : arg5.IsWhole) (hc0 : ¬cond0_0 i) (hc1 : cond0_1 i)
    (x0 : Vec F S1x3200 .i32) (x1 : Vec F S2000x64 .f32) (xs0 : Vec F S3200x64 .f32) : Vec F S3200x64 .f32 :=
  VS0_0.read (Elt F) (VS0_0.writes (Elt F) VS0_0.junk (kernelRun0_C c i arg2 harg2 arg3 harg3 arg4 harg4 arg5 harg5 hc0 hc1 x0 x1 xs0).2.1)

/-! ## What the output window and the accumulator hold after each point -/

/-- THE ACCUMULATION. After the body at position n: (.1) the output window's staging buffer, (.2) the accumulator —
    the case n % 50 selects, run at the point's memrefs and input blocks, the accumulator entering at what
    position n - 1 left unless n is the first of its row. No point is both first and last of a row. -/
def outsAt0 (c : Dev nD) : (n : ℕ) → n < cfg0.N → Vec F S3200x64 .bf16 × Vec F S3200x64 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 50 = 0 then
      if h1 : (n + 1) % 50 = 49 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 50 = 49 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- outsAt0 at a first point of a row: case A's contents. -/
theorem outsAt0_A (c : Dev nD) (t : Fin cfg0.N) (h0 : t.val % 50 = 0) (h1 : ¬t.val % 50 = 49) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- outsAt0 at a middle point of a row: case B's contents, over what the point before left. -/
theorem outsAt0_B (c : Dev nD) (t : Fin cfg0.N) (h0 : ¬t.val % 50 = 0) (h1 : ¬t.val % 50 = 49) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- outsAt0 at a last point of a row: case C's contents, over what the point before left. -/
theorem outsAt0_C (c : Dev nD) (t : Fin cfg0.N) (h0 : ¬t.val % 50 = 0) (h1 : t.val % 50 = 49) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: before the first point what the launch hands the region (every scoped buffer at anything);
    afterwards the accumulator at what the point before left in it, the other scoped buffers unopened, the generator
    register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point n (before point n + 1): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of region 0's pipeline on core c: the arrays as the region finds them (V); after the body at
    point t each input's buffer at its block and the output's at outsAt0's first component; the invariant PhiS0;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at t.val. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; t % 50 says which case the point is in; the
    invariant hands the body the accumulator at what the point before left (at anything at the very first point) and
    takes it back at this point's contents, the pieces covering it; the other scoped buffers, the generator register
    and what the core owes pass through untouched; an idle output buffer is handed back as found, a stored one at its
    covering piece read back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 25000 := lt_of_lt_of_eq t.isLt (show cfg0.N = 25000 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 50 = 0
  · by_cases h1 : t.val % 50 = 49
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 50 = 49
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      have hz : t.val ≠ 0 := by omega
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      have hz : t.val ≠ 0 := fun e => h0 (by rw [e])
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 25000 := N_0; omega)

end Cert.KernelIdeal.Hand

end
-- ==== Proof.KI.S1Runs.lean ====
import proofs.«431381_j29575144800265_1_alg».proof.Proof.Gen.KernelIdeal.Launch
import proofs.«431381_j29575144800265_1_alg».proof.Proof.Gen.KernelIdeal.Skeleton
import proofs.«431381_j29575144800265_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: everything below is stated at them
variable (V : (c : Dev nD) → (b : Ref sig .tc) → Buf (Elt F) ((c : Thread nD τ).loc b))

/-! # Region 1 (the scatter-add kernel, pipeline 1), at the entry contents `V`: what its three runs share -/

/-! ## The windows' blocks -/

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (a row of 3200 destination indices): its current staging buffer holds its block at every point,
    for any proof data whose array is the entry contents and whose body leaves the block in place. The window is
    never cut and never idle, so an unfetched buffer still holds the block of an index that has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (3200 message rows of 64): the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional's test, from the grid coordinates: the inner coordinate is 0 (the first block of a row of
    500: the accumulator is reset there). -/
abbrev cond1_0 (i : grid1.Coords) : Prop := (Scalar.cmpi .ne (Scalar.extui (Scalar.cmpi .eq (BitVec.ofNat 32 (i 1).val) 0#32)) 0#32) = 1#1
/-- It holds at the points ≡ 0 (mod 500). -/
theorem hcond1_0 : ∀ t : Fin cfg1.N, cond1_0 (grid1.coords t) ↔ t.val % 500 = 0 :=
  (by decide +kernel : ∀ t : Fin grid1.N, cond1_0 (grid1.coords t) ↔ t.val % 500 = 0)

/-- The second conditional's test: the inner coordinate is 499 (the last block of a row: the accumulator is stored
    to the output there). -/
abbrev cond1_1 (i : grid1.Coords) : Prop := k1_cond2 i = 1#1
/-- It holds at the points ≡ 499 (mod 500). -/
theorem hcond1_1 : ∀ t : Fin cfg1.N, cond1_1 (grid1.coords t) ↔ t.val % 500 = 499 :=
  (by decide +kernel : ∀ t : Fin grid1.N, cond1_1 (grid1.coords t) ↔ t.val % 500 = 499)

/-! ## Where the windows are idle -/

/-- Windows 0 and 1 are inputs: never idle. -/
theorem liveAt1_0 : ∀ t : Fin cfg1.N, cfg1.idle 0 (grid1.coords t) = false := fun _ => rfl
theorem liveAt1_1 : ∀ t : Fin cfg1.N, cfg1.idle 1 (grid1.coords t) = false := fun _ => rfl

/-- The output window is idle exactly where the second test fails. -/
theorem idle1_2_iff (i : grid1.Coords) : cfg1.idle 2 i = true ↔ ¬cond1_1 i := by
  show (!(k1_cond2 i == 1#1)) = true ↔ ¬(k1_cond2 i = 1#1)
  simp only [Bool.not_eq_true', beq_eq_false_iff_ne, ne_eq]

/-- In case A (first block of a row) nothing is stored into output 2: the window is idle there, -/
theorem idleAt1_2_A : ∀ t : Fin cfg1.N, cond1_0 (grid1.coords t) → ¬cond1_1 (grid1.coords t) → cfg1.idle 2 (grid1.coords t) = true :=
  fun t _ h1 => (idle1_2_iff _).mpr h1
/-- and its block is not written back there (a write-back happens only at a point ≡ 499 (mod 500)). -/
theorem noFlush1_2_A : ∀ t : Fin cfg1.N, cond1_0 (grid1.coords t) → ¬cond1_1 (grid1.coords t) → (cfg1.win 2).flush t = false :=
  fun t _ h1 => by
    cases hf : (cfg1.win 2).flush t with
    | false => rfl
    | true => exact absurd ((hcond1_1 t).mpr ((flush1_2 t).mp hf)) h1
/-- In case B (a middle block) likewise. -/
theorem idleAt1_2_B : ∀ t : Fin cfg1.N, ¬cond1_0 (grid1.coords t) → ¬cond1_1 (grid1.coords t) → cfg1.idle 2 (grid1.coords t) = true :=
  fun t _ h1 => (idle1_2_iff _).mpr h1
theorem noFlush1_2_B : ∀ t : Fin cfg1.N, ¬cond1_0 (grid1.coords t) → ¬cond1_1 (grid1.coords t) → (cfg1.win 2).flush t = false :=
  fun t _ h1 => by
    cases hf : (cfg1.win 2).flush t with
    | false => rfl
    | true => exact absurd ((hcond1_1 t).mpr ((flush1_2 t).mp hf)) h1
/-- In case C (last block of a row) the output is stored: the window is live. -/
theorem liveAt1_2_C : ∀ t : Fin cfg1.N, ¬cond1_0 (grid1.coords t) → cond1_1 (grid1.coords t) → cfg1.idle 2 (grid1.coords t) = false :=
  fun t _ h1 => by
    cases hi : cfg1.idle 2 (grid1.coords t) with
    | false => rfl
    | true => exact absurd h1 ((idle1_2_iff _).mp hi)

/-! ## The staging and scratch memrefs the body is called on -/

/-- One staging buffer of output window 2, through which its contents are stated (the choice does not matter: a
    covering family of pieces reads back the same through any whole view). -/
abbrev VO1_2 : View sig .tc .vmem S2000x64 .f32 := (Memref.whole cc1_stg2_0 : Memref sig .tc .vmem S2000x64 .f32).view
/-- Each window's current staging memref at point `t`, as the pipeline passes it, and its wholeness. -/
abbrev ms1_0 (t : Fin cfg1.N) : Memref sig .tc .vmem S1x3200 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x64 .f32 := win1_2.stage (cfg1.slots t 2)
abbrev hs1_2 (t : Fin cfg1.N) : (ms1_2 t).IsWhole := hstage1_2 ((cfg1.slots t 2).cast nbuf1_2)
/-- The scratch operand: the kernel's own whole scoped buffer, the accumulator of one row of 500 blocks. -/
abbrev scM1_0 : Memref sig .tc .vmem S2000x64 .f32 := Memref.whole cc1_scratch0
/-- The accumulator as a view: what it holds between points is stated through it. -/
abbrev VS1_0 : View sig .tc .vmem S2000x64 .f32 := scM1_0.view

/-- The region's base invariant with the scoped buffers one by one — the other kernel's staging buffers and
    accumulator at some contents, this kernel's accumulator as a memref owned at some contents — and the generator
    register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KI.S1RunA.lean ====
import proofs.«431381_j29575144800265_1_alg».proof.Proof.KI.S1Runs

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: everything below is stated at them
variable (V : (c : Dev nD) → (b : Ref sig .tc) → Buf (Elt F) ((c : Thread nD τ).loc b))

-- (a large proof term)
set_option maxHeartbeats 1000000 in
/-- CASE A of the scatter-add body (the first block of a row: the first conditional taken, the second not). What the
    body's stores leave, as pieces, last first: none in output 2; in the accumulator the reset and then the sum. With
    the proof that on whole memrefs — the two inputs' at their blocks `x0`, `x1`, output 2's at any contents `xi2`,
    handed back untouched, the accumulator's at anything — the body runs to the continuation holding the inputs and
    output 2 as they were and the accumulator with its pieces written. The pieces are the witness the symbolic
    execution of the body's memory operations finds. -/
noncomputable def kernelRun1_A (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : cond1_0 i) (hc1 : ¬cond1_1 i)
    (x0 : Vec F S1x3200 .i32) (x1 : Vec F S3200x64 .bf16) :
    Σ' (L2 : List (View.Piece (Elt F) S2000x64 .f32)), { LS0 : List (View.Piece (Elt F) S2000x64 .f32) //
      ∀ (xi2 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.S1RunB.lean ====
import proofs.«431381_j29575144800265_1_alg».proof.Proof.KI.S1RunA

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: everything below is stated at them
variable (V : (c : Dev nD) → (b : Ref sig .tc) → Buf (Elt F) ((c : Thread nD τ).loc b))

-- (a large proof term)
set_option maxHeartbeats 1000000 in
/-- CASE B of the scatter-add body (a middle block of a row: neither conditional taken). What the body's stores
    leave, as pieces, last first: none in output 2; in the accumulator the sum over what the point before left
    (`xs0`). With the proof that on whole memrefs — the two inputs' at their blocks, output 2's at any contents `xi2`,
    handed back untouched, the accumulator's at `xs0` — the body runs to the continuation holding the inputs and
    output 2 as they were and the accumulator with its pieces written. -/
noncomputable def kernelRun1_B (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : ¬cond1_0 i) (hc1 : ¬cond1_1 i)
    (x0 : Vec F S1x3200 .i32) (x1 : Vec F S3200x64 .bf16) (xs0 : Vec F S2000x64 .f32) :
    Σ' (L2 : List (View.Piece (Elt F) S2000x64 .f32)), { LS0 : List (View.Piece (Elt F) S2000x64 .f32) //
      ∀ (xi2 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.S1RunC.lean ====
import proofs.«431381_j29575144800265_1_alg».proof.Proof.KI.S1RunB

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: everything below is stated at them
variable (V : (c : Dev nD) → (b : Ref sig .tc) → Buf (Elt F) ((c : Thread nD τ).loc b))

-- (a large proof term)
set_option maxHeartbeats 1000000 in
/-- CASE C of the scatter-add body (the last block of a row: the first conditional not taken, the second taken). What
    the body's stores leave, as pieces, last first: in the accumulator the sum over what the point before left
    (`xs0`); in output 2 that sum, loaded back and stored whole (the body also loads output 2's buffer before storing
    it: a load of anything, whose value nothing reads). With the proof that on whole memrefs — the two inputs' at
    their blocks, output 2's at anything, the accumulator's at `xs0` — the body runs to the continuation holding the
    inputs as they were and output 2 and the accumulator with their pieces written. -/
noncomputable def kernelRun1_C (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : ¬cond1_0 i) (hc1 : cond1_1 i)
    (x0 : Vec F S1x3200 .i32) (x1 : Vec F S3200x64 .bf16) (xs0 : Vec F S2000x64 .f32) :
    Σ' (L2 : List (View.Piece (Elt F) S2000x64 .f32)), { LS0 : List (View.Piece (Elt F) S2000x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.S1Frame.lean ====
import proofs.«431381_j29575144800265_1_alg».proof.Proof.KI.S1RunC

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: everything below is stated at them
variable (V : (c : Dev nD) → (b : Ref sig .tc) → Buf (Elt F) ((c : Thread nD τ).loc b))

/-! # Region 1: what each case leaves, the accumulation point by point, the proof data and the body obligation -/

/-- Case A stores nothing into output 2 (the window is idle at its points and not written back there): no pieces —
    a placeholder (junk read back) that nothing consults, since at these points the window is neither written back
    nor read at the next point. -/
def out1_A_2 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : cond1_0 i) (hc1 : ¬cond1_1 i)
    (x0 : Vec F S1x3200 .i32) (x1 : Vec F S3200x64 .bf16) : Vec F S2000x64 .f32 :=
  VO1_2.read (Elt F) (VO1_2.writes (Elt F) VO1_2.junk (kernelRun1_A c i arg2 harg2 arg3 harg3 arg4 harg4 arg5 harg5 hc0 hc1 x0 x1).1)

/-- Case A's pieces for the accumulator, which the kernel carries between points, tile it, so they cover it. -/
theorem scover1_A_0 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : cond1_0 i) (hc1 : ¬cond1_1 i)
    (x0 : Vec F S1x3200 .i32) (x1 : Vec F S3200x64 .bf16) (y : S2000x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2000x64.size (by sl_kernel_rfl) y

/-- What case A leaves in the accumulator: its pieces read back over junk. -/
def sout1_A_0 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : cond1_0 i) (hc1 : ¬cond1_1 i)
    (x0 : Vec F S1x3200 .i32) (x1 : Vec F S3200x64 .bf16) : Vec F S2000x64 .f32 :=
  VS1_0.read (Elt F) (VS1_0.writes (Elt F) VS1_0.junk (kernelRun1_A c i arg2 harg2 arg3 harg3 arg4 harg4 arg5 harg5 hc0 hc1 x0 x1).2.1)

/-- Case B stores nothing into output 2 (the window is idle at its points and not written back there): no pieces —
    a placeholder (junk read back) that nothing consults, since at these points the window is neither written back
    nor read at the next point. -/
def out1_B_2 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : ¬cond1_0 i) (hc1 : ¬cond1_1 i)
    (x0 : Vec F S1x3200 .i32) (x1 : Vec F S3200x64 .bf16) (xs0 : Vec F S2000x64 .f32) : Vec F S2000x64 .f32 :=
  VO1_2.read (Elt F) (VO1_2.writes (Elt F) VO1_2.junk (kernelRun1_B c i arg2 harg2 arg3 harg3 arg4 harg4 arg5 harg5 hc0 hc1 x0 x1 xs0).1)

/-- Case B's pieces for the accumulator, which the kernel carries between points, tile it, so they cover it. -/
theorem scover1_B_0 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : ¬cond1_0 i) (hc1 : ¬cond1_1 i)
    (x0 : Vec F S1x3200 .i32) (x1 : Vec F S3200x64 .bf16) (xs0 : Vec F S2000x64 .f32) (y : S2000x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2000x64.size (by sl_kernel_rfl) y

/-- What case B leaves in the accumulator: its pieces read back over junk. -/
def sout1_B_0 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : ¬cond1_0 i) (hc1 : ¬cond1_1 i)
    (x0 : Vec F S1x3200 .i32) (x1 : Vec F S3200x64 .bf16) (xs0 : Vec F S2000x64 .f32) : Vec F S2000x64 .f32 :=
  VS1_0.read (Elt F) (VS1_0.writes (Elt F) VS1_0.junk (kernelRun1_B c i arg2 harg2 arg3 harg3 arg4 harg4 arg5 harg5 hc0 hc1 x0 x1 xs0).2.1)

/-- Case C's pieces for output 2 tile its block (one whole store of 2000 × 64), so they cover it. -/
theorem cover1_C_2 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : ¬cond1_0 i) (hc1 : cond1_1 i)
    (x0 : Vec F S1x3200 .i32) (x1 : Vec F S3200x64 .bf16) (xs0 : Vec F S2000x64 .f32) (y : S2000x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2000x64.size (by sl_kernel_rfl) y

/-- What case C leaves in output 2's staging buffer: its pieces read back over junk. -/
def out1_C_2 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : ¬cond1_0 i) (hc1 : cond1_1 i)
    (x0 : Vec F S1x3200 .i32) (x1 : Vec F S3200x64 .bf16) (xs0 : Vec F S2000x64 .f32) : Vec F S2000x64 .f32 :=
  VO1_2.read (Elt F) (VO1_2.writes (Elt F) VO1_2.junk (kernelRun1_C c i arg2 harg2 arg3 harg3 arg4 harg4 arg5 harg5 hc0 hc1 x0 x1 xs0).1)

/-- Case C's pieces for the accumulator, which the kernel carries between points, tile it, so they cover it. -/
theorem scover1_C_0 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : ¬cond1_0 i) (hc1 : cond1_1 i)
    (x0 : Vec F S1x3200 .i32) (x1 : Vec F S3200x64 .bf16) (xs0 : Vec F S2000x64 .f32) (y : S2000x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2000x64.size (by sl_kernel_rfl) y

/-- What case C leaves in the accumulator: its pieces read back over junk. -/
def sout1_C_0 (c : Dev nD) (i : grid1.Coords) (arg2 : Memref sig .tc .vmem S1x3200 .i32) (harg2 : arg2.IsWhole) (arg3 : Memref sig .tc .vmem S3200x64 .bf16) (harg3 : arg3.IsWhole) (arg4 : Memref sig .tc .vmem S2000x64 .f32) (harg4 : arg4.IsWhole) (arg5 : Memref sig .tc .vmem S2000x64 .f32) (harg5 : arg5.IsWhole) (hc0 : ¬cond1_0 i) (hc1 : cond1_1 i)
    (x0 : Vec F S1x3200 .i32) (x1 : Vec F S3200x64 .bf16) (xs0 : Vec F S2000x64 .f32) : Vec F S2000x64 .f32 :=
  VS1_0.read (Elt F) (VS1_0.writes (Elt F) VS1_0.junk (kernelRun1_C c i arg2 harg2 arg3 harg3 arg4 harg4 arg5 harg5 hc0 hc1 x0 x1 xs0).2.1)

/-! ## What the output and the accumulator hold after each point -/

/-- THE ACCUMULATION. What output 2's staging buffer (first component) and the accumulator (second component) hold
    after the body at position `n`: the case the closed forms select at `n` (`n % 500 = 0`: first block of a row;
    `n % 500 = 499`: last block; otherwise a middle block), run at the point's memrefs and input blocks, over what the
    accumulator held after position `n - 1`. No point is both first and last of its row. -/
def outsAt1 (c : Dev nD) : (n : ℕ) → n < cfg1.N → Vec F S2000x64 .f32 × Vec F S2000x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 500 = 0 then
      if h1 : (n + 1) % 500 = 499 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 500 = 499 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A: that case's contents. -/
theorem outsAt1_A (c : Dev nD) (t : Fin cfg1.N) (h0 : t.val % 500 = 0) (h1 : ¬t.val % 500 = 499) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 500 = 0) (h1 : ¬t.val % 500 = 499) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 500 = 0) (h1 : t.val % 500 = 499) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the base invariant (every scoped buffer at
    anything, the generator register at some state); afterwards the same with the accumulator at what the point
    before left in it (`outsAt1`'s second component). -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and output 2's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the closed forms say which case the point is in; the
    invariant hands the body the accumulator at what the point before left (at anything at the first point), the
    other scoped buffers and the generator register untouched, and takes the accumulator back at this point's
    contents (its pieces cover it); output 2's buffer is handed back as found where the case stores nothing into
    it, and at its covering pieces read back in case C; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 25000 := lt_of_lt_of_eq t.isLt (show cfg1.N = 25000 from N_1)
  by_cases h0 : t.val % 500 = 0
  · by_cases h1 : t.val % 500 = 499
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR0, HR1, HR2, HR3, HR4, HR5, HR6, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR0 HR1 HR2 HR3 HR4 HR5 HR6 HS0 Hg]
        · isplitl [HR0 HR1 HR2 HR3 HR4 HR5 HR6 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HR0, HR1, HR2, HR3, HR4, HR5, HR6, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HR0 HR1 HR2 HR3 HR4 HR5 HR6 HS0 Hg]
        · isplitl [HR0 HR1 HR2 HR3 HR4 HR5 HR6 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 500 = 499
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨HR0, HR1, HR2, HR3, HR4, HR5, HR6, HS0⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HR0 HR1 HR2 HR3 HR4 HR5 HR6 HS0 Hg]
        · isplitl [HR0 HR1 HR2 HR3 HR4 HR5 HR6 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HR0, HR1, HR2, HR3, HR4, HR5, HR6, HS0⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR0 HR1 HR2 HR3 HR4 HR5 HR6 HS0 Hg]
        · isplitl [HR0 HR1 HR2 HR3 HR4 HR5 HR6 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with (the base invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the base invariant back: the accumulator's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HS0⟩, Hg⟩
  isplitl [HR0 HR1 HR2 HR3 HR4 HR5 HR6 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 25000 := N_1; omega)

end Cert.KernelIdeal.Hand

end
-- ==== Proof.KI.Run.lean ====
import proofs.«431381_j29575144800265_1_alg».proof.Proof.KI.G0Frame
import proofs.«431381_j29575144800265_1_alg».proof.Proof.KI.S1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: one stretch of host operations, then the gather region, then the scatter region

## The buffer contents at each boundary, folded from the launch memory -/

/-- Core `c`'s buffers at launch. -/
abbrev W0 : Dev nD → Valuation τ sig (Elt F) := fun c b => (s₀ m ρ).mem ((c : Dev nD), b)
/-- After the host operations (the two rows of the index array sliced out): what the gather region is entered from. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- After the gather region: its windows' arrays at what the pipeline leaves in them (the inputs as entered, the
    output with every written-back block folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: what the scatter region is entered from (no host operation
    stands between the two regions). -/
abbrev V2 : (c : Dev nD) → (b : Ref sig .tc) → Buf (Elt F) ((c : Thread nD τ).loc b) := fun c b => W2 m ρ c b
/-- Leaving the gather region, each of its arrays holds what the pipeline leaves and every other buffer what it held. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the scatter region (the end of @main): its windows' arrays at what the pipeline leaves, every other
    buffer as the gather region left it. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched

The feature table is an input window of the gather region and no window of the scatter region; the index array is
a window of neither and no host operation writes it (they only read its rows). So the fold at either argument
walks back to the launch memory. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ### The result and the intermediate array through the fold

The scatter region's output array ends at what its pipeline leaves; the gather region's output array — the scatter
region's second input — enters the scatter region at what the gather pipeline left; the second index row passes the
gather region untouched. -/

theorem W3_main_v7 (c : Dev nD) : W3 m ρ c (Proc.devRef .tc main_v7) = (dat1 (V2 m ρ) c).arrAt 2 cfg1.N := W3_arr m ρ c 2
theorem W2_main_v6 (c : Dev nD) : W2 m ρ c (Proc.devRef .tc main_v6) = (dat0 (V1 m ρ) c).arrAt 2 cfg0.N := W2_arr m ρ c 2
theorem W2_main_v5 (c : Dev nD) : W2 m ρ c (Proc.devRef .tc main_v5) = W1 m ρ c (Proc.devRef .tc main_v5) :=
  W2_of_ne m ρ c main_v5 (by decide)
theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-! ## The proof data family and the thread state -/

/-- Neither pipeline has a prefetched table. -/
abbrev adm : (p : Fin 2) → (pcfgs (F := F) p).Adm := fun p => (cfgs p).toPCfg_adm
/-- Each pipeline's proof data at the contents its region is entered from: a literal match, so that the
    configuration at a numeral index reduces to that pipeline's own. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers held at `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the final contents `W3`, the generator
    register at some state. -/
abbrev Tₙ (c : Dev nD) : sProp 𝕄 := iprop(StableHlo.held (c : Thread nD τ) (Pipeline.ucRefs τ sig) (W3 m ρ c) ∗ ∃ r, prngReg c r)

/-! ## The regions as segments

Each region's invariant carries its scratch accumulator from point to point; before the first point and after the
last it is the plain one (the scoped rest at anything, the generator register at some state), which is what the
segment hands in and takes back. -/

set_option backward.isDefEq.respectTransparency.types false in
/-- The gather region: entered from every unscoped buffer at `W1`, left at `W2`. Its arrays are split out of the
    unscoped buffers and put back at the exit contents; the generator register goes into the invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter region: entered from every unscoped buffer at `W2` (what the gather region left), left at `W3`,
    which is what the launch reads at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host stretch from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments: it is the chain of its items, and the segments' run is that chain. -/
theorem main_run (c : Dev nD) : main (F := F) c = Pipeline.Seg.run (segs m ρ) := (main_chain c).trans (by chain_rfl)

set_option backward.isDefEq.respectTransparency.types false in
/-- From any memory with zero counters, every weakly fair execution of @main on the TensorCores terminates, nothing
    faulting, and in every final state every unscoped buffer of every core holds the fold's last contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: from any memory with zero counters every weakly fair execution of @main terminates, nothing faulting,
    and both argument arrays end as launched — each read at the final contents and walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_all m ρ)

end Cert.KernelIdeal.Hand

end
-- ==== Proof.KI.G0Pieces.lean ====
/- Region 0: the pieces the three case runs found, read back as values. Each case's last store into the accumulator
   covers it, so what the case leaves there is that store's payload: the accumulating update k0_pay2 of the point's two
   input blocks over the accumulator's contents before it — the zero block k0_pay1 in case A (whose first store resets
   it), what the point before left in cases B and C. Case C's one store into the output window covers its block: the
   updated accumulator rounded to bf16, k0_pay3. Generic in F. -/
import proofs.«431381_j29575144800265_1_alg».proof.Proof.KI.G0Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The all-zero offsets of a whole-buffer access. -/
theorem g0_hz : (![0, 0] : Fin 2 → Nat) = fun _ => 0 := funext fun a => by fin_cases a <;> rfl

/-- Case A leaves in the accumulator the update of the zero block by the point's input blocks: the reset store is
    read back by the update's load, and the update's store covers. -/
theorem sout0_A_0_eq (c : Dev nD) (i : grid0.Coords) (a2 : Memref sig .tc .vmem S1x3200 .i32) (h2 : a2.IsWhole) (a3 : Memref sig .tc .vmem S2000x64 .f32) (h3 : a3.IsWhole) (a4 : Memref sig .tc .vmem S3200x64 .bf16) (h4 : a4.IsWhole) (a5 : Memref sig .tc .vmem S3200x64 .f32) (h5 : a5.IsWhole) (hc0 : cond0_0 i) (hc1 : ¬cond0_1 i)
    (x0 : Vec F S1x3200 .i32) (x1 : Vec F S2000x64 .f32) :
    sout0_A_0 c i a2 h2 a3 h3 a4 h4 a5 h5 hc0 hc1 x0 x1 = k0_pay2 i x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S3200x64) g0_hz, View.readCov_unit_zero (S := S3200x64) _ g0_hz]
  simp only [View.readAt_eq_ld, h2.read_unread, h3.read_unread, h4.read_unread, h5.read_unread, View.ld_unit_zero (S := S1x3200) g0_hz, View.ld_unit_zero (S := S2000x64) g0_hz, View.ld_unit_zero (S := S3200x64) g0_hz]

/-- Case B leaves in the accumulator the update of what the point before left. -/
theorem sout0_B_0_eq (c : Dev nD) (i : grid0.Coords) (a2 : Memref sig .tc .vmem S1x3200 .i32) (h2 : a2.IsWhole) (a3 : Memref sig .tc .vmem S2000x64 .f32) (h3 : a3.IsWhole) (a4 : Memref sig .tc .vmem S3200x64 .bf16) (h4 : a4.IsWhole) (a5 : Memref sig .tc .vmem S3200x64 .f32) (h5 : a5.IsWhole) (hc0 : ¬cond0_0 i) (hc1 : ¬cond0_1 i)
    (x0 : Vec F S1x3200 .i32) (x1 : Vec F S2000x64 .f32) (xs0 : Vec F S3200x64 .f32) :
    sout0_B_0 c i a2 h2 a3 h3 a4 h4 a5 h5 hc0 hc1 x0 x1 xs0 = k0_pay2 i x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero g0_hz]
  simp only [View.readAt_eq_ld, h2.read_unread, h3.read_unread, h4.read_unread, h5.read_unread, View.ld_unit_zero (S := S1x3200) g0_hz, View.ld_unit_zero (S := S2000x64) g0_hz, View.ld_unit_zero (S := S3200x64) g0_hz]

/-- Case C leaves in the accumulator the same update. -/
theorem sout0_C_0_eq (c : Dev nD) (i : grid0.Coords) (a2 : Memref sig .tc .vmem S1x3200 .i32) (h2 : a2.IsWhole) (a3 : Memref sig .tc .vmem S2000x64 .f32) (h3 : a3.IsWhole) (a4 : Memref sig .tc .vmem S3200x64 .bf16) (h4 : a4.IsWhole) (a5 : Memref sig .tc .vmem S3200x64 .f32) (h5 : a5.IsWhole) (hc0 : ¬cond0_0 i) (hc1 : cond0_1 i)
    (x0 : Vec F S1x3200 .i32) (x1 : Vec F S2000x64 .f32) (xs0 : Vec F S3200x64 .f32) :
    sout0_C_0 c i a2 h2 a3 h3 a4 h4 a5 h5 hc0 hc1 x0 x1 xs0 = k0_pay2 i x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero g0_hz]
  simp only [View.readAt_eq_ld, h2.read_unread, h3.read_unread, h4.read_unread, h5.read_unread, View.ld_unit_zero (S := S1x3200) g0_hz, View.ld_unit_zero (S := S2000x64) g0_hz, View.ld_unit_zero (S := S3200x64) g0_hz]

/-- Case C leaves in the output window's buffer the updated accumulator, read back whole and rounded to bf16. -/
theorem out0_C_2_eq (c : Dev nD) (i : grid0.Coords) (a2 : Memref sig .tc .vmem S1x3200 .i32) (h2 : a2.IsWhole) (a3 : Memref sig .tc .vmem S2000x64 .f32) (h3 : a3.IsWhole) (a4 : Memref sig .tc .vmem S3200x64 .bf16) (h4 : a4.IsWhole) (a5 : Memref sig .tc .vmem S3200x64 .f32) (h5 : a5.IsWhole) (hc0 : ¬cond0_0 i) (hc1 : cond0_1 i)
    (x0 : Vec F S1x3200 .i32) (x1 : Vec F S2000x64 .f32) (xs0 : Vec F S3200x64 .f32) :
    out0_C_2 c i a2 h2 a3 h3 a4 h4 a5 h5 hc0 hc1 x0 x1 xs0 = k0_pay3 (k0_pay2 i x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero g0_hz]
  simp only [View.readCov_unit_zero (S := S3200x64) _ g0_hz, View.readAt_eq_ld, h2.read_unread, h3.read_unread, h4.read_unread, h5.read_unread, View.ld_unit_zero (S := S1x3200) g0_hz, View.ld_unit_zero (S := S2000x64) g0_hz, View.ld_unit_zero (S := S3200x64) g0_hz]

end Cert.KernelIdeal.Hand

end
-- ==== Proof.Pay.lean ====
/-
  The two kernels' arithmetic, read at one index over the extended reals.

  Both kernels multiply by a COMPARISON MATRIX with 2000 rows and 3200 columns: row n stands for the node whose number
  is the first row's number plus n, column e for the e-th word of a block of edge endpoints, and the entry is 1 where
  that word is that node's number and 0 elsewhere. The gather contracts the matrix's rows against a block of 2000
  feature rows, so that edge e receives the features of the node its source word names; the scatter contracts its
  columns against a block of 3200 message rows, so that node r receives the sum of the messages whose target word
  names it. Each product is added to an accumulator; the accumulator starts at zero; over the extended reals neither
  the narrowing of a format nor a cast to the same shape changes a value.
-/
import proofs.«431381_j29575144800265_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Pay

open Idealize.ShloMosaic Idealize.ShloMosaic.ValueIdx
open Cert.KernelIdeal Cert.KernelIdeal.Gen

/-! ## Words -/

/-- The word of a * 2000 + n is the word of a times the word 2000 plus the word of n: words add and multiply
    modulo 2^32, and so does the map from naturals to words. -/
theorem word_row (a n : Nat) : BitVec.ofNat 32 a * 2000#32 + BitVec.ofNat 32 n = BitVec.ofNat 32 (a * 2000 + n) := by
  rw [BitVec.ofNat_add, BitVec.ofNat_mul]

/-- A comparison bit, widened to a word and converted to an extended real, is 1 where the two words agree and 0
    where they differ. -/
theorem onehot_word (x y : BitVec 32) :
    (FloatOps.sitofp (F := Ideal) .f32 ((IntOp.cmpi .eq x y).setWidth 32) : EReal) = if x = y then 1 else 0 := by
  by_cases h : x = y
  · subst h
    simp [IntOp.cmpi, FloatOps.sitofp]
  · have hb : (x == y) = false := beq_eq_false_iff_ne.mpr h
    simp [IntOp.cmpi, FloatOps.sitofp, hb, h]

/-! ## A column broadcast over many columns -/

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The comparison matrix -/

/-- The matrix both kernels multiply by, read at (n, e): row n carries the word b + n (b the word of the first row's
    number), column e the e-th word of the block of endpoint words; the entry is 1 where the two agree, else 0. -/
theorem onehot_apply (b : BitVec 32) (x0 : IVec S1x3200 32) (n : Fin 2000) (e : Fin 3200) :
    (truncf .bf16 (sitofp (F := Ideal) .f32 (extui 32 (cmpi .eq
        (broadcastTo S2000x3200 (addi (broadcast S2000x1 b) (iota .tc S2000x1 32 [0] iota_S2000x1_d0_w32))
          broadcasts_S2000x1_S2000x3200)
        (broadcastTo S2000x3200 (shapeCast S1x3200 x0 shapeCasts_S1x3200_S1x3200) broadcasts_S1x3200_S2000x3200))
        natLt_1_32)) bitsLt_bf16_f32 : FVec Ideal S2000x3200 .bf16) (ix2 n e)
      = if b + BitVec.ofNat 32 n.val = x0 (ix2 0 e) then 1 else 0 := by
  have h9 : broadcastTo S2000x3200 (addi (broadcast S2000x1 b) (iota .tc S2000x1 32 [0] iota_S2000x1_d0_w32))
      broadcasts_S2000x1_S2000x3200 (ix2 n e) = b + BitVec.ofNat 32 n.val := by
    refine (broadcastTo_a1_ab_apply _ _ n e).trans ?_
    show IntOp.addi b (iota .tc S2000x1 32 [0] iota_S2000x1_d0_w32 (ix2 n 0)) = _
    rw [iota_single_apply]
    rfl
  have h10 : broadcastTo S2000x3200 (shapeCast S1x3200 x0 shapeCasts_S1x3200_S1x3200)
      broadcasts_S1x3200_S2000x3200 (ix2 n e) = x0 (ix2 0 e) := by
    refine (broadcastTo_1b_ab_apply _ _ n e).trans ?_
    rw [shapeCast_self]
  show FloatOps.sitofp (F := Ideal) .f32 ((IntOp.cmpi .eq
      (broadcastTo S2000x3200 (addi (broadcast S2000x1 b) (iota .tc S2000x1 32 [0] iota_S2000x1_d0_w32))
        broadcasts_S2000x1_S2000x3200 (ix2 n e))
      (broadcastTo S2000x3200 (shapeCast S1x3200 x0 shapeCasts_S1x3200_S1x3200)
        broadcasts_S1x3200_S2000x3200 (ix2 n e))).setWidth 32) = _
  rw [h9, h10]
  exact onehot_word _ _

/-! ## The gather's product: rows of the comparison matrix contracted against rows of the features -/

theorem lhs_g_0 (i : S3200x64.Idx) (q : dot_S2000x3200_S2000x64_S3200x64_0_0_1_1_n_n.contr.Idx) :
    (dot_S2000x3200_S2000x64_S3200x64_0_0_1_1_n_n.lhsIdx i q 0).val = (q ⟨0, by decide⟩).val :=
  dot_S2000x3200_S2000x64_S3200x64_0_0_1_1_n_n.lhsIdx_val_of_single rfl i q
theorem lhs_g_1 (i : S3200x64.Idx) (q : dot_S2000x3200_S2000x64_S3200x64_0_0_1_1_n_n.contr.Idx) :
    (dot_S2000x3200_S2000x64_S3200x64_0_0_1_1_n_n.lhsIdx i q 1).val = (i 0).val := by
  unfold DotDims.lhsIdx
  rw [dif_neg (show ¬(1 : Fin S2000x3200.rank) ∈ dot_S2000x3200_S2000x64_S3200x64_0_0_1_1_n_n.lhsBatch by decide),
    dif_pos (show (1 : Fin S2000x3200.rank) ∈ dot_S2000x3200_S2000x64_S3200x64_0_0_1_1_n_n.lhsNonContracting by decide)]
  rfl
theorem rhs_g_0 (i : S3200x64.Idx) (q : dot_S2000x3200_S2000x64_S3200x64_0_0_1_1_n_n.contr.Idx) :
    (dot_S2000x3200_S2000x64_S3200x64_0_0_1_1_n_n.rhsIdx i q 0).val = (q ⟨0, by decide⟩).val :=
  dot_S2000x3200_S2000x64_S3200x64_0_0_1_1_n_n.rhsIdx_val_of_single rfl i q
theorem rhs_g_1 (i : S3200x64.Idx) (q : dot_S2000x3200_S2000x64_S3200x64_0_0_1_1_n_n.contr.Idx) :
    (dot_S2000x3200_S2000x64_S3200x64_0_0_1_1_n_n.rhsIdx i q 1).val = (i 1).val := by
  unfold DotDims.rhsIdx
  rw [dif_neg (show ¬(1 : Fin S2000x64.rank) ∈ dot_S2000x3200_S2000x64_S3200x64_0_0_1_1_n_n.rhsBatch by decide),
    dif_pos (show (1 : Fin S2000x64.rank) ∈ dot_S2000x3200_S2000x64_S3200x64_0_0_1_1_n_n.rhsNonContracting by decide)]
  rfl

/-- The gather's product into the zero block, at (e, d): the sum over the 2000 rows n of the left factor at (n, e)
    times the right factor at (n, d). -/
theorem matmul_g_apply (L : FVec Ideal S2000x3200 .bf16) (R : FVec Ideal S2000x64 .bf16) (e : Fin 3200) (d : Fin 64) :
    matmul dot_S2000x3200_S2000x64_S3200x64_0_0_1_1_n_n none L R (constant (F := Ideal) S3200x64 .f32 0x00000000#32) (ix2 e d)
      = ∑ n : Fin 2000, L (ix2 n e) * R (ix2 n d) := by
  simp only [matmul]
  rw [Ideal.matmul_constant_zero_apply,
    ← Equiv.sum_comp (ValueIdx.contrEquiv1 dot_S2000x3200_S2000x64_S3200x64_0_0_1_1_n_n 2000 rfl rfl).symm]
  refine Finset.sum_congr rfl fun k _ => ?_
  have hk := ValueIdx.contrEquiv1_symm_val dot_S2000x3200_S2000x64_S3200x64_0_0_1_1_n_n 2000 rfl rfl k
  have el : dot_S2000x3200_S2000x64_S3200x64_0_0_1_1_n_n.lhsIdx (ix2 e d)
      ((ValueIdx.contrEquiv1 dot_S2000x3200_S2000x64_S3200x64_0_0_1_1_n_n 2000 rfl rfl).symm k) = ix2 k e :=
    funext fun a => Fin.ext (by
      match a with
      | ⟨0, _⟩ => exact (lhs_g_0 _ _).trans hk
      | ⟨1, _⟩ => exact lhs_g_1 _ _)
  have er : dot_S2000x3200_S2000x64_S3200x64_0_0_1_1_n_n.rhsIdx (ix2 e d)
      ((ValueIdx.contrEquiv1 dot_S2000x3200_S2000x64_S3200x64_0_0_1_1_n_n 2000 rfl rfl).symm k) = ix2 k d :=
    funext fun a => Fin.ext (by
      match a with
      | ⟨0, _⟩ => exact (rhs_g_0 _ _).trans hk
      | ⟨1, _⟩ => exact rhs_g_1 _ _)
  rw [el, er]

/-! ## The scatter's product: columns of the comparison matrix contracted against rows of the messages -/

theorem lhs_s_0 (i : S2000x64.Idx) (q : dot_S2000x3200_S3200x64_S2000x64_1_0_0_1_n_n.contr.Idx) :
    (dot_S2000x3200_S3200x64_S2000x64_1_0_0_1_n_n.lhsIdx i q 0).val = (i 0).val := by
  unfold DotDims.lhsIdx
  rw [dif_neg (show ¬(0 : Fin S2000x3200.rank) ∈ dot_S2000x3200_S3200x64_S2000x64_1_0_0_1_n_n.lhsBatch by decide),
    dif_pos (show (0 : Fin S2000x3200.rank) ∈ dot_S2000x3200_S3200x64_S2000x64_1_0_0_1_n_n.lhsNonContracting by decide)]
  rfl
theorem lhs_s_1 (i : S2000x64.Idx) (q : dot_S2000x3200_S3200x64_S2000x64_1_0_0_1_n_n.contr.Idx) :
    (dot_S2000x3200_S3200x64_S2000x64_1_0_0_1_n_n.lhsIdx i q 1).val = (q ⟨0, by decide⟩).val :=
  dot_S2000x3200_S3200x64_S2000x64_1_0_0_1_n_n.lhsIdx_val_of_single rfl i q
theorem rhs_s_0 (i : S2000x64.Idx) (q : dot_S2000x3200_S3200x64_S2000x64_1_0_0_1_n_n.contr.Idx) :
    (dot_S2000x3200_S3200x64_S2000x64_1_0_0_1_n_n.rhsIdx i q 0).val = (q ⟨0, by decide⟩).val :=
  dot_S2000x3200_S3200x64_S2000x64_1_0_0_1_n_n.rhsIdx_val_of_single rfl i q
theorem rhs_s_1 (i : S2000x64.Idx) (q : dot_S2000x3200_S3200x64_S2000x64_1_0_0_1_n_n.contr.Idx) :
    (dot_S2000x3200_S3200x64_S2000x64_1_0_0_1_n_n.rhsIdx i q 1).val = (i 1).val := by
  unfold DotDims.rhsIdx
  rw [dif_neg (show ¬(1 : Fin S3200x64.rank) ∈ dot_S2000x3200_S3200x64_S2000x64_1_0_0_1_n_n.rhsBatch by decide),
    dif_pos (show (1 : Fin S3200x64.rank) ∈ dot_S2000x3200_S3200x64_S2000x64_1_0_0_1_n_n.rhsNonContracting by decide)]
  rfl

/-- The scatter's product into the zero block, at (r, d): the sum over the 3200 columns e of the left factor at (r, e)
    times the right factor at (e, d). -/
theorem matmul_s_apply (L : FVec Ideal S2000x3200 .bf16) (R : FVec Ideal S3200x64 .bf16) (r : Fin 2000) (d : Fin 64) :
    matmul dot_S2000x3200_S3200x64_S2000x64_1_0_0_1_n_n none L R (constant (F := Ideal) S2000x64 .f32 0x00000000#32) (ix2 r d)
      = ∑ e : Fin 3200, L (ix2 r e) * R (ix2 e d) := by
  simp only [matmul]
  rw [Ideal.matmul_constant_zero_apply,
    ← Equiv.sum_comp (ValueIdx.contrEquiv1 dot_S2000x3200_S3200x64_S2000x64_1_0_0_1_n_n 3200 rfl rfl).symm]
  refine Finset.sum_congr rfl fun k _ => ?_
  have hk := ValueIdx.contrEquiv1_symm_val dot_S2000x3200_S3200x64_S2000x64_1_0_0_1_n_n 3200 rfl rfl k
  have el : dot_S2000x3200_S3200x64_S2000x64_1_0_0_1_n_n.lhsIdx (ix2 r d)
      ((ValueIdx.contrEquiv1 dot_S2000x3200_S3200x64_S2000x64_1_0_0_1_n_n 3200 rfl rfl).symm k) = ix2 r k :=
    funext fun a => Fin.ext (by
      match a with
      | ⟨0, _⟩ => exact lhs_s_0 _ _
      | ⟨1, _⟩ => exact (lhs_s_1 _ _).trans hk)
  have er : dot_S2000x3200_S3200x64_S2000x64_1_0_0_1_n_n.rhsIdx (ix2 r d)
      ((ValueIdx.contrEquiv1 dot_S2000x3200_S3200x64_S2000x64_1_0_0_1_n_n 3200 rfl rfl).symm k) = ix2 k d :=
    funext fun a => Fin.ext (by
      match a with
      | ⟨0, _⟩ => exact (rhs_s_0 _ _).trans hk
      | ⟨1, _⟩ => exact rhs_s_1 _ _)
  rw [el, er]

/-! ## The payloads at an index -/

/-- The block the gather's accumulator is reset to is zero everywhere. -/
theorem k0_pay1_apply (e : Fin 3200) (d : Fin 64) : (k0_pay1 (F := Ideal)) (ix2 e d) = 0 := by
  unfold k0_pay1
  refine (congrFun (shapeCast_self _ _) (ix2 e d)).trans ?_
  exact Ideal.ofBits_zero_f32

/-- One step of the gather at grid point i, at (e, d): the accumulator there plus, over the 2000 nodes n of the block
    of features in hand (node number (i 1) * 2000 + n), the feature of n in column d where the e-th source word is
    that node's number. -/
theorem k0_pay2_apply (i : grid0.Coords) (x0 : Vec Ideal S1x3200 .i32) (x1 : Vec Ideal S2000x64 .f32)
    (acc : Vec Ideal S3200x64 .f32) (e : Fin 3200) (d : Fin 64) :
    k0_pay2 (F := Ideal) i x0 x1 acc (ix2 e d)
      = acc (ix2 e d) + ∑ n : Fin 2000,
          (if BitVec.ofNat 32 ((i 1).val * 2000 + n.val) = x0 (ix2 0 e) then 1 else 0) * x1 (ix2 n d) := by
  unfold k0_pay2
  refine (congrFun (shapeCast_self _ _) (ix2 e d)).trans ?_
  refine congrArg (acc (ix2 e d) + ·) ?_
  refine (matmul_g_apply _ _ e d).trans ?_
  refine Finset.sum_congr rfl fun n _ => ?_
  refine congrArg (· * x1 (ix2 n d)) ?_
  refine (onehot_apply _ x0 n e).trans ?_
  show (if BitVec.ofNat 32 (i 1).val * 2000#32 + BitVec.ofNat 32 n.val = x0 (ix2 0 e) then (1 : EReal) else 0) = _
  rw [word_row]

/-- The block stored to the messages is the accumulator itself: narrowing the format changes no extended real. -/
theorem k0_pay3_apply (v : Vec Ideal S3200x64 .f32) (e : Fin 3200) (d : Fin 64) :
    k0_pay3 (F := Ideal) v (ix2 e d) = v (ix2 e d) := rfl

/-- The block the scatter's accumulator is reset to is zero everywhere. -/
theorem k1_pay1_apply (r : Fin 2000) (d : Fin 64) : (k1_pay1 (F := Ideal)) (ix2 r d) = 0 := by
  unfold k1_pay1
  refine (congrFun (shapeCast_self _ _) (ix2 r d)).trans ?_
  exact Ideal.ofBits_zero_f32

/-- One step of the scatter at grid point i, at (r, d): the accumulator there plus, over the 3200 edges e of the block
    of messages in hand, the message of e in column d where the e-th target word is the number (i 0) * 2000 + r of the
    node in row r. -/
theorem k1_pay2_apply (i : grid1.Coords) (x0 : Vec Ideal S1x3200 .i32) (x1 : Vec Ideal S3200x64 .bf16)
    (acc : Vec Ideal S2000x64 .f32) (r : Fin 2000) (d : Fin 64) :
    k1_pay2 (F := Ideal) i x0 x1 acc (ix2 r d)
      = acc (ix2 r d) + ∑ e : Fin 3200,
          (if BitVec.ofNat 32 ((i 0).val * 2000 + r.val) = x0 (ix2 0 e) then 1 else 0) * x1 (ix2 e d) := by
  unfold k1_pay2
  refine (congrFun (shapeCast_self _ _) (ix2 r d)).trans ?_
  refine congrArg (acc (ix2 r d) + ·) ?_
  refine (matmul_s_apply _ _ r d).trans ?_
  refine Finset.sum_congr rfl fun e _ => ?_
  have hx : shapeCast S3200x64 x1 shapeCasts_S3200x64_S3200x64 (ix2 e d) = x1 (ix2 e d) :=
    congrFun (shapeCast_self _ _) (ix2 e d)
  rw [hx]
  refine congrArg (· * x1 (ix2 e d)) ?_
  refine (onehot_apply _ x0 r e).trans ?_
  show (if BitVec.ofNat 32 (i 0).val * 2000#32 + BitVec.ofNat 32 r.val = x0 (ix2 0 e) then (1 : EReal) else 0) = _
  rw [word_row]

end Cert.KernelIdeal.Pay

end
-- ==== Proof.Spec.lean ====
/-
  What the two programs compute, as functions of the argument arrays over the extended reals.

  A graph has 100000 nodes with 64 features each and 1600000 edges; an edge is a pair of 32-bit words, its source and its
  target. The MESSAGE on an edge is the feature row of the node its source word names, and zero when the word names no node.
  The AGGREGATE at a node is the sum of the messages on the edges whose target word is that node's number. The result of
  message passing is the aggregate of the messages.
-/
import Idealize.ShloMosaic.PureOps.Ideal
import Idealize.ShloMosaic.Lib.ValueIdx

noncomputable section

open scoped BigOperators

namespace Cert.Spec

open Idealize.ShloMosaic Idealize.ShloMosaic.ValueIdx

/-- The number of nodes, of edges, and of feature columns. -/
abbrev nN : Nat := 100000
abbrev nE : Nat := 1600000
abbrev nC : Nat := 64

/-- One row of edge endpoints; the node features (and the result); one message row per edge; both rows of endpoints. -/
abbrev SRow : Shape := ⟨2, ![1, nE]⟩
abbrev SX : Shape := ⟨2, ![nN, nC]⟩
abbrev SMsg : Shape := ⟨2, ![nE, nC]⟩
abbrev SEnds : Shape := ⟨2, ![2, nE]⟩

/-- The message on edge e in column d: the feature of the node the source word names, zero if it names none. -/
def msgAt (src : SRow.Idx → BitVec 32) (x : SX.Idx → EReal) (e : Fin nE) (d : Fin nC) : EReal :=
  if h : (src (ix2 0 e)).toNat < nN then x (ix2 ⟨(src (ix2 0 e)).toNat, h⟩ d) else 0

/-- All messages, as an array with one row per edge. -/
def msg (src : SRow.Idx → BitVec 32) (x : SX.Idx → EReal) : SMsg.Idx → EReal :=
  fun i => msgAt src x (i 0) (i 1)

/-- The aggregate at node n in column d of per-edge rows mm: the sum of mm e d over the edges e whose target word is n. -/
def aggAt (dst : SRow.Idx → BitVec 32) (mm : SMsg.Idx → EReal) (n : Fin nN) (d : Fin nC) : EReal :=
  ∑ e : Fin nE, if dst (ix2 0 e) = BitVec.ofNat 32 n.val then mm (ix2 e d) else 0

/-- All aggregates, as an array with one row per node. -/
def agg (dst : SRow.Idx → BitVec 32) (mm : SMsg.Idx → EReal) : SX.Idx → EReal :=
  fun i => aggAt dst mm (i 0) (i 1)

/-- Row r of the two rows of endpoints, as a one-row array. -/
def endsRow (ends : SEnds.Idx → BitVec 32) (r : Fin 2) : SRow.Idx → BitVec 32 :=
  fun i => ends (ix2 r (i 1))

/-- Message passing: the aggregate, at the targets (row 1), of the messages from the sources (row 0). -/
def result (x : SX.Idx → EReal) (ends : SEnds.Idx → BitVec 32) : SX.Idx → EReal :=
  agg (endsRow ends 1) (msg (endsRow ends 0) x)

theorem msg_apply (src : SRow.Idx → BitVec 32) (x : SX.Idx → EReal) (e : Fin nE) (d : Fin nC) :
    msg src x (ix2 e d) = msgAt src x e d := rfl

theorem agg_apply (dst : SRow.Idx → BitVec 32) (mm : SMsg.Idx → EReal) (n : Fin nN) (d : Fin nC) :
    agg dst mm (ix2 n d) = aggAt dst mm n d := rfl

end Cert.Spec

end
-- ==== Proof.G0Value.lean ====
/-
  The gather, read as values over the extended reals: after the region the array of messages holds, on every edge, the
  feature row of the node its source word names (zero if the word names no node).

  The region's points run row by row: point t is (t / 50, t % 50); row i0 has the block of edges
  i0 * 3200 .. i0 * 3200 + 3199 in hand throughout, and its point i1 has the block of nodes i1 * 2000 .. i1 * 2000 + 1999.
  A step adds to the accumulator, at (e, d), the sum over those 2000 nodes of [the e-th source word is the node's
  number] times the node's feature in column d. So after point (i0, i1) the accumulator holds the same sum over all
  nodes below (i1 + 1) * 2000, by induction along the row; after the row's last point it is the sum over all 100000
  nodes, of which at most one term is not zero: the named node's feature. That point stores the accumulator (narrowing
  the format changes no extended real) into block i0 of the array, and the 500 rows' blocks cover the array.
-/
import proofs.«431381_j29575144800265_1_alg».proof.Proof.KI.G0Pieces
import proofs.«431381_j29575144800265_1_alg».proof.Proof.Pay
import proofs.«431381_j29575144800265_1_alg».proof.Proof.Spec
import Idealize.ShloMosaic.Lib.Pipeline.Value
import Idealize.ShloMosaic.Lib.ValueIdx

set_option maxRecDepth 16384

noncomputable section

open scoped BigOperators

namespace Cert.KernelIdeal.Value0

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand Cert.KernelIdeal.Pay

variable (V : (c : Dev nD) → (b : Ref sig .tc) → Buf (Elt Ideal) ((c : Thread nD τ).loc b))

/-! ## The arrays and the blocks, by their literal types -/

/-- The row of source words and the node features as the region finds them. -/
abbrev srcArr (c : Dev nD) : S1x1600000.Idx → BitVec 32 := V c main_v2
abbrev xArr (c : Dev nD) : S100000x64.Idx → EReal := V c main_arg0
/-- The block of 3200 source words and the block of 2000 feature rows in hand at point t. -/
abbrev srcBlk (c : Dev nD) (t : Fin cfg0.N) : Vec Ideal S1x3200 .i32 := iblk0 V c 0 t
abbrev xBlk (c : Dev nD) (t : Fin cfg0.N) : Vec Ideal S2000x64 .f32 := iblk0 V c 1 t
/-- The accumulator after the body at position n. -/
abbrev accAt (c : Dev nD) (n : ℕ) (hn : n < cfg0.N) : Vec Ideal S3200x64 .f32 := (outsAt0 V c n hn).2

/-! ## The grid: point t is (t / 50, t % 50), and where each window's block lies -/

theorem lt_N0 (t : Fin cfg0.N) : t.val < 25000 := lt_of_lt_of_eq t.isLt N_0

theorem coords0_0 (t : Fin cfg0.N) : (grid0.coords t 0).val = t.val / 50 := by
  show t.val / grid0.stride 0 % grid0.bound 0 = t.val / 50
  rw [show grid0.stride 0 = 50 from by decide, show grid0.bound 0 = 500 from rfl]
  have := lt_N0 t
  omega

/-- The block of source words is block t / 50 of the row; -/
theorem index0_0 (t : Fin cfg0.N) : win0_0.index t 0 = 0 ∧ win0_0.index t 1 = t.val / 50 := by
  refine ⟨rfl, ?_⟩
  show (BitVec.ofNat 32 (grid0.coords t 0).val).toNat = _
  rw [BitVec.toNat_ofNat, coords0_0, Nat.mod_eq_of_lt (by have := lt_N0 t; omega)]

/-- the block of features is row block t % 50; -/
theorem index0_1 (t : Fin cfg0.N) : win0_1.index t 0 = t.val % 50 ∧ win0_1.index t 1 = 0 := by
  refine ⟨?_, rfl⟩
  show (BitVec.ofNat 32 (grid0.coords t 1).val).toNat = _
  rw [BitVec.toNat_ofNat, coords0_1, Nat.mod_eq_of_lt (by omega)]

/-- the block of messages is row block t / 50. -/
theorem index0_2 (t : Fin cfg0.N) : win0_2.index t 0 = t.val / 50 ∧ win0_2.index t 1 = 0 := by
  refine ⟨?_, rfl⟩
  show (BitVec.ofNat 32 (grid0.coords t 0).val).toNat = _
  rw [BitVec.toNat_ofNat, coords0_0, Nat.mod_eq_of_lt (by have := lt_N0 t; omega)]

/-- The edge in row e of the blocks of edges at point t. -/
def edge (t : Fin cfg0.N) (e : Fin 3200) : Fin 1600000 :=
  ⟨t.val / 50 * 3200 + e.val, by have := lt_N0 t; have := e.isLt; omega⟩
/-- The node in row n of the block of features at point t. -/
def node (t : Fin cfg0.N) (n : Fin 2000) : Fin 100000 :=
  ⟨t.val % 50 * 2000 + n.val, by have := n.isLt; omega⟩

/-- The block of source words read in the row: its e-th word is the source word of edge (t / 50) * 3200 + e. -/
theorem srcBlk_apply (c : Dev nD) (t : Fin cfg0.N) (e : Fin 3200) :
    srcBlk V c t (ix2 0 e) = srcArr V c (ix2 0 (edge t e)) := by
  show ((cfg0.win 0).blk t).view.read (Elt Ideal) (V c (Pipeline.arrRef spec0 0)) (ix2 0 e) = _
  rw [View.read_apply]
  show V c main_v2 _ = V c main_v2 _
  congr 1
  funext a
  apply Fin.ext
  match a with
  | ⟨0, _⟩ => show win0_0.index t 0 * 1 + 1 * 0 = 0; rw [(index0_0 t).1]
  | ⟨1, _⟩ => show win0_0.index t 1 * 3200 + 1 * e.val = t.val / 50 * 3200 + e.val; rw [(index0_0 t).2]; omega

/-- The block of features read in the array: its row n is the feature row of node (t % 50) * 2000 + n. -/
theorem xBlk_apply (c : Dev nD) (t : Fin cfg0.N) (n : Fin 2000) (d : Fin 64) :
    xBlk V c t (ix2 n d) = xArr V c (ix2 (node t n) d) := by
  show ((cfg0.win 1).blk t).view.read (Elt Ideal) (V c (Pipeline.arrRef spec0 1)) (ix2 n d) = _
  rw [View.read_apply]
  show V c main_arg0 _ = V c main_arg0 _
  congr 1
  funext a
  apply Fin.ext
  match a with
  | ⟨0, _⟩ => show win0_1.index t 0 * 2000 + 1 * n.val = t.val % 50 * 2000 + n.val; rw [(index0_1 t).1]; omega
  | ⟨1, _⟩ => show win0_1.index t 1 * 64 + 1 * d.val = d.val; rw [(index0_1 t).2]; omega

/-! ## The sums -/

/-- A natural below 2^32 is named by exactly one word. -/
theorem ofNat_eq_iff (k : ℕ) (hk : k < 2 ^ 32) (w : BitVec 32) : BitVec.ofNat 32 k = w ↔ k = w.toNat := by
  constructor
  · intro h; rw [← h, BitVec.toNat_ofNat, Nat.mod_eq_of_lt hk]
  · intro h; apply BitVec.eq_of_toNat_eq; rw [BitVec.toNat_ofNat, Nat.mod_eq_of_lt hk, h]

/-- Node k's share of the message for source word w in column d: its feature if w is its number, zero if not, and zero
    past the last node. -/
def gterm (x : S100000x64.Idx → EReal) (w : BitVec 32) (d : Fin 64) (k : ℕ) : EReal :=
  if h : k < 100000 then (if BitVec.ofNat 32 k = w then 1 else 0) * x (ix2 ⟨k, h⟩ d) else 0

/-- Over all nodes the shares add up to the feature of the node the word names, or to zero if it names none: every
    other node's share is zero. -/
theorem sum_gterm_all (x : S100000x64.Idx → EReal) (w : BitVec 32) (d : Fin 64) :
    ∑ k ∈ Finset.range 100000, gterm x w d k = if h : w.toNat < 100000 then x (ix2 ⟨w.toNat, h⟩ d) else 0 := by
  by_cases h : w.toNat < 100000
  · rw [dif_pos h, Finset.sum_eq_single w.toNat]
    · unfold gterm
      rw [dif_pos h, if_pos ((ofNat_eq_iff _ (by omega) w).mpr rfl), one_mul]
    · intro k hk hne
      have hk' : k < 100000 := Finset.mem_range.mp hk
      unfold gterm
      rw [dif_pos hk', if_neg (fun he => hne ((ofNat_eq_iff k (by omega) w).mp he)), zero_mul]
    · intro hn
      exact absurd (Finset.mem_range.mpr h) hn
  · rw [dif_neg h]
    refine Finset.sum_eq_zero fun k hk => ?_
    have hk' : k < 100000 := Finset.mem_range.mp hk
    unfold gterm
    rw [dif_pos hk', if_neg (fun he => h (by rw [← (ofNat_eq_iff k (by omega) w).mp he]; exact hk')), zero_mul]

/-- One step of the accumulation: the shares of the nodes below a * 2000, plus the step's sum over the next 2000
    nodes, are the shares of the nodes below (a + 1) * 2000. -/
theorem step_sum (x : S100000x64.Idx → EReal) (w : BitVec 32) (d : Fin 64) (a : ℕ) (ha : a < 50) (acc : EReal)
    (w' : BitVec 32) (hw : w' = w) (xb : Fin 2000 → EReal)
    (hxb : ∀ n : Fin 2000, xb n = x (ix2 ⟨a * 2000 + n.val, by have := n.isLt; omega⟩ d))
    (hacc : acc = ∑ k ∈ Finset.range (a * 2000), gterm x w d k) :
    acc + ∑ n : Fin 2000, (if BitVec.ofNat 32 (a * 2000 + n.val) = w' then 1 else 0) * xb n
      = ∑ k ∈ Finset.range ((a + 1) * 2000), gterm x w d k := by
  subst hw
  rw [show (a + 1) * 2000 = a * 2000 + 2000 from by ring, Finset.sum_range_add, hacc]
  refine congrArg (_ + ·) ?_
  rw [Finset.sum_range]
  refine Finset.sum_congr rfl fun n _ => ?_
  have hlt : a * 2000 + n.val < 100000 := by have := n.isLt; omega
  unfold gterm
  rw [dif_pos hlt, hxb n]

/-! ## The accumulator, point by point -/

/-- One step of the gather at point t, at (e, d), in terms of the arrays: over an accumulator holding the shares of the
    nodes below (t % 50) * 2000 it leaves the shares of the nodes below (t % 50 + 1) * 2000. -/
theorem pay2_at (c : Dev nD) (t : Fin cfg0.N) (acc : Vec Ideal S3200x64 .f32) (e : Fin 3200) (d : Fin 64)
    (hacc : acc (ix2 e d)
      = ∑ k ∈ Finset.range (t.val % 50 * 2000), gterm (xArr V c) (srcArr V c (ix2 0 (edge t e))) d k) :
    k0_pay2 (F := Ideal) (grid0.coords t) (srcBlk V c t) (xBlk V c t) acc (ix2 e d)
      = ∑ k ∈ Finset.range ((t.val % 50 + 1) * 2000), gterm (xArr V c) (srcArr V c (ix2 0 (edge t e))) d k := by
  refine (k0_pay2_apply (grid0.coords t) (srcBlk V c t) (xBlk V c t) acc e d).trans ?_
  rw [coords0_1 t]
  exact step_sum (xArr V c) (srcArr V c (ix2 0 (edge t e))) d (t.val % 50) (Nat.mod_lt _ (by decide)) (acc (ix2 e d))
    (srcBlk V c t (ix2 0 e)) (srcBlk_apply V c t e) (fun n => xBlk V c t (ix2 n d)) (fun n => xBlk_apply V c t n d) hacc

/-- THE INVARIANT. After point t = (i0, i1) the accumulator holds, at (e, d), the shares of the nodes below
    (i1 + 1) * 2000 in the message of edge i0 * 3200 + e: by induction on the point, the first point of a row
    starting from zero, every other from what the point before left (same row, one block of nodes fewer). -/
theorem acc_eq (c : Dev nD) : ∀ (n : ℕ) (hn : n < cfg0.N) (e : Fin 3200) (d : Fin 64),
    accAt V c n hn (ix2 e d)
      = ∑ k ∈ Finset.range ((n % 50 + 1) * 2000), gterm (xArr V c) (srcArr V c (ix2 0 (edge ⟨n, hn⟩ e))) d k := by
  intro n
  induction n using Nat.strong_induction_on with
  | _ n ih =>
    intro hn e d
    show (outsAt0 V c n hn).2 (ix2 e d) = _
    by_cases h0 : n % 50 = 0
    · have h1 : ¬n % 50 = 49 := by omega
      rw [outsAt0_A V c ⟨n, hn⟩ h0 h1]
      dsimp only
      refine (congrFun (sout0_A_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) ((hcond0_0 ⟨n, hn⟩).mpr h0) (fun h => h1 ((hcond0_1 ⟨n, hn⟩).mp h)) (srcBlk V c ⟨n, hn⟩) (xBlk V c ⟨n, hn⟩)) (ix2 e d)).trans ?_
      refine pay2_at V c ⟨n, hn⟩ (k0_pay1 (F := Ideal)) e d ?_
      rw [k0_pay1_apply]
      show (0 : EReal) = ∑ k ∈ Finset.range (n % 50 * 2000), _
      rw [h0, Nat.zero_mul, Finset.range_zero, Finset.sum_empty]
    · have hn' : n - 1 < cfg0.N := Nat.lt_of_le_of_lt (Nat.sub_le _ _) hn
      have hacc : accAt V c (n - 1) hn' (ix2 e d)
          = ∑ k ∈ Finset.range (n % 50 * 2000), gterm (xArr V c) (srcArr V c (ix2 0 (edge ⟨n, hn⟩ e))) d k := by
        rw [ih (n - 1) (by omega) hn' e d, show (n - 1) % 50 + 1 = n % 50 from by omega,
          show edge ⟨n - 1, hn'⟩ e = edge ⟨n, hn⟩ e from Fin.ext (by
            show (n - 1) / 50 * 3200 + e.val = n / 50 * 3200 + e.val
            rw [show (n - 1) / 50 = n / 50 from by omega])]
      by_cases h1 : n % 50 = 49
      · rw [outsAt0_C V c ⟨n, hn⟩ h0 h1]
        dsimp only
        refine (congrFun (sout0_C_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) ((hcond0_1 ⟨n, hn⟩).mpr h1) (srcBlk V c ⟨n, hn⟩) (xBlk V c ⟨n, hn⟩) (accAt V c (n - 1) hn')) (ix2 e d)).trans ?_
        exact pay2_at V c ⟨n, hn⟩ (accAt V c (n - 1) hn') e d hacc
      · rw [outsAt0_B V c ⟨n, hn⟩ h0 h1]
        dsimp only
        refine (congrFun (sout0_B_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) (fun h => h1 ((hcond0_1 ⟨n, hn⟩).mp h)) (srcBlk V c ⟨n, hn⟩) (xBlk V c ⟨n, hn⟩) (accAt V c (n - 1) hn')) (ix2 e d)).trans ?_
        exact pay2_at V c ⟨n, hn⟩ (accAt V c (n - 1) hn') e d hacc

/-! ## The block a row's last point stores -/

/-- At the last point of a row the stored block holds, at (e, d), the message of edge (t / 50) * 3200 + e in column
    d: the accumulator after the last step holds the shares of all 100000 nodes. -/
theorem out_eq (c : Dev nD) (t : Fin cfg0.N) (h1 : t.val % 50 = 49) (e : Fin 3200) (d : Fin 64) :
    (outsAt0 V c t.val t.isLt).1 (ix2 e d) = Cert.Spec.msgAt (srcArr V c) (xArr V c) (edge t e) d := by
  have h0 : ¬t.val % 50 = 0 := by omega
  have hn' : t.val - 1 < cfg0.N := Nat.lt_of_le_of_lt (Nat.sub_le _ _) t.isLt
  have hacc : accAt V c (t.val - 1) hn' (ix2 e d)
      = ∑ k ∈ Finset.range (t.val % 50 * 2000), gterm (xArr V c) (srcArr V c (ix2 0 (edge t e))) d k := by
    rw [acc_eq V c (t.val - 1) hn' e d, show (t.val - 1) % 50 + 1 = t.val % 50 from by omega,
      show edge ⟨t.val - 1, hn'⟩ e = edge t e from Fin.ext (by
        show (t.val - 1) / 50 * 3200 + e.val = t.val / 50 * 3200 + e.val
        rw [show (t.val - 1) / 50 = t.val / 50 from by omega])]
  rw [outsAt0_C V c t h0 h1]
  dsimp only
  refine (congrFun (out0_C_2_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (srcBlk V c t) (xBlk V c t) (accAt V c (t.val - 1) hn')) (ix2 e d)).trans ?_
  refine (k0_pay3_apply _ e d).trans ?_
  refine (pay2_at V c t (accAt V c (t.val - 1) hn') e d hacc).trans ?_
  rw [h1]
  exact sum_gterm_all (xArr V c) (srcArr V c (ix2 0 (edge t e))) d

/-- An index of the array of messages is in point t's block iff each coordinate is in the block's range on its axis. -/
theorem mem_blk (t : Fin cfg0.N) (i : S1600000x64.Idx) :
    i ∈ ((cfg0.win 2).blk t).view.set ↔ ∀ a : Fin 2, win0_2.index t a * S3200x64.size a ≤ (i a).val ∧ (i a).val < win0_2.index t a * S3200x64.size a + S3200x64.size a := by
  show i ∈ ((View.whole main_v6).slice (win0_2.rect t)).set ↔ _
  rw [View.set_slice_whole, Rect.mem_set_unit]
  exact Iff.rfl

/-- WHAT A ROW'S LAST POINT WRITES BACK is its block of the array of all messages. -/
theorem flushed_eq (c : Dev nD) (t : Fin cfg0.N) (hf : (cfg0.win 2).flush t = true) :
    (dat0 V c).flushed 2 t = ((cfg0.win 2).blk t).view.read (Elt Ideal) (Cert.Spec.msg (srcArr V c) (xArr V c)) := by
  have h1 : t.val % 50 = 49 := (flush0_2 t).mp hf
  show (cfg0.win 2).cut (grid0.coords t) ((dat0 V c).after 2 t) = _
  rw [after0_2]
  funext j
  obtain ⟨e, d, rfl⟩ : ∃ (e : Fin 3200) (d : Fin 64), j = ix2 e d := ⟨j 0, j 1, eq_ix2 j⟩
  show (outsAt0 V c t.val t.isLt).1 (ix2 e d)
    = Cert.Spec.msg (srcArr V c) (xArr V c) (((cfg0.win 2).blk t).view.emb (ix2 e d))
  rw [out_eq V c t h1 e d]
  have hemb : ((cfg0.win 2).blk t).view.emb (ix2 e d) = ix2 (edge t e) d := by
    funext a
    apply Fin.ext
    match a with
    | ⟨0, _⟩ => show win0_2.index t 0 * 3200 + 1 * e.val = t.val / 50 * 3200 + e.val; rw [(index0_2 t).1]; omega
    | ⟨1, _⟩ => show win0_2.index t 1 * 64 + 1 * d.val = d.val; rw [(index0_2 t).2]; omega
  rw [hemb]
  rfl

/-- THE ARRAY OF MESSAGES after the region: every row lies in the block of the last point of its row of points, so
    the array ends holding every message. -/
theorem arr0_final (c : Dev nD) :
    (dat0 (F := Ideal) V c).arrAt 2 cfg0.N = Cert.Spec.msg (V c main_v2) (V c main_arg0) :=
  (dat0 V c).arrAt_eq_of_cover 2 (Cert.Spec.msg (srcArr V c) (xArr V c)) (flushed_eq V c) fun i => by
    have hi0 : (i 0).val < 1600000 := (i 0).isLt
    have hi1 : (i 1).val < 64 := (i 1).isLt
    have hN : cfg0.N = 25000 := N_0
    have ht : (i 0).val / 3200 * 50 + 49 < cfg0.N := by rw [hN]; omega
    refine ⟨⟨(i 0).val / 3200 * 50 + 49, ht⟩, (flush0_2 _).mpr (by show ((i 0).val / 3200 * 50 + 49) % 50 = 49; omega), ?_⟩
    rw [mem_blk]
    intro a
    match a with
    | ⟨0, _⟩ =>
      show win0_2.index ⟨(i 0).val / 3200 * 50 + 49, ht⟩ 0 * 3200 ≤ (i 0).val ∧ (i 0).val < win0_2.index ⟨(i 0).val / 3200 * 50 + 49, ht⟩ 0 * 3200 + 3200
      rw [(index0_2 _).1]
      show ((i 0).val / 3200 * 50 + 49) / 50 * 3200 ≤ (i 0).val ∧ (i 0).val < ((i 0).val / 3200 * 50 + 49) / 50 * 3200 + 3200
      omega
    | ⟨1, _⟩ =>
      show win0_2.index ⟨(i 0).val / 3200 * 50 + 49, ht⟩ 1 * 64 ≤ (i 1).val ∧ (i 1).val < win0_2.index ⟨(i 0).val / 3200 * 50 + 49, ht⟩ 1 * 64 + 64
      rw [(index0_2 _).2]
      omega

end Cert.KernelIdeal.Value0

end
-- ==== Proof.KI.S1Pieces.lean ====
import proofs.«431381_j29575144800265_1_alg».proof.Proof.KI.S1Frame
import Idealize.ShloMosaic.Lib.Pipeline.Value

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: everything below is stated at them
variable (V : (c : Dev nD) → (b : Ref sig .tc) → Buf (Elt F) ((c : Thread nD τ).loc b))

/-! # Region 1: the pieces each case's run found, as the body's payloads -/

/-- The zero offsets of a whole-buffer access, however spelt. -/
theorem hz1 : (![0, 0] : Fin 2 → Nat) = fun _ => 0 := funext fun a => by fin_cases a <;> rfl

/-- CASE A (first block of a row): the accumulator is reset to the zero block, read back, and left at the block's
    one-hot product added to it. -/
theorem sout1_A_0_eq (c : Dev nD) (i : grid1.Coords) (a2 : Memref sig .tc .vmem S1x3200 .i32) (h2 : a2.IsWhole) (a3 : Memref sig .tc .vmem S3200x64 .bf16) (h3 : a3.IsWhole) (a4 : Memref sig .tc .vmem S2000x64 .f32) (h4 : a4.IsWhole) (a5 : Memref sig .tc .vmem S2000x64 .f32) (h5 : a5.IsWhole) (hc0 : cond1_0 i) (hc1 : ¬cond1_1 i)
    (x0 : Vec F S1x3200 .i32) (x1 : Vec F S3200x64 .bf16) :
    sout1_A_0 c i a2 h2 a3 h3 a4 h4 a5 h5 hc0 hc1 x0 x1 = k1_pay2 i x0 x1 k1_pay1 := by
  have hz := hz1
  unfold sout1_A_0
  rw [View.read_writes_eq_canon _ _ _ (scover1_A_0 c i a2 h2 a3 h3 a4 h4 a5 h5 hc0 hc1 x0 x1)]
  unfold kernelRun1_A
  dsimp only
  sl_unfold_words
  rw [View.canon_cons_unit_zero (S := S2000x64) hz, View.readCov_unit_zero (S := S2000x64) _ hz]
  simp only [View.readAt_eq_ld, h2.read_unread, h3.read_unread, h4.read_unread, h5.read_unread, View.ld_unit_zero (S := S1x3200) hz, View.ld_unit_zero (S := S3200x64) hz, View.ld_unit_zero (S := S2000x64) hz, View.readCov_unit_zero (S := S2000x64) _ hz]

/-- CASE B (a middle block): the accumulator is left at the block's one-hot product added to what it held. -/
theorem sout1_B_0_eq (c : Dev nD) (i : grid1.Coords) (a2 : Memref sig .tc .vmem S1x3200 .i32) (h2 : a2.IsWhole) (a3 : Memref sig .tc .vmem S3200x64 .bf16) (h3 : a3.IsWhole) (a4 : Memref sig .tc .vmem S2000x64 .f32) (h4 : a4.IsWhole) (a5 : Memref sig .tc .vmem S2000x64 .f32) (h5 : a5.IsWhole) (hc0 : ¬cond1_0 i) (hc1 : ¬cond1_1 i)
    (x0 : Vec F S1x3200 .i32) (x1 : Vec F S3200x64 .bf16) (xs0 : Vec F S2000x64 .f32) :
    sout1_B_0 c i a2 h2 a3 h3 a4 h4 a5 h5 hc0 hc1 x0 x1 xs0 = k1_pay2 i x0 x1 xs0 := by
  have hz := hz1
  unfold sout1_B_0
  rw [View.read_writes_eq_canon _ _ _ (scover1_B_0 c i a2 h2 a3 h3 a4 h4 a5 h5 hc0 hc1 x0 x1 xs0)]
  unfold kernelRun1_B
  dsimp only
  sl_unfold_words
  rw [View.canon_unit_zero hz]
  simp only [View.readAt_eq_ld, h2.read_unread, h3.read_unread, h4.read_unread, h5.read_unread, View.ld_unit_zero (S := S1x3200) hz, View.ld_unit_zero (S := S3200x64) hz, View.ld_unit_zero (S := S2000x64) hz, View.readCov_unit_zero (S := S2000x64) _ hz]

/-- CASE C (last block of a row): the accumulator likewise, -/
theorem sout1_C_0_eq (c : Dev nD) (i : grid1.Coords) (a2 : Memref sig .tc .vmem S1x3200 .i32) (h2 : a2.IsWhole) (a3 : Memref sig .tc .vmem S3200x64 .bf16) (h3 : a3.IsWhole) (a4 : Memref sig .tc .vmem S2000x64 .f32) (h4 : a4.IsWhole) (a5 : Memref sig .tc .vmem S2000x64 .f32) (h5 : a5.IsWhole) (hc0 : ¬cond1_0 i) (hc1 : cond1_1 i)
    (x0 : Vec F S1x3200 .i32) (x1 : Vec F S3200x64 .bf16) (xs0 : Vec F S2000x64 .f32) :
    sout1_C_0 c i a2 h2 a3 h3 a4 h4 a5 h5 hc0 hc1 x0 x1 xs0 = k1_pay2 i x0 x1 xs0 := by
  have hz := hz1
  unfold sout1_C_0
  rw [View.read_writes_eq_canon _ _ _ (scover1_C_0 c i a2 h2 a3 h3 a4 h4 a5 h5 hc0 hc1 x0 x1 xs0)]
  unfold kernelRun1_C
  dsimp only
  sl_unfold_words
  rw [View.canon_unit_zero hz]
  simp only [View.readAt_eq_ld, h2.read_unread, h3.read_unread, h4.read_unread, h5.read_unread, View.ld_unit_zero (S := S1x3200) hz, View.ld_unit_zero (S := S3200x64) hz, View.ld_unit_zero (S := S2000x64) hz, View.readCov_unit_zero (S := S2000x64) _ hz]

/-- and output 2's buffer holds that same sum: the accumulator loaded back after its store and stored whole. -/
theorem out1_C_2_eq (c : Dev nD) (i : grid1.Coords) (a2 : Memref sig .tc .vmem S1x3200 .i32) (h2 : a2.IsWhole) (a3 : Memref sig .tc .vmem S3200x64 .bf16) (h3 : a3.IsWhole) (a4 : Memref sig .tc .vmem S2000x64 .f32) (h4 : a4.IsWhole) (a5 : Memref sig .tc .vmem S2000x64 .f32) (h5 : a5.IsWhole) (hc0 : ¬cond1_0 i) (hc1 : cond1_1 i)
    (x0 : Vec F S1x3200 .i32) (x1 : Vec F S3200x64 .bf16) (xs0 : Vec F S2000x64 .f32) :
    out1_C_2 c i a2 h2 a3 h3 a4 h4 a5 h5 hc0 hc1 x0 x1 xs0 = k1_pay2 i x0 x1 xs0 := by
  have hz := hz1
  unfold out1_C_2
  rw [View.read_writes_eq_canon _ _ _ (cover1_C_2 c i a2 h2 a3 h3 a4 h4 a5 h5 hc0 hc1 x0 x1 xs0)]
  unfold kernelRun1_C
  dsimp only
  sl_unfold_words
  rw [View.canon_unit_zero hz]
  simp only [View.readAt_eq_ld, h2.read_unread, h3.read_unread, h4.read_unread, h5.read_unread, View.ld_unit_zero (S := S1x3200) hz, View.ld_unit_zero (S := S3200x64) hz, View.ld_unit_zero (S := S2000x64) hz, View.readCov_unit_zero (S := S2000x64) _ hz]

end Cert.KernelIdeal.Hand

end
-- ==== Proof.S1Value.lean ====
/-
  The scatter-add, read as values over the extended reals: after the region the array of aggregates holds, at every
  node, the sum of the messages on the edges whose target word is the node's number.

  The region's points run row by row: point t is (t / 500, t % 500); row i0 works on the block of nodes
  i0 * 2000 .. i0 * 2000 + 1999 throughout, and its point i1 has the block of edges i1 * 3200 .. i1 * 3200 + 3199 in
  hand. A step adds to the accumulator, at (r, d), the sum over those 3200 edges of [the edge's target word is the
  number of node i0 * 2000 + r] times the edge's message in column d. So after point (i0, i1) the accumulator holds
  the same sum over all edges below (i1 + 1) * 3200, by induction along the row; after the row's last point it is the
  sum over all 1600000 edges, which is the aggregate. That point stores the accumulator into block i0 of the array,
  and the 50 rows' blocks cover the array.
-/
import proofs.«431381_j29575144800265_1_alg».proof.Proof.KI.S1Pieces
import proofs.«431381_j29575144800265_1_alg».proof.Proof.Pay
import proofs.«431381_j29575144800265_1_alg».proof.Proof.Spec
import Idealize.ShloMosaic.Lib.Pipeline.Value
import Idealize.ShloMosaic.Lib.ValueIdx

set_option maxRecDepth 16384

noncomputable section

open scoped BigOperators

namespace Cert.KernelIdeal.Value1

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand Cert.KernelIdeal.Pay

variable (V : (c : Dev nD) → (b : Ref sig .tc) → Buf (Elt Ideal) ((c : Thread nD τ).loc b))

/-! ## The arrays and the blocks, by their literal types -/

/-- The row of target words and the per-edge message rows as the region finds them. -/
abbrev dstArr (c : Dev nD) : S1x1600000.Idx → BitVec 32 := V c main_v5
abbrev mmArr (c : Dev nD) : S1600000x64.Idx → EReal := V c main_v6
/-- The block of 3200 target words and the block of 3200 message rows in hand at point t. -/
abbrev dstBlk (c : Dev nD) (t : Fin cfg1.N) : Vec Ideal S1x3200 .i32 := iblk1 V c 0 t
abbrev mmBlk (c : Dev nD) (t : Fin cfg1.N) : Vec Ideal S3200x64 .bf16 := iblk1 V c 1 t
/-- The accumulator after the body at position n. -/
abbrev accAt (c : Dev nD) (n : ℕ) (hn : n < cfg1.N) : Vec Ideal S2000x64 .f32 := (outsAt1 V c n hn).2

/-! ## The grid: point t is (t / 500, t % 500), and where each window's block lies -/

theorem lt_N1 (t : Fin cfg1.N) : t.val < 25000 := lt_of_lt_of_eq t.isLt N_1

theorem coords1_0 (t : Fin cfg1.N) : (grid1.coords t 0).val = t.val / 500 := by
  show t.val / grid1.stride 0 % grid1.bound 0 = t.val / 500
  rw [show grid1.stride 0 = 500 from by decide, show grid1.bound 0 = 50 from rfl]
  have := lt_N1 t
  omega

theorem coords1_1 (t : Fin cfg1.N) : (grid1.coords t 1).val = t.val % 500 := by
  show t.val / grid1.stride 1 % grid1.bound 1 = t.val % 500
  rw [show grid1.stride 1 = 1 from by decide, show grid1.bound 1 = 500 from rfl, Nat.div_one]

/-- The block of target words is block t % 500 of the row; -/
theorem index1_0 (t : Fin cfg1.N) : win1_0.index t 0 = 0 ∧ win1_0.index t 1 = t.val % 500 := by
  refine ⟨rfl, ?_⟩
  show (BitVec.ofNat 32 (grid1.coords t 1).val).toNat = _
  rw [BitVec.toNat_ofNat, coords1_1, Nat.mod_eq_of_lt (by omega)]

/-- the block of messages is row block t % 500; -/
theorem index1_1 (t : Fin cfg1.N) : win1_1.index t 0 = t.val % 500 ∧ win1_1.index t 1 = 0 := by
  refine ⟨?_, rfl⟩
  show (BitVec.ofNat 32 (grid1.coords t 1).val).toNat = _
  rw [BitVec.toNat_ofNat, coords1_1, Nat.mod_eq_of_lt (by omega)]

/-- the block of aggregates is row block t / 500. -/
theorem index1_2 (t : Fin cfg1.N) : win1_2.index t 0 = t.val / 500 ∧ win1_2.index t 1 = 0 := by
  refine ⟨?_, rfl⟩
  show (BitVec.ofNat 32 (grid1.coords t 0).val).toNat = _
  rw [BitVec.toNat_ofNat, coords1_0, Nat.mod_eq_of_lt (by have := lt_N1 t; omega)]

/-- The edge in row e of the blocks of edges at point t. -/
def edge (t : Fin cfg1.N) (e : Fin 3200) : Fin 1600000 :=
  ⟨t.val % 500 * 3200 + e.val, by have := e.isLt; omega⟩
/-- The node in row r of the block of aggregates at point t. -/
def node (t : Fin cfg1.N) (r : Fin 2000) : Fin 100000 :=
  ⟨t.val / 500 * 2000 + r.val, by have := lt_N1 t; have := r.isLt; omega⟩

/-- The block of target words read in the row: its e-th word is the target word of edge (t % 500) * 3200 + e. -/
theorem dstBlk_apply (c : Dev nD) (t : Fin cfg1.N) (e : Fin 3200) :
    dstBlk V c t (ix2 0 e) = dstArr V c (ix2 0 (edge t e)) := by
  show ((cfg1.win 0).blk t).view.read (Elt Ideal) (V c (Pipeline.arrRef spec1 0)) (ix2 0 e) = _
  rw [View.read_apply]
  show V c main_v5 _ = V c main_v5 _
  congr 1
  funext a
  apply Fin.ext
  match a with
  | ⟨0, _⟩ => show win1_0.index t 0 * 1 + 1 * 0 = 0; rw [(index1_0 t).1]
  | ⟨1, _⟩ => show win1_0.index t 1 * 3200 + 1 * e.val = t.val % 500 * 3200 + e.val; rw [(index1_0 t).2]; omega

/-- The block of messages read in the array: its row e is the message row of edge (t % 500) * 3200 + e. -/
theorem mmBlk_apply (c : Dev nD) (t : Fin cfg1.N) (e : Fin 3200) (d : Fin 64) :
    mmBlk V c t (ix2 e d) = mmArr V c (ix2 (edge t e) d) := by
  show ((cfg1.win 1).blk t).view.read (Elt Ideal) (V c (Pipeline.arrRef spec1 1)) (ix2 e d) = _
  rw [View.read_apply]
  show V c main_v6 _ = V c main_v6 _
  congr 1
  funext a
  apply Fin.ext
  match a with
  | ⟨0, _⟩ => show win1_1.index t 0 * 3200 + 1 * e.val = t.val % 500 * 3200 + e.val; rw [(index1_1 t).1]; omega
  | ⟨1, _⟩ => show win1_1.index t 1 * 64 + 1 * d.val = d.val; rw [(index1_1 t).2]; omega

/-! ## The sums -/

/-- Edge k's share of the aggregate at the node whose number is the word w, in column d: its message if its target
    word is w, zero if not, and zero past the last edge. -/
def hterm (dst : S1x1600000.Idx → BitVec 32) (mm : S1600000x64.Idx → EReal) (w : BitVec 32) (d : Fin 64) (k : ℕ) : EReal :=
  if h : k < 1600000 then (if w = dst (ix2 0 ⟨k, h⟩) then 1 else 0) * mm (ix2 ⟨k, h⟩ d) else 0

/-- Over all edges the shares add up to the aggregate: the sum of the messages on the edges whose target word is the
    node's number. -/
theorem sum_hterm_all (dst : S1x1600000.Idx → BitVec 32) (mm : S1600000x64.Idx → EReal) (n : Fin 100000) (d : Fin 64) :
    ∑ k ∈ Finset.range 1600000, hterm dst mm (BitVec.ofNat 32 n.val) d k = Cert.Spec.aggAt dst mm n d := by
  unfold Cert.Spec.aggAt
  rw [Finset.sum_range]
  refine Finset.sum_congr rfl fun e _ => ?_
  unfold hterm
  rw [dif_pos e.isLt]
  show (if BitVec.ofNat 32 n.val = dst (ix2 0 e) then (1 : EReal) else 0) * mm (ix2 e d)
    = if dst (ix2 0 e) = BitVec.ofNat 32 n.val then mm (ix2 e d) else 0
  by_cases h : dst (ix2 0 e) = BitVec.ofNat 32 n.val
  · rw [if_pos h.symm, if_pos h, one_mul]
  · rw [if_neg (fun h' => h h'.symm), if_neg h, zero_mul]

/-- One step of the accumulation: the shares of the edges below a * 3200, plus the step's sum over the next 3200
    edges, are the shares of the edges below (a + 1) * 3200. -/
theorem step_sum (dst : S1x1600000.Idx → BitVec 32) (mm : S1600000x64.Idx → EReal) (w : BitVec 32) (d : Fin 64)
    (a : ℕ) (ha : a < 500) (acc : EReal) (xw : Fin 3200 → BitVec 32) (xb : Fin 3200 → EReal)
    (hxw : ∀ e : Fin 3200, xw e = dst (ix2 0 ⟨a * 3200 + e.val, by have := e.isLt; omega⟩))
    (hxb : ∀ e : Fin 3200, xb e = mm (ix2 ⟨a * 3200 + e.val, by have := e.isLt; omega⟩ d))
    (hacc : acc = ∑ k ∈ Finset.range (a * 3200), hterm dst mm w d k) :
    acc + ∑ e : Fin 3200, (if w = xw e then 1 else 0) * xb e
      = ∑ k ∈ Finset.range ((a + 1) * 3200), hterm dst mm w d k := by
  rw [show (a + 1) * 3200 = a * 3200 + 3200 from by ring, Finset.sum_range_add, hacc]
  refine congrArg (_ + ·) ?_
  rw [Finset.sum_range]
  refine Finset.sum_congr rfl fun e _ => ?_
  have hlt : a * 3200 + e.val < 1600000 := by have := e.isLt; omega
  unfold hterm
  rw [dif_pos hlt, hxw e, hxb e]

/-! ## The accumulator, point by point -/

/-- One step of the scatter at point t, at (r, d), in terms of the arrays: over an accumulator holding the shares of
    the edges below (t % 500) * 3200 it leaves the shares of the edges below (t % 500 + 1) * 3200. -/
theorem pay2_at (c : Dev nD) (t : Fin cfg1.N) (acc : Vec Ideal S2000x64 .f32) (r : Fin 2000) (d : Fin 64)
    (hacc : acc (ix2 r d)
      = ∑ k ∈ Finset.range (t.val % 500 * 3200), hterm (dstArr V c) (mmArr V c) (BitVec.ofNat 32 (node t r).val) d k) :
    k1_pay2 (F := Ideal) (grid1.coords t) (dstBlk V c t) (mmBlk V c t) acc (ix2 r d)
      = ∑ k ∈ Finset.range ((t.val % 500 + 1) * 3200), hterm (dstArr V c) (mmArr V c) (BitVec.ofNat 32 (node t r).val) d k := by
  refine (k1_pay2_apply (grid1.coords t) (dstBlk V c t) (mmBlk V c t) acc r d).trans ?_
  rw [coords1_0 t]
  exact step_sum (dstArr V c) (mmArr V c) (BitVec.ofNat 32 (node t r).val) d (t.val % 500) (Nat.mod_lt _ (by decide))
    (acc (ix2 r d)) (fun e => dstBlk V c t (ix2 0 e)) (fun e => mmBlk V c t (ix2 e d))
    (fun e => dstBlk_apply V c t e) (fun e => mmBlk_apply V c t e d) hacc

/-- THE INVARIANT. After point t = (i0, i1) the accumulator holds, at (r, d), the shares of the edges below
    (i1 + 1) * 3200 in the aggregate of node i0 * 2000 + r: by induction on the point, the first point of a row
    starting from zero, every other from what the point before left (same row, one block of edges fewer). -/
theorem acc_eq (c : Dev nD) : ∀ (n : ℕ) (hn : n < cfg1.N) (r : Fin 2000) (d : Fin 64),
    accAt V c n hn (ix2 r d)
      = ∑ k ∈ Finset.range ((n % 500 + 1) * 3200),
          hterm (dstArr V c) (mmArr V c) (BitVec.ofNat 32 (node ⟨n, hn⟩ r).val) d k := by
  intro n
  induction n using Nat.strong_induction_on with
  | _ n ih =>
    intro hn r d
    show (outsAt1 V c n hn).2 (ix2 r d) = _
    by_cases h0 : n % 500 = 0
    · have h1 : ¬n % 500 = 499 := by omega
      rw [outsAt1_A V c ⟨n, hn⟩ h0 h1]
      dsimp only
      refine (congrFun (sout1_A_0_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) ((hcond1_0 ⟨n, hn⟩).mpr h0) (fun h => h1 ((hcond1_1 ⟨n, hn⟩).mp h)) (dstBlk V c ⟨n, hn⟩) (mmBlk V c ⟨n, hn⟩)) (ix2 r d)).trans ?_
      refine pay2_at V c ⟨n, hn⟩ (k1_pay1 (F := Ideal)) r d ?_
      rw [k1_pay1_apply]
      show (0 : EReal) = ∑ k ∈ Finset.range (n % 500 * 3200), _
      rw [h0, Nat.zero_mul, Finset.range_zero, Finset.sum_empty]
    · have hn' : n - 1 < cfg1.N := Nat.lt_of_le_of_lt (Nat.sub_le _ _) hn
      have hacc : accAt V c (n - 1) hn' (ix2 r d)
          = ∑ k ∈ Finset.range (n % 500 * 3200),
              hterm (dstArr V c) (mmArr V c) (BitVec.ofNat 32 (node ⟨n, hn⟩ r).val) d k := by
        rw [ih (n - 1) (by omega) hn' r d, show (n - 1) % 500 + 1 = n % 500 from by omega,
          show (node ⟨n - 1, hn'⟩ r).val = (node ⟨n, hn⟩ r).val from by
            show (n - 1) / 500 * 2000 + r.val = n / 500 * 2000 + r.val
            rw [show (n - 1) / 500 = n / 500 from by omega]]
      by_cases h1 : n % 500 = 499
      · rw [outsAt1_C V c ⟨n, hn⟩ h0 h1]
        dsimp only
        refine (congrFun (sout1_C_0_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) (fun h => h0 ((hcond1_0 ⟨n, hn⟩).mp h)) ((hcond1_1 ⟨n, hn⟩).mpr h1) (dstBlk V c ⟨n, hn⟩) (mmBlk V c ⟨n, hn⟩) (accAt V c (n - 1) hn')) (ix2 r d)).trans ?_
        exact pay2_at V c ⟨n, hn⟩ (accAt V c (n - 1) hn') r d hacc
      · rw [outsAt1_B V c ⟨n, hn⟩ h0 h1]
        dsimp only
        refine (congrFun (sout1_B_0_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) (fun h => h0 ((hcond1_0 ⟨n, hn⟩).mp h)) (fun h => h1 ((hcond1_1 ⟨n, hn⟩).mp h)) (dstBlk V c ⟨n, hn⟩) (mmBlk V c ⟨n, hn⟩) (accAt V c (n - 1) hn')) (ix2 r d)).trans ?_
        exact pay2_at V c ⟨n, hn⟩ (accAt V c (n - 1) hn') r d hacc

/-! ## The block a row's last point stores -/

/-- At the last point of a row the stored block holds, at (r, d), the aggregate at node (t / 500) * 2000 + r in
    column d: the accumulator after the last step holds the shares of all 1600000 edges. -/
theorem out_eq (c : Dev nD) (t : Fin cfg1.N) (h1 : t.val % 500 = 499) (r : Fin 2000) (d : Fin 64) :
    (outsAt1 V c t.val t.isLt).1 (ix2 r d) = Cert.Spec.aggAt (dstArr V c) (mmArr V c) (node t r) d := by
  have h0 : ¬t.val % 500 = 0 := by omega
  have hn' : t.val - 1 < cfg1.N := Nat.lt_of_le_of_lt (Nat.sub_le _ _) t.isLt
  have hacc : accAt V c (t.val - 1) hn' (ix2 r d)
      = ∑ k ∈ Finset.range (t.val % 500 * 3200),
          hterm (dstArr V c) (mmArr V c) (BitVec.ofNat 32 (node t r).val) d k := by
    rw [acc_eq V c (t.val - 1) hn' r d, show (t.val - 1) % 500 + 1 = t.val % 500 from by omega,
      show (node ⟨t.val - 1, hn'⟩ r).val = (node t r).val from by
        show (t.val - 1) / 500 * 2000 + r.val = t.val / 500 * 2000 + r.val
        rw [show (t.val - 1) / 500 = t.val / 500 from by omega]]
  rw [outsAt1_C V c t h0 h1]
  dsimp only
  refine (congrFun (out1_C_2_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (dstBlk V c t) (mmBlk V c t) (accAt V c (t.val - 1) hn')) (ix2 r d)).trans ?_
  refine (pay2_at V c t (accAt V c (t.val - 1) hn') r d hacc).trans ?_
  rw [h1]
  exact sum_hterm_all (dstArr V c) (mmArr V c) (node t r) d

/-- An index of the array of aggregates is in point t's block iff each coordinate is in the block's range on its axis. -/
theorem mem_blk (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v7).slice (win1_2.rect t)).set ↔ _
  rw [View.set_slice_whole, Rect.mem_set_unit]
  exact Iff.rfl

/-- Point t's block of any array of 100000 rows, read at (r, d), is the array at row (t / 500) * 2000 + r. -/
theorem read_out_blk (t : Fin cfg1.N) (G : S100000x64.Idx → EReal) (r : Fin 2000) (d : Fin 64) :
    ((cfg1.win 2).blk t).view.read (Elt Ideal) G (ix2 r d) = G (ix2 (node t r) d) := by
  rw [View.read_apply]
  show G _ = G _
  congr 1
  funext a
  apply Fin.ext
  match a with
  | ⟨0, _⟩ => show win1_2.index t 0 * 2000 + 1 * r.val = t.val / 500 * 2000 + r.val; rw [(index1_2 t).1]; omega
  | ⟨1, _⟩ => show win1_2.index t 1 * 64 + 1 * d.val = d.val; rw [(index1_2 t).2]; omega

/-- WHAT A ROW'S LAST POINT WRITES BACK is its block of the array of all aggregates. -/
theorem flushed_eq (c : Dev nD) (t : Fin cfg1.N) (hf : (cfg1.win 2).flush t = true) :
    (dat1 V c).flushed 2 t = ((cfg1.win 2).blk t).view.read (Elt Ideal) (Cert.Spec.agg (dstArr V c) (mmArr V c)) := by
  have h1 : t.val % 500 = 499 := (flush1_2 t).mp hf
  show (cfg1.win 2).cut (grid1.coords t) ((dat1 V c).after 2 t) = _
  rw [after1_2]
  funext j
  obtain ⟨r, d, rfl⟩ : ∃ (r : Fin 2000) (d : Fin 64), j = ix2 r d := ⟨j 0, j 1, eq_ix2 j⟩
  refine Eq.trans ?_ (read_out_blk t (Cert.Spec.agg (dstArr V c) (mmArr V c)) r d).symm
  show (outsAt1 V c t.val t.isLt).1 (ix2 r d) = _
  rw [out_eq V c t h1 r d]
  exact (Cert.Spec.agg_apply (dstArr V c) (mmArr V c) (node t r) d).symm

/-- THE ARRAY OF AGGREGATES after the region: every row lies in the block of the last point of its row of points, so
    the array ends holding every aggregate. -/
theorem arr1_final (c : Dev nD) :
    (dat1 (F := Ideal) V c).arrAt 2 cfg1.N = Cert.Spec.agg (V c main_v5) (V c main_v6) :=
  (dat1 V c).arrAt_eq_of_cover 2 (Cert.Spec.agg (dstArr V c) (mmArr V c)) (flushed_eq V c) fun i => by
    have hi0 : (i 0).val < 100000 := (i 0).isLt
    have hi1 : (i 1).val < 64 := (i 1).isLt
    have hN : cfg1.N = 25000 := N_1
    have ht : (i 0).val / 2000 * 500 + 499 < cfg1.N := by rw [hN]; omega
    refine ⟨⟨(i 0).val / 2000 * 500 + 499, ht⟩, (flush1_2 _).mpr (by show ((i 0).val / 2000 * 500 + 499) % 500 = 499; omega), ?_⟩
    rw [mem_blk]
    intro a
    match a with
    | ⟨0, _⟩ =>
      show win1_2.index ⟨(i 0).val / 2000 * 500 + 499, ht⟩ 0 * 2000 ≤ (i 0).val ∧ (i 0).val < win1_2.index ⟨(i 0).val / 2000 * 500 + 499, ht⟩ 0 * 2000 + 2000
      rw [(index1_2 _).1]
      show ((i 0).val / 2000 * 500 + 499) / 500 * 2000 ≤ (i 0).val ∧ (i 0).val < ((i 0).val / 2000 * 500 + 499) / 500 * 2000 + 2000
      omega
    | ⟨1, _⟩ =>
      show win1_2.index ⟨(i 0).val / 2000 * 500 + 499, ht⟩ 1 * 64 ≤ (i 1).val ∧ (i 1).val < win1_2.index ⟨(i 0).val / 2000 * 500 + 499, ht⟩ 1 * 64 + 64
      rw [(index1_2 _).2]
      omega

end Cert.KernelIdeal.Value1

end
-- ==== Proof.HostRows.lean ====
/-
  The kernel's host stretch cuts one row out of the two rows of edge endpoints, flattens it to a vector and lays it
  out again as a one-row array. A reshape keeps every element at its row-major position, so the two reshapes undo each
  other, and what is left is the row that was cut: row r of the endpoints, column by column.
-/
import proofs.«431381_j29575144800265_1_alg».proof.Proof.Spec
import Idealize.ShloMosaic.Lib.Pipeline.Value
import Idealize.ShloMosaic.Lib.ValueLayout

noncomputable section

namespace Cert.HostRows

open Idealize.ShloMosaic Idealize.ShloMosaic.ValueIdx Cert.Spec

/-- A one-row array flattened and laid out as one row again is the array. -/
theorem reshape_row_round {α : Type} (v : SRow.Idx → α) (h1 : SRow.ShapeCasts ⟨1, ![nE]⟩)
    (h2 : (⟨1, ![nE]⟩ : Shape).ShapeCasts SRow) :
    shapeCast SRow (shapeCast ⟨1, ![nE]⟩ v h1) h2 = v := by
  funext j
  have hj0 : (j 0).val = 0 := by have h : (j 0).val < 1 := (j 0).isLt; omega
  refine (shapeCast_apply _ h2 j (ix1 (j 1)) ?_).trans ((shapeCast_apply v h1 (ix1 (j 1)) j ?_))
  · rw [Shape.rowMajor_val_one, Shape.rowMajor_val_two, hj0]; simp
  · rw [Shape.rowMajor_val_one, Shape.rowMajor_val_two, hj0]; simp

/-- Row o of the two rows of endpoints, cut out as a one-row array, is the specification's row. -/
theorem slice_row (ends : SEnds.Idx → BitVec 32) (r : Fin 2) (hs : SEnds.Slices ![r.val, 0] SRow) :
    extractStridedSlice SRow ![r.val, 0] ends hs = endsRow ends r := by
  funext j
  have hj0 : (j 0).val = 0 := by have h : (j 0).val < 1 := (j 0).isLt; omega
  unfold endsRow
  refine extractStridedSlice_apply _ ends hs j (ix2 r (j 1)) fun a => ?_
  match a with
  | ⟨0, _⟩ => show r.val = r.val + (j 0).val; omega
  | ⟨1, _⟩ => show (j 1).val = 0 + (j 1).val; omega

/-- The host stretch's result for row r: cut, flattened, laid out again. -/
theorem host_row (ends : SEnds.Idx → BitVec 32) (r : Fin 2) (hs : SEnds.Slices ![r.val, 0] SRow)
    (h1 : SRow.ShapeCasts ⟨1, ![nE]⟩) (h2 : (⟨1, ![nE]⟩ : Shape).ShapeCasts SRow) :
    shapeCast SRow (shapeCast ⟨1, ![nE]⟩ (extractStridedSlice SRow ![r.val, 0] ends hs) h1) h2 = endsRow ends r := by
  rw [reshape_row_round, slice_row]

end Cert.HostRows

end
-- ==== Proof.KernelValue.lean ====
/-
  What the idealized kernel's run leaves in its result array.

  After the run every buffer outside the kernels' scratch holds the last boundary's contents. The result array is the
  second region's output: the aggregate, at the target row the host stretch cut out, of what the first region left —
  the messages from the source row the host stretch cut out, of the node features as launched. The host stretch's two
  rows are the two rows of the edge endpoints. So the result is message passing over the launch arrays.
-/
import proofs.«431381_j29575144800265_1_alg».proof.Proof.KI.Run
import proofs.«431381_j29575144800265_1_alg».proof.Proof.G0Value
import proofs.«431381_j29575144800265_1_alg».proof.Proof.S1Value
import proofs.«431381_j29575144800265_1_alg».proof.Proof.HostRows

set_option maxRecDepth 16384

noncomputable section

namespace Cert.KernelIdeal.Hand

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

/-- The source row as the first region finds it: row 0 of the endpoints. -/
theorem V1_src (c : Dev nD) :
    (V1 (F := Ideal) m ρ c main_v2 : S1x1600000.Idx → BitVec 32) = Cert.Spec.endsRow (m ((c : Thread nD τ).loc main_arg1)) 0 := by
  have e : (V1 (F := Ideal) m ρ c main_v2 : S1x1600000.Idx → BitVec 32)
      = shapeCast S1x1600000 (shapeCast S1600000 (extractStridedSlice S1x1600000 ![0, 0] (m ((c : Thread nD τ).loc main_arg1))
          slices_S2x1600000_S1x1600000_0_0) shapeCasts_S1x1600000_S1600000) shapeCasts_S1600000_S1x1600000 := by
    show StableHlo.after hostOps0 (fun b => m (c, b)) (Proc.devRef .tc main_v2) = _
    after_results; rfl
  rw [e]
  exact Cert.HostRows.host_row _ 0 _ _ _

/-- The target row as the regions find it: row 1 of the endpoints. -/
theorem V1_dst (c : Dev nD) :
    (V1 (F := Ideal) m ρ c main_v5 : S1x1600000.Idx → BitVec 32) = Cert.Spec.endsRow (m ((c : Thread nD τ).loc main_arg1)) 1 := by
  have e : (V1 (F := Ideal) m ρ c main_v5 : S1x1600000.Idx → BitVec 32)
      = shapeCast S1x1600000 (shapeCast S1600000 (extractStridedSlice S1x1600000 ![1, 0] (m ((c : Thread nD τ).loc main_arg1))
          slices_S2x1600000_S1x1600000_1_0) shapeCasts_S1x1600000_S1600000) shapeCasts_S1600000_S1x1600000 := by
    show StableHlo.after hostOps0 (fun b => m (c, b)) (Proc.devRef .tc main_v5) = _
    after_results; rfl
  rw [e]
  exact Cert.HostRows.host_row _ 1 _ _ _

/-- The node features as the first region finds them: the launch array (no host operation writes it). -/
theorem V1_x (c : Dev nD) : V1 (F := Ideal) m ρ c main_arg0 = m ((c : Thread nD τ).loc main_arg0) := by
  show StableHlo.after hostOps0 (fun b => m (c, b)) (Proc.devRef .tc main_arg0) = _
  after_results

/-- The message array the first region leaves: the messages from the source row of the launch features. -/
theorem V2_msgs (c : Dev nD) :
    (V2 (F := Ideal) m ρ c main_v6 : S1600000x64.Idx → EReal)
      = Cert.Spec.msg (Cert.Spec.endsRow (m ((c : Thread nD τ).loc main_arg1)) 0) (m ((c : Thread nD τ).loc main_arg0)) := by
  have h := (W2_arr m ρ c 2).trans (Cert.KernelIdeal.Value0.arr0_final (V1 (F := Ideal) m ρ) c)
  rw [V1_src m ρ c, V1_x m ρ c] at h
  exact h

/-- The target row as the second region finds it: the first region does not write it. -/
theorem V2_dst (c : Dev nD) :
    (V2 (F := Ideal) m ρ c main_v5 : S1x1600000.Idx → BitVec 32) = Cert.Spec.endsRow (m ((c : Thread nD τ).loc main_arg1)) 1 :=
  (W2_of_ne m ρ c main_v5 (by decide)).trans (V1_dst m ρ c)

/-- The result array at the end: message passing over the launch arrays. -/
theorem W3_result (c : Dev nD) :
    (W3 (F := Ideal) m ρ c (Proc.devRef .tc main_v7) : S100000x64.Idx → EReal)
      = Cert.Spec.result (m ((c : Thread nD τ).loc main_arg0)) (m ((c : Thread nD τ).loc main_arg1)) := by
  have h := (W3_arr m ρ c 2).trans (Cert.KernelIdeal.Value1.arr1_final (V2 (F := Ideal) m ρ) c)
  rw [V2_dst m ρ c, V2_msgs m ρ c] at h
  exact h

/-- THE KERNEL'S RUN WITH ITS RESULT NAMED: every weakly fair execution terminates, the result array holds message
    passing over the launch arrays, and the two argument arrays are unchanged. -/
theorem run_value : θ_run defs (onTc (τ := τ) (main (F := Ideal))) ⟨m, fun _ => 0, ρ⟩ (fun r => ∀ c : Dev nD,
      r.2.mem ((c.tc : Thread nD τ).loc main_v7) = Cert.Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v7 (by decide))).trans (W3_result m ρ c),
     (h c _ (mem_uc main_arg0 (by decide))).trans (W3_main_arg0 m ρ c),
     (h c _ (mem_uc main_arg1 (by decide))).trans (W3_main_arg1 m ρ c)⟩) (run_all m ρ)

end Cert.KernelIdeal.Hand

end
-- ==== Proof.LibGatherScatter.lean ====
/-
  How a gather and a float scatter-add read AT ONE INDEX, for four dimension-number records:
  a gather of table rows and a gather of vector entries by a column of start words, and the scatter-adds that send
  update rows, or update entries, back to the rows those words name.

  A gather reads its start word SIGNED and CLAMPS it into the table: a negative word reads row 0, a word past the end
  reads the last row. A scatter-add reads the word signed and does NOT clamp: an update whose word is outside the table
  is dropped, so operand entry i receives exactly the updates whose word, as an integer, equals i.

  Every statement is for an arbitrary record whose fields are given as hypotheses, so that it applies to any record
  with those fields, at arbitrary extents.
-/
import Idealize.ShloMosaic.PureOps.Ideal
import Idealize.ShloMosaic.Lib.ValueIdx
import Idealize.ShloMosaic.Lib.StableHlo.Predicate

noncomputable section

open scoped BigOperators

namespace Cert.LibGS

open Idealize.ShloMosaic Idealize.ShloMosaic.ValueIdx

/-- The shape of an array of N rows and C columns. -/
abbrev Sh (N C : Nat) : Shape := ⟨2, ![N, C]⟩

/-- An N × C array of extended reals. -/
abbrev RArr (N C : Nat) : Type := (Sh N C).Idx → EReal

/-- The table row a start word names: the word read signed, clamped into the N rows. -/
def rowOf (N : Nat) (hN : 0 < N) (w : BitVec 32) : Fin N := ⟨min w.toInt.toNat (N - 1), by omega⟩

/-! ## The row gather: one table row per start word -/

section GatherRows

variable {N n C : Nat} (d : GatherDims (Sh N C) (Sh n 1) (Sh n C))

/-- An index of the result read on an axis known to be the first gives the row coordinate. -/
theorem ix2_val_zero {a b : Nat} (e : Fin a) (c : Fin b) (X : Fin 2) (h : X = 0) : (ix2 e c X).val = e.val := by
  subst h; rfl

/-- An index of the result read on an axis known to be the second gives the column coordinate. -/
theorem ix2_val_one {a b : Nat} (e : Fin a) (c : Fin b) (X : Fin 2) (h : X = 1) : (ix2 e c X).val = c.val := by
  subst h; rfl

/-- When the second axis is the one offset axis, the result's batch axes are the first alone. -/
theorem rows_batch_mem (hoff : d.offsetDims = [1]) (X : Fin (Sh n C).rank) (hX : X ∈ d.batchDims) : X = (0 : Fin 2) := by
  have h1 : X ∉ d.offsetDims := by
    have := (List.mem_filter.1 hX).2
    simpa using this
  rw [hoff] at h1
  match X with
  | ⟨0, _⟩ => rfl
  | ⟨1, _⟩ => exact absurd (List.mem_singleton.mpr rfl) h1

/-- The start word a result entry (e, c) reads is the one in row e of the index column. -/
theorem rows_siIdx (hoff : d.offsetDims = [1]) (hsim : d.startIndexMap = [0]) (hivd : d.indexVectorDim = 1)
    (e : Fin n) (c : Fin C) (k : Fin d.startIndexMap.length) : d.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    exact ix2_val_zero e c _ (rows_batch_mem d hoff _ (List.getElem_mem _))
  | ⟨1, _⟩ =>
    unfold GatherDims.siIdx
    rw [dif_pos (by rw [hivd])]
    apply Fin.ext
    have hlen : d.startIndexMap.length = 1 := by rw [hsim]; rfl
    have hk : k.val < d.startIndexMap.length := k.isLt
    show k.val = 0
    omega

end GatherRows

section GatherRows2
variable {N n C : Nat} (d : GatherDims (Sh N C) (Sh n 1) (Sh n C))

/-- On the table's row axis the operand index is the start word, read signed and clamped into the table. -/
theorem rows_operand_zero (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (idx : IVec (Sh n 1) 32) (e : Fin n) (c : Fin C) :
    (d.operandIdx (ix2 e c) idx (0 : Fin 2)).val = (rowOf N hN (idx (ix2 e 0))).val := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes (0 : Fin 2) = 1 := by rw [hss]; rfl
  simp only [GatherDims.operandIdx, GatherDims.batchCoord_eq_zero _ _ _ hb, GatherDims.offCoord_eq_zero _ _ _ hk,
    Nat.add_zero, GatherDims.start, dif_pos hm, hsl, rows_siIdx d hoff hsim hivd]
  rfl

/-- On the table's column axis the operand index is the result's column. -/
theorem rows_operand_one (hoff : d.offsetDims = [1]) (hcoll : d.collapsedSliceDims = [0])
    (hob : d.operandBatchingDims = []) (hsim : d.startIndexMap = [0])
    (idx : IVec (Sh n 1) 32) (e : Fin n) (c : Fin C) :
    (d.operandIdx (ix2 e c) idx (1 : Fin 2)).val = c.val := by
  have hb : (1 : Fin 2) ∉ d.operandBatchingDims := by rw [hob]; exact List.not_mem_nil
  have hm : (1 : Fin 2) ∉ d.startIndexMap := by rw [hsim]; show (1 : Fin 2) ∉ [(0 : Fin 2)]; decide
  have hk : (1 : Fin 2) ∈ d.sKept := by rw [GatherDims.mem_sKept, hcoll, hob]; show (1 : Fin 2) ∉ [(0 : Fin 2)] ∧ (1 : Fin 2) ∉ []; decide
  have hall : ∀ X ∈ d.offsetDims, X = (1 : Fin 2) := by rw [hoff]; simp
  simp only [GatherDims.operandIdx, GatherDims.batchCoord_eq_zero _ _ _ hb, GatherDims.start, dif_neg hm,
    GatherDims.offCoord, dif_pos hk, Nat.zero_add, Nat.add_zero]
  exact ix2_val_one e c _ (hall _ (List.getElem_mem _))

/-- THE ROW GATHER AT ONE ENTRY: entry (e, c) of the result is column c of the table row that start word e names. -/
theorem gather_rows_gen {α : Type} (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (t : (Sh N C).Idx → α) (idx : IVec (Sh n 1) 32) (e : Fin n) (c : Fin C) :
    Host.gather d t idx (ix2 e c) = t (ix2 (rowOf N hN (idx (ix2 e 0))) c) := by
  unfold Host.gather
  congr 1
  funext a
  refine Fin.ext ?_
  match a with
  | ⟨0, _⟩ => exact rows_operand_zero d hN hoff hcoll hob hsim hivd hss idx e c
  | ⟨1, _⟩ => exact rows_operand_one d hoff hcoll hob hsim idx e c

end GatherRows2

/-! ## The vector gather: one entry per start word -/

/-- The rank-1 index at a coordinate, written in two ways. -/
theorem ix1_eq_ofFin {n : Nat} (e : Fin n) : ix1 e = Shape.Idx.ofFin e := by
  funext a
  match a with
  | ⟨0, _⟩ => exact Fin.ext rfl

/-- Row e of an index column, written in two ways. -/
theorem ixP_eq_ix2 {n : Nat} (e : Fin n) : StableHlo.Predicate.ixP e = ix2 e (0 : Fin 1) := by
  funext a
  match a with
  | ⟨0, _⟩ => rfl
  | ⟨1, _⟩ => rfl

/-- THE VECTOR GATHER AT ONE ENTRY: entry e of the result is the vector's entry that start word e names. -/
theorem gather_vec_gen {α : Type} {N n : Nat} (hN : 0 < N) (d : GatherDims ⟨1, ![N]⟩ (Sh n 1) ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec (Sh n 1) 32) (e : Fin n) :
    Host.gather d x idx (ix1 e) = x (ix1 (rowOf N hN (idx (ix2 e 0)))) := by
  rw [ix1_eq_ofFin, ix1_eq_ofFin, StableHlo.Predicate.gather_take d hcoll hob hsim hivd x idx e hN]
  refine congrArg x (congrArg Shape.Idx.ofFin (Fin.ext ?_))
  show min (idx (StableHlo.Predicate.ixP e)).toInt.toNat (N - 1) = min (idx (ix2 e 0)).toInt.toNat (N - 1)
  rw [ixP_eq_ix2]

/-! ## The row scatter-add -/

/-- An index read on two names of one axis gives one coordinate. -/
theorem idx2_val_congr {a b : Nat} (j : (Sh a b).Idx) (X Y : Fin 2) (h : X = Y) : (j X).val = (j Y).val := by
  subst h; rfl

section ScatterRows
variable {N n C : Nat} (d : ScatterDims (Sh N C) (Sh n 1) (Sh n C))

/-- When the second axis is the one window axis, the updates' scatter axes are the first alone. -/
theorem srows_scatter_mem (huw : d.updateWindowDims = [1]) (X : Fin (Sh n C).rank) (hX : X ∈ d.uScatter) : X = (0 : Fin 2) := by
  have h1 : X ∉ d.updateWindowDims := by
    have := (List.mem_filter.1 hX).2
    simpa using this
  rw [huw] at h1
  match X with
  | ⟨0, _⟩ => rfl
  | ⟨1, _⟩ => exact absurd (List.mem_singleton.mpr rfl) h1

/-- The start word an update entry j reads is the one in j's row of the index column. -/
theorem srows_siIdx (huw : d.updateWindowDims = [1]) (hsd : d.scatterDimsToOperandDims = [0]) (hivd : d.indexVectorDim = 1)
    (j : (Sh n C).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    exact idx2_val_congr j _ 0 (srows_scatter_mem d huw _ (List.getElem_mem _))
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the row axis is the start word read signed. -/
theorem srows_start_zero (huw : d.updateWindowDims = [1]) (hsd : d.scatterDimsToOperandDims = [0]) (hivd : d.indexVectorDim = 1)
    (idx : IVec (Sh n 1) 32) (j : (Sh n C).Idx) : d.start j idx (0 : Fin 2) = (idx (ix2 (j 0) 0)).toInt := by
  have hm : (0 : Fin 2) ∈ d.scatterDimsToOperandDims := by rw [hsd]; exact List.mem_singleton.mpr rfl
  unfold ScatterDims.start
  rw [dif_pos hm, srows_siIdx d huw hsd hivd]
  rfl

/-- The window's start on the column axis is zero. -/
theorem srows_start_one (hsd : d.scatterDimsToOperandDims = [0])
    (idx : IVec (Sh n 1) 32) (j : (Sh n C).Idx) : d.start j idx (1 : Fin 2) = 0 := by
  have hm : (1 : Fin 2) ∉ d.scatterDimsToOperandDims := by rw [hsd]; show (1 : Fin 2) ∉ [(0 : Fin 2)]; decide
  unfold ScatterDims.start
  rw [dif_neg hm]

/-- The window coordinate on the row axis, an inserted one, is zero. -/
theorem srows_window_zero (hiw : d.insertedWindowDims = [0]) (j : (Sh n C).Idx) : d.window j (0 : Fin 2) = 0 := by
  have hk : (0 : Fin 2) ∉ d.sKept := by
    intro h
    have := (List.mem_filter.1 h).2
    rw [hiw] at this
    simp at this
  unfold ScatterDims.window
  rw [dif_neg hk]

/-- The window coordinate on the column axis is the update's column. -/
theorem srows_window_one (huw : d.updateWindowDims = [1]) (hiw : d.insertedWindowDims = [0]) (j : (Sh n C).Idx) :
    d.window j (1 : Fin 2) = (j 1).val := by
  have hk : (1 : Fin 2) ∈ d.sKept := by
    refine List.mem_filter.2 ⟨List.mem_finRange _, ?_⟩
    rw [hiw]
    show decide ((1 : Fin 2) ∉ [(0 : Fin 2)]) = true
    decide
  have hall : ∀ X ∈ d.updateWindowDims, X = (1 : Fin 2) := by rw [huw]; simp
  unfold ScatterDims.window
  rw [dif_pos hk]
  exact idx2_val_congr j _ 1 (hall _ (List.getElem_mem _))

end ScatterRows

section ScatterRows2
variable {N n C : Nat} (d : ScatterDims (Sh N C) (Sh n 1) (Sh n C))

/-- WHERE AN UPDATE LANDS. Update entry j lands on operand entry t exactly when j's start word, read signed, is t's row
    and j's column is t's column. -/
theorem srows_resultIdx_iff (huw : d.updateWindowDims = [1]) (hiw : d.insertedWindowDims = [0])
    (hsd : d.scatterDimsToOperandDims = [0]) (hivd : d.indexVectorDim = 1)
    (idx : IVec (Sh n 1) 32) (j : (Sh n C).Idx) (t : (Sh N C).Idx) :
    d.resultIdx? j idx = some t ↔ (idx (ix2 (j 0) 0)).toInt = ((t 0).val : ℤ) ∧ (j 1).val = (t 1).val := by
  have hs0 := srows_start_zero d huw hsd hivd idx j
  have hs1 := srows_start_one d hsd idx j
  have hw0 := srows_window_zero d hiw j
  have hw1 := srows_window_one d huw hiw j
  have ht0 : (t 0).val < N := idx2_lt0 t
  have ht1 : (t 1).val < C := idx2_lt1 t
  constructor
  · intro h
    unfold ScatterDims.resultIdx? at h
    split at h
    · rename_i hh
      have hf := Option.some.inj h
      have h0 : (d.start j idx (0 : Fin 2) + d.window j (0 : Fin 2)).toNat = (t 0).val :=
        congrArg (fun f : (Sh N C).Idx => (f 0).val) hf
      have h1 : (d.start j idx (1 : Fin 2) + d.window j (1 : Fin 2)).toNat = (t 1).val :=
        congrArg (fun f : (Sh N C).Idx => (f 1).val) hf
      have hh0 := (hh (0 : Fin 2)).1
      rw [hs0, hw0] at h0 hh0
      rw [hs1, hw1] at h1
      constructor <;> omega
    · exact absurd h (by simp)
  · rintro ⟨h0, h1⟩
    have hh : ∀ a, 0 ≤ d.start j idx a + d.window j a ∧ d.start j idx a + d.window j a < (Sh N C).size a := by
      intro a
      match a with
      | ⟨0, _⟩ =>
        show 0 ≤ d.start j idx (0 : Fin 2) + d.window j (0 : Fin 2) ∧ d.start j idx (0 : Fin 2) + d.window j (0 : Fin 2) < (N : ℤ)
        rw [hs0, hw0, h0]
        omega
      | ⟨1, _⟩ =>
        show 0 ≤ d.start j idx (1 : Fin 2) + d.window j (1 : Fin 2) ∧ d.start j idx (1 : Fin 2) + d.window j (1 : Fin 2) < (C : ℤ)
        rw [hs1, hw1, h1]
        omega
    unfold ScatterDims.resultIdx?
    rw [dif_pos hh]
    congr 1
    funext a
    apply Fin.ext
    match a with
    | ⟨0, _⟩ =>
      show (d.start j idx (0 : Fin 2) + d.window j (0 : Fin 2)).toNat = (t 0).val
      rw [hs0, hw0, h0]
      omega
    | ⟨1, _⟩ =>
      show (d.start j idx (1 : Fin 2) + d.window j (1 : Fin 2)).toNat = (t 1).val
      rw [hs1, hw1, h1]
      omega

end ScatterRows2

section ScatterRows3
variable {N n C : Nat} (d : ScatterDims (Sh N C) (Sh n 1) (Sh n C))

/-- THE ROW SCATTER-ADD AT ONE ENTRY: entry (i, c) of the result is the operand's entry plus column c of every update
    row whose start word, read signed, is i. (A word outside the table matches no i: its row is dropped.) -/
theorem scatterAdd_rows_gen (huw : d.updateWindowDims = [1]) (hiw : d.insertedWindowDims = [0])
    (hsd : d.scatterDimsToOperandDims = [0]) (hivd : d.indexVectorDim = 1)
    (x : RArr N C) (idx : IVec (Sh n 1) 32) (u : RArr n C) (i : Fin N) (c : Fin C) :
    Ideal.hostScatterAdd d x idx u (ix2 i c)
      = x (ix2 i c) + ∑ e ∈ Finset.univ.filter (fun e : Fin n => (idx (ix2 e 0)).toInt = (i.val : ℤ)), u (ix2 e c) := by
  have key := fun j => srows_resultIdx_iff d huw hiw hsd hivd idx j (ix2 i c)
  have back : ∀ j : (Sh n C).Idx, (j 1).val = c.val → ix2 (j 0) c = j := by
    intro j hj
    funext a
    match a with
    | ⟨0, _⟩ => rfl
    | ⟨1, _⟩ => exact Fin.ext hj.symm
  unfold Ideal.hostScatterAdd
  congr 1
  refine Finset.sum_bij' (fun j _ => j 0) (fun e _ => ix2 e c) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e c)).2 ⟨(Finset.mem_filter.1 he).2, rfl⟩⟩
  · intro j hj
    exact back j ((key j).1 (Finset.mem_filter.1 hj).2).2
  · intro e he
    rfl
  · intro j hj
    exact congrArg u (back j ((key j).1 (Finset.mem_filter.1 hj).2).2).symm

end ScatterRows3

/-! ## The vector scatter-add -/

section ScatterVec
variable {N n : Nat} (d : ScatterDims ⟨1, ![N]⟩ (Sh n 1) ⟨1, ![n]⟩)

/-- The start word update entry j reads is the one in row j of the index column (the updates have one axis). -/
theorem svec_siIdx (hsd : d.scatterDimsToOperandDims = [0]) (hivd : d.indexVectorDim = 1)
    (j : (⟨1, ![n]⟩ : Shape).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the vector's one axis is the start word read signed. -/
theorem svec_start (hsd : d.scatterDimsToOperandDims = [0]) (hivd : d.indexVectorDim = 1)
    (idx : IVec (Sh n 1) 32) (j : (⟨1, ![n]⟩ : Shape).Idx) : d.start j idx (0 : Fin 1) = (idx (ix2 (j 0) 0)).toInt := by
  have hm : (0 : Fin 1) ∈ d.scatterDimsToOperandDims := by rw [hsd]; exact List.mem_singleton.mpr rfl
  unfold ScatterDims.start
  rw [dif_pos hm, svec_siIdx d hsd hivd]
  rfl

/-- The window coordinate on the vector's one axis, an inserted one, is zero. -/
theorem svec_window (hiw : d.insertedWindowDims = [0]) (j : (⟨1, ![n]⟩ : Shape).Idx) : d.window j (0 : Fin 1) = 0 := by
  have hk : (0 : Fin 1) ∉ d.sKept := by
    intro h
    have := (List.mem_filter.1 h).2
    rw [hiw] at this
    simp at this
  unfold ScatterDims.window
  rw [dif_neg hk]

/-- WHERE AN UPDATE LANDS. Update entry j lands on operand entry t exactly when j's start word, read signed, is t. -/
theorem svec_resultIdx_iff (hiw : d.insertedWindowDims = [0]) (hsd : d.scatterDimsToOperandDims = [0])
    (hivd : d.indexVectorDim = 1) (idx : IVec (Sh n 1) 32) (j : (⟨1, ![n]⟩ : Shape).Idx) (t : (⟨1, ![N]⟩ : Shape).Idx) :
    d.resultIdx? j idx = some t ↔ (idx (ix2 (j 0) 0)).toInt = ((t 0).val : ℤ) := by
  have hs0 := svec_start d hsd hivd idx j
  have hw0 := svec_window d hiw j
  have ht0 : (t 0).val < N := (t 0).isLt
  constructor
  · intro h
    unfold ScatterDims.resultIdx? at h
    split at h
    · rename_i hh
      have hf := Option.some.inj h
      have h0 : (d.start j idx (0 : Fin 1) + d.window j (0 : Fin 1)).toNat = (t 0).val :=
        congrArg (fun f : (⟨1, ![N]⟩ : Shape).Idx => (f 0).val) hf
      have hh0 := (hh (0 : Fin 1)).1
      rw [hs0, hw0] at h0 hh0
      omega
    · exact absurd h (by simp)
  · intro h0
    have hh : ∀ a, 0 ≤ d.start j idx a + d.window j a ∧ d.start j idx a + d.window j a < (⟨1, ![N]⟩ : Shape).size a := by
      intro a
      match a with
      | ⟨0, _⟩ =>
        show 0 ≤ d.start j idx (0 : Fin 1) + d.window j (0 : Fin 1) ∧ d.start j idx (0 : Fin 1) + d.window j (0 : Fin 1) < (N : ℤ)
        rw [hs0, hw0, h0]
        omega
    unfold ScatterDims.resultIdx?
    rw [dif_pos hh]
    congr 1
    funext a
    apply Fin.ext
    match a with
    | ⟨0, _⟩ =>
      show (d.start j idx (0 : Fin 1) + d.window j (0 : Fin 1)).toNat = (t 0).val
      rw [hs0, hw0, h0]
      omega

/-- THE VECTOR SCATTER-ADD AT ONE ENTRY: entry i of the result is the operand's entry plus every update entry whose
    start word, read signed, is i. -/
theorem scatterAdd_vec_gen (hiw : d.insertedWindowDims = [0]) (hsd : d.scatterDimsToOperandDims = [0])
    (hivd : d.indexVectorDim = 1) (x : (⟨1, ![N]⟩ : Shape).Idx → EReal) (idx : IVec (Sh n 1) 32)
    (u : (⟨1, ![n]⟩ : Shape).Idx → EReal) (i : Fin N) :
    Ideal.hostScatterAdd d x idx u (ix1 i)
      = x (ix1 i) + ∑ e ∈ Finset.univ.filter (fun e : Fin n => (idx (ix2 e 0)).toInt = (i.val : ℤ)), u (ix1 e) := by
  have key := fun j => svec_resultIdx_iff d hiw hsd hivd idx j (ix1 i)
  unfold Ideal.hostScatterAdd
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j hj
    exact (eq_ix1 j).symm
  · intro e he
    rfl
  · intro j hj
    exact congrArg u (eq_ix1 j)

end ScatterVec

end Cert.LibGS

end
-- ==== Proof.PreDecode.lean ====
/-
  The precondition read back. The printed predicate is the conjunction of two tests, each a test of every entry folded
  by "and": every feature is finite, and every word in row 0 of the endpoints, read as a signed integer, is at least 0
  and below 100000. Where the predicate is all ones the second test gives, edge by edge, that the source word names a node.
  The first test is not used here.
-/
import proofs.«431381_j29575144800265_1_alg».proof.Pre_finite_inputs
import proofs.«431381_j29575144800265_1_alg».proof.Proof.Gen.Pre_finite_inputs
import proofs.«431381_j29575144800265_1_alg».proof.Proof.Spec
import Idealize.ShloMosaic.Lib.StableHlo.Predicate
import Idealize.ShloMosaic.Lib.ReduceAll
import Idealize.ShloMosaic.Lib.Pipeline.Value
import Idealize.ShloMosaic.Lib.ValueIdx

noncomputable section

namespace Cert.PreDecode

open Idealize.ShloMosaic Idealize.ShloMosaic.ValueIdx
open Cert.Pre_finite_inputs

/-- Every source word (row 0 of the endpoints), read as a signed integer, is the number of a node. -/
def SrcInRange (ends : Cert.Spec.SEnds.Idx → BitVec 32) : Prop :=
  ∀ e : Fin 1600000, 0 ≤ (ends (ix2 0 e)).toInt ∧ (ends (ix2 0 e)).toInt < 100000

/-- The scalar shape has one index. -/
instance : Subsingleton S_.Idx := ⟨fun a b => funext fun d => d.elim0⟩

/-- Row 0 of the endpoints, flattened to a vector, read at position e is the endpoints' entry (0, e). -/
theorem row0_flat (ends : IVec S2x1600000 32) (hs : S2x1600000.Slices ![0, 0] S1x1600000)
    (hc : S1x1600000.ShapeCasts S1600000) (e : Fin 1600000) :
    shapeCast S1600000 (extractStridedSlice S1x1600000 ![0, 0] ends hs) hc (ix1 e) = ends (ix2 (0 : Fin 2) e) := by
  refine (shapeCast_apply _ hc (ix1 e) (ix2 (0 : Fin 1) e) ?_).trans ?_
  · rw [Shape.rowMajor_val_two, Shape.rowMajor_val_one]
    show 0 * 1600000 + e.val = e.val
    omega
  · exact extractStridedSlice_apply ![0, 0] ends hs (ix2 (0 : Fin 1) e) (ix2 (0 : Fin 2) e) (fun a => match a with
      | ⟨0, _⟩ => rfl
      | ⟨1, _⟩ => by show e.val = 0 + e.val; omega)

/-- A scalar word broadcast along the vector reads that word at every position. -/
theorem splat_read (hb : S_.BroadcastsInDim S1600000 (![] : Fin 0 → Fin S1600000.rank)) (w : BitVec 32) (e : Fin 1600000) :
    broadcastInDim S1600000 ![] hb (constantI S_ 32 w) (ix1 e) = w := rfl

/-- THE PRECONDITION READ BACK: where the printed predicate is all ones, every source word names a node. -/
theorem src_of_pre {F : FTy → Type} [FloatOps F] (x : FVec F S100000x64 .f32) (ends : IVec S2x1600000 32)
    (h : Cert.Pre_finite_inputs.fn (F := F) x ends = fun _ => 1#1) : SrcInRange ends := by
  intro e
  have h0 := congrFun h ValueIdx.ix0
  dsimp only [Cert.Pre_finite_inputs.fn] at h0
  have h1 : Host.reduce IntOp.andi _ _ _ _ ix0 = 1#1 := (IntOp.andi_eq_one.1 h0).2
  have h2 := Host.reduce_andi_all _ _ _ _ _ h1 (ix1 e)
  obtain ⟨ha, hb⟩ := IntOp.andi_eq_one.1 h2
  have ha' := IntOp.cmpi_sge.1 ha
  have hb' := IntOp.cmpi_slt.1 hb
  rw [row0_flat, splat_read] at ha' hb'
  have hz : (0#32 : BitVec 32).toInt = 0 := by decide
  have hk : (100000#32 : BitVec 32).toInt = 100000 := by decide
  rw [hz] at ha'
  rw [hk] at hb'
  exact ⟨ha', hb'⟩

end Cert.PreDecode

end
-- ==== Proof.RefValue.lean ====
/-
  The reference is the specification. The reference gathers, for every edge, the feature row of the node its source word
  names, and scatter-adds those rows into a zero array at the rows the target words name. Read at one entry (n, d):
  the scatter-add is the sum, over the edges whose target word read signed is n, of column d of the gathered rows; a gather
  reads its word signed and clamped into the table, after the reference has wrapped a negative word by the table's height.
  With every source word the number of a node, the wrap and the clamp change nothing, so the gathered row of edge e is the
  message on e; and for n below 100000 a word reads n signed exactly when it is the word of n. So the result is the
  aggregate, at the target words, of the messages from the source words.
-/
import proofs.«431381_j29575144800265_1_alg».proof.Proof.Spec
import proofs.«431381_j29575144800265_1_alg».proof.Proof.LibGatherScatter
import proofs.«431381_j29575144800265_1_alg».proof.Proof.PreDecode
import proofs.«431381_j29575144800265_1_alg».proof.Proof.Gen.ReferenceIdeal.Read
import Idealize.ShloMosaic.PureOps.Ideal.Laws
import Idealize.ShloMosaic.Lib.Affine
import Idealize.ShloMosaic.Lib.StableHlo.Predicate
import Idealize.ShloMosaic.Lib.ValueIdx

noncomputable section

open scoped BigOperators

namespace Cert.RefValue

open Idealize.ShloMosaic Idealize.ShloMosaic.ValueIdx
open Cert.ReferenceIdeal Cert.ReferenceIdeal.Read Cert.PreDecode

/-! ## Words -/

/-- A word read signed equals a small natural number exactly when it is that number's word. -/
theorem toInt_eq_natCast_iff (w : BitVec 32) (n : ℕ) (hn : n < 2 ^ 31) : w.toInt = (n : ℤ) ↔ w = BitVec.ofNat 32 n := by
  constructor
  · intro h
    apply BitVec.eq_of_toNat_eq
    rw [BitVec.toNat_ofNat]
    have hw := w.isLt
    rw [BitVec.toInt_eq_toNat_cond] at h
    split at h <;> omega
  · rintro rfl
    exact StableHlo.Predicate.toInt_ofNat_small n hn

/-- A word that is not negative reads the same signed and unsigned. -/
theorem toNat_of_nonneg (w : BitVec 32) (h : 0 ≤ w.toInt) : (w.toNat : ℤ) = w.toInt := by
  have hw := w.isLt
  rw [BitVec.toInt_eq_toNat_cond] at h ⊢
  split at h <;> rename_i hc
  · rw [if_pos hc]
  · omega

/-- The reference's wrap of a negative source word leaves a word that is not negative as it is. -/
theorem wrap_id (w : BitVec 32) (h : 0 ≤ w.toInt) :
    Scalar.select (IntOp.cmpi .slt w 0#32) (IntOp.addi w 100000#32) w = w := by
  have hz : (0#32 : BitVec 32).toInt = 0 := by decide
  have hn : ¬ IntOp.cmpi .slt w 0#32 = 1#1 := fun hc => by
    have := IntOp.cmpi_slt.1 hc
    omega
  rw [eq_zero_of_ne_one hn, select_zero]

/-- The gather's clamp leaves the number of a node as it is: the row a word in range names is the word's value. -/
theorem rowOf_val (N : ℕ) (hN : 0 < N) (w : BitVec 32) (h0 : 0 ≤ w.toInt) (h1 : w.toInt < N) :
    (Cert.LibGS.rowOf N hN w).val = w.toNat := by
  have e := toNat_of_nonneg w h0
  show min w.toInt.toNat (N - 1) = w.toNat
  omega

/-! ## The reference's index columns, read at one edge -/

/-- The scatter's index column at edge e holds the target word of e (row 1 of the endpoints). -/
theorem dst_word (ends : IVec S2x1600000 32) (e : Fin 1600000) :
    val_main_v12 (F := Ideal) ends (ix2 e (0 : Fin 1)) = ends (ix2 (1 : Fin 2) e) := by
  rw [val_main_v12_apply, val_main_v3_apply, val_main_v2_apply]
  refine congrArg ends (funext fun a => Fin.ext ?_)
  match a with
  | ⟨0, _⟩ => rfl
  | ⟨1, _⟩ => exact Nat.mod_eq_of_lt e.isLt

/-- The gather's index column at edge e holds the source word of e (row 0 of the endpoints), wrapped if negative. -/
theorem src_word (ends : IVec S2x1600000 32) (e : Fin 1600000) :
    val_main_v9 (F := Ideal) ends (ix2 e (0 : Fin 1))
      = Scalar.select (IntOp.cmpi .slt (ends (ix2 (0 : Fin 2) e)) 0#32) (IntOp.addi (ends (ix2 (0 : Fin 2) e)) 100000#32)
          (ends (ix2 (0 : Fin 2) e)) := by
  have hi : idx_main_v0 (idx_main_v1 (idx_main_v9 (ix2 e (0 : Fin 1)))) = ix2 (0 : Fin 2) e := by
    funext a
    refine Fin.ext ?_
    match a with
    | ⟨0, _⟩ => rfl
    | ⟨1, _⟩ => exact Nat.mod_eq_of_lt e.isLt
  rw [val_main_v9_apply, val_main_v8_apply, val_main_v5_apply, val_main_v7_apply, val_main_v4_apply, val_main_v6_apply,
    val_main_c_apply, val_main_c_0_apply, val_main_v1_apply, val_main_v0_apply, hi]

/-! ## The gather, read at one entry -/

/-- THE GATHER AT ONE ENTRY: with every source word a node's number, the message row of edge e is the feature row of the
    node that word names. -/
theorem gathered (x : FVec Ideal S100000x64 .f32) (ends : IVec S2x1600000 32) (h : SrcInRange ends)
    (e : Fin 1600000) (d : Fin 64) :
    val_main_v10 (F := Ideal) x ends (ix2 e d) = Cert.Spec.msgAt (Cert.Spec.endsRow ends 0) x e d := by
  obtain ⟨h0, h1⟩ := h e
  have hN : 0 < 100000 := by decide
  have hlt : (ends (ix2 (0 : Fin 2) e)).toNat < 100000 := by
    have := toNat_of_nonneg _ h0
    omega
  unfold val_main_v10
  rw [Cert.LibGS.gather_rows_gen gather_S100000x64_S1600000x1_S1600000x64_1_0_n_n_0_1_164 hN rfl rfl rfl rfl rfl rfl x
    (val_main_v9 (F := Ideal) ends) e d, src_word, wrap_id _ h0]
  unfold Cert.Spec.msgAt
  show _ = if hh : (ends (ix2 (0 : Fin 2) e)).toNat < 100000 then x (ix2 ⟨(ends (ix2 (0 : Fin 2) e)).toNat, hh⟩ d) else 0
  rw [dif_pos hlt]
  exact congrArg (fun r => x (ix2 r d)) (Fin.ext (rowOf_val 100000 hN _ h0 h1))

/-! ## The reference's result at one entry -/

/-- The array the scatter-add starts from is zero everywhere. -/
theorem zeros_read (n : Fin 100000) (d : Fin 64) : val_main_v11 (F := Ideal) (ix2 n d) = 0 := by
  rw [val_main_v11_apply, val_main_cst_apply]
  exact Ideal.ofBits_zero_f32

/-- At the extended reals the host's accumulating scatter is the exact sum, whatever the shapes. -/
theorem scatterAdd_ideal {s si u : Shape} {φ : FTy} {w : Nat} (d : ScatterDims s si u) (a : FVec Ideal s φ) (idx : IVec si w)
    (upd : FVec Ideal u φ) : Host.scatterAdd d a idx upd = Ideal.hostScatterAdd d a idx upd := rfl

/-- THE SCATTER-ADD AT ONE ENTRY: entry (n, d) of the reference's result is the sum of column d of the message rows of
    the edges whose target word, read signed, is n. -/
theorem scattered (x : FVec Ideal S100000x64 .f32) (ends : IVec S2x1600000 32) (n : Fin 100000) (d : Fin 64) :
    val_main_v13 (F := Ideal) x ends (ix2 n d)
      = ∑ e ∈ Finset.univ.filter (fun e : Fin 1600000 => (val_main_v12 (F := Ideal) ends (ix2 e (0 : Fin 1))).toInt = (n.val : ℤ)),
          val_main_v10 (F := Ideal) x ends (ix2 e d) := by
  have hA : val_main_v13 (F := Ideal) x ends
      = Host.scatterAdd (F := Ideal) (φ := .f32) scatter_S100000x64_S1600000x1_S1600000x64_1_0_0_1 (val_main_v11 (F := Ideal))
          (val_main_v12 (F := Ideal) ends) (val_main_v10 (F := Ideal) x ends) := rfl
  have key := Cert.LibGS.scatterAdd_rows_gen scatter_S100000x64_S1600000x1_S1600000x64_1_0_0_1 rfl rfl rfl rfl
    (val_main_v11 (F := Ideal)) (val_main_v12 (F := Ideal) ends) (val_main_v10 (F := Ideal) x ends) n d
  rw [zeros_read, zero_add] at key
  rw [hA, scatterAdd_ideal]
  exact key

/-- The specification at one entry, with the rows of endpoints written out. -/
theorem spec_read (x : FVec Ideal S100000x64 .f32) (ends : IVec S2x1600000 32) (n : Fin 100000) (d : Fin 64) :
    Cert.Spec.result x ends (ix2 n d)
      = ∑ e : Fin 1600000, if ends (ix2 (1 : Fin 2) e) = BitVec.ofNat 32 n.val
          then Cert.Spec.msgAt (Cert.Spec.endsRow ends 0) x e d else 0 := by
  unfold Cert.Spec.result
  rw [Cert.Spec.agg_apply]
  unfold Cert.Spec.aggAt
  refine Finset.sum_congr rfl fun e _ => ?_
  rfl

/-- One edge's contribution is the same on both sides. -/
theorem summand (x : FVec Ideal S100000x64 .f32) (ends : IVec S2x1600000 32) (h : SrcInRange ends)
    (n : Fin 100000) (d : Fin 64) (e : Fin 1600000) :
    (if (val_main_v12 (F := Ideal) ends (ix2 e (0 : Fin 1))).toInt = (n.val : ℤ) then val_main_v10 (F := Ideal) x ends (ix2 e d) else 0)
      = if ends (ix2 (1 : Fin 2) e) = BitVec.ofNat 32 n.val then Cert.Spec.msgAt (Cert.Spec.endsRow ends 0) x e d else 0 := by
  have hn : n.val < 2 ^ 31 := by have := n.isLt; omega
  have hiff := toInt_eq_natCast_iff (ends (ix2 (1 : Fin 2) e)) n.val hn
  rw [dst_word, gathered x ends h e d]
  by_cases hc : ends (ix2 (1 : Fin 2) e) = BitVec.ofNat 32 n.val
  · rw [if_pos (hiff.2 hc), if_pos hc]
  · rw [if_neg (fun hh => hc (hiff.1 hh)), if_neg hc]

/-- THE REFERENCE IS THE SPECIFICATION: with every source word a node's number, the reference's result is the aggregate,
    at the target words, of the messages from the source words. -/
theorem ref_result (x : FVec Ideal S100000x64 .f32) (ends : IVec S2x1600000 32) (h : SrcInRange ends) :
    val_main_v13 (F := Ideal) x ends = Cert.Spec.result x ends := by
  funext i
  obtain ⟨n, d, rfl⟩ : ∃ (n : Fin 100000) (d : Fin 64), i = ix2 n d := ⟨i 0, i 1, eq_ix2 i⟩
  rw [scattered, spec_read, Finset.sum_filter]
  exact Finset.sum_congr rfl fun e _ => summand x ends h n d e

end Cert.RefValue

end
-- ==== Proof.lean ====
/-
  Message passing on a graph — gather each edge's source-node feature row, add it into the edge's target-node row — done
  by a kernel as two one-hot matrix products, each accumulated block by block over a grid axis in a scratch buffer,
  against the gather and the scatter-add themselves.

  Over the extended reals the one-hot product of a source word with the node features is the feature row of the node
  the word names (zero if it names none), and the one-hot product of a node number with the target words sums the
  messages of the edges whose target word is that number: exactly what the scatter-add keeps, which drops a word
  that names no node. The gather clamps a word that names no node where the one-hot product gives zero, and reads a
  negative word from the end of the table, so the two programs agree when every source word names a node: the
  precondition's second conjunct, 0 ≤ source < 100000.

  Both kernel programs run region by region: each region's scratch accumulator is carried from grid point to grid
  point in the region's invariant, reset at the first point of a row and written out at the last.
-/
import proofs.«431381_j29575144800265_1_alg».proof.Defs
import proofs.«431381_j29575144800265_1_alg».proof.Proof.Gen.Kernel
import proofs.«431381_j29575144800265_1_alg».proof.Proof.Gen.KernelIdeal
import proofs.«431381_j29575144800265_1_alg».proof.Proof.Gen.ReferenceIdeal
import proofs.«431381_j29575144800265_1_alg».proof.Proof.Gen.ReferenceIdeal.Run
import proofs.«431381_j29575144800265_1_alg».proof.Proof.Gen.ReferenceIdeal.Read
import proofs.«431381_j29575144800265_1_alg».proof.Proof.Gen.Pre_finite_inputs
import proofs.«431381_j29575144800265_1_alg».proof.Proof.K.Run
import proofs.«431381_j29575144800265_1_alg».proof.Proof.KI.Run
import proofs.«431381_j29575144800265_1_alg».proof.Proof.KernelValue
import proofs.«431381_j29575144800265_1_alg».proof.Proof.RefValue
import proofs.«431381_j29575144800265_1_alg».proof.Proof.PreDecode
import Idealize.ShloMosaic.Adequacy
import Idealize.ShloMosaic.Init

noncomputable section

namespace Cert.Proof

open Idealize.ShloMosaic Idealize.SL.Sem

/-- The word-level kernel runs to the end and leaves its two arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with message passing over the launch arrays in their result: the kernel's by its regions' values,
    the reference's by its gather and scatter-add read at an index, the source words in range by the precondition. -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.RefValue.ref_result _ _ (Cert.PreDecode.src_of_pre _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
